-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x80x512x512 : Shape := ⟨4, ![2, 80, 512, 512]⟩
abbrev S2x32x512x512 : Shape := ⟨4, ![2, 32, 512, 512]⟩
abbrev S2x32 : Shape := ⟨2, ![2, 32]⟩
abbrev S_ : Shape := ⟨0, ![]⟩

class Facts : Prop where
  bcast_S_S2x80x512x512 : S_.BroadcastsInDim S2x80x512x512 (![] : Fin 0 → Fin S2x80x512x512.rank)
  reducesTo_S2x80x512x512_S_d0_1_2_3 : S2x80x512x512.ReducesTo [0, 1, 2, 3] S_
  h_S_ : 0 < S_.numel
  bcast_S_S2x32 : S_.BroadcastsInDim S2x32 (![] : Fin 0 → Fin S2x32.rank)
  reducesTo_S2x32_S_d0_1 : S2x32.ReducesTo [0, 1] S_

variable [Facts]

def fn {F : FTy → Type} [FloatOps F] (main_arg0 : FVec F S2x80x512x512 .f32) (main_arg1 : IVec S2x32x512x512 1) (main_arg2 : IVec S2x32 32) : IVec S_ 1 :=
  let main_v0 : FVec F S2x80x512x512 .f32 := Host.absf main_arg0
  let main_cst : FVec F S_ .f32 := constant S_ .f32 0x7F800000#32
  let main_v1 : FVec F S2x80x512x512 .f32 := broadcastInDim S2x80x512x512 ![] bcast_S_S2x80x512x512 main_cst
  let main_v2 : IVec S2x80x512x512 1 := cmpf .olt main_v0 main_v1
  let main_c : IVec S_ 1 := constantI S_ 1 1#1
  let main_v3 : IVec S_ 1 := (fun x v => Host.reduce IntOp.andi x v reducesTo_S2x80x512x512_S_d0_1_2_3 h_S_) main_v2 main_c
  let main_c_0 : IVec S_ 32 := constantI S_ 32 0#32
  let main_v4 : IVec S2x32 32 := broadcastInDim S2x32 ![] bcast_S_S2x32 main_c_0
  let main_v5 : IVec S2x32 1 := cmpi .sge main_arg2 main_v4
  let main_c_1 : IVec S_ 1 := constantI S_ 1 1#1
  let main_v6 : IVec S_ 1 := (fun x v => Host.reduce IntOp.andi x v reducesTo_S2x32_S_d0_1 h_S_) main_v5 main_c_1
  let main_v7 : IVec S_ 1 := andi main_v3 main_v6
  let main_c_2 : IVec S_ 32 := constantI S_ 32 80#32
  let main_v8 : IVec S2x32 32 := broadcastInDim S2x32 ![] bcast_S_S2x32 main_c_2
  let main_v9 : IVec S2x32 1 := cmpi .slt main_arg2 main_v8
  let main_c_3 : IVec S_ 1 := constantI S_ 1 1#1
  let main_v10 : IVec S_ 1 := (fun x v => Host.reduce IntOp.andi x v reducesTo_S2x32_S_d0_1 h_S_) main_v9 main_c_3
  let main_v11 : IVec S_ 1 := andi main_v7 main_v10
  main_v11
-- ==== Kernel.lean ====
abbrev S2x80x512x512 : Shape := ⟨4, ![2, 80, 512, 512]⟩
abbrev S2x32x512x512 : Shape := ⟨4, ![2, 32, 512, 512]⟩
abbrev S2x32 : Shape := ⟨2, ![2, 32]⟩
abbrev S2x80x262144 : Shape := ⟨3, ![2, 80, 262144]⟩
abbrev S2x32x262144 : Shape := ⟨3, ![2, 32, 262144]⟩
abbrev S2x80x32 : Shape := ⟨3, ![2, 80, 32]⟩
abbrev S2x32x1 : Shape := ⟨3, ![2, 32, 1]⟩
abbrev S1x80x32768 : Shape := ⟨3, ![1, 80, 32768]⟩
abbrev S1x32x32768 : Shape := ⟨3, ![1, 32, 32768]⟩
abbrev S1x80x32 : Shape := ⟨3, ![1, 80, 32]⟩
abbrev S1x32x1 : Shape := ⟨3, ![1, 32, 1]⟩
abbrev S80x32768 : Shape := ⟨2, ![80, 32768]⟩
abbrev S32x32768 : Shape := ⟨2, ![32, 32768]⟩
abbrev S32 : Shape := ⟨1, ![32]⟩
abbrev S32x1 : Shape := ⟨2, ![32, 1]⟩
abbrev S80x32 : Shape := ⟨2, ![80, 32]⟩
abbrev S2x1x32 : Shape := ⟨3, ![2, 1, 32]⟩
abbrev S_ : Shape := ⟨0, ![]⟩
abbrev S2x1x32x1 : Shape := ⟨4, ![2, 1, 32, 1]⟩
abbrev S1 : Shape := ⟨1, ![1]⟩
abbrev S1x1x1x1 : Shape := ⟨4, ![1, 1, 1, 1]⟩
abbrev S2x32x32 : Shape := ⟨3, ![2, 32, 32]⟩
abbrev S32x32 : Shape := ⟨2, ![32, 32]⟩
abbrev S1x32x32 : Shape := ⟨3, ![1, 32, 32]⟩
abbrev S2 : Shape := ⟨1, ![2]⟩

abbrev nBuf : Space → Nat
  | .hbm => 143
  | .vmem => 10
  | .smem => 0
  | _ => 0

abbrev hbmTy0_0 (i : Nat) : BufTy := match i % 128 with
  | 0 => ⟨S2x80x512x512, .f32⟩
  | 1 => ⟨S2x32x512x512, .i1⟩
  | 2 => ⟨S2x32, .i32⟩
  | 3 => ⟨S2x80x262144, .f32⟩
  | 4 => ⟨S2x32x262144, .i1⟩
  | 5 => ⟨S2x32x262144, .i32⟩
  | 6 => ⟨S2x80x32, .f32⟩
  | 7 => ⟨S2x80x32, .f32⟩
  | 8 => ⟨S2x32x1, .f32⟩
  | 9 => ⟨S2x32, .f32⟩
  | 10 => ⟨S2x1x32, .i32⟩
  | 11 => ⟨S_, .i32⟩
  | 12 => ⟨S2x1x32, .i32⟩
  | 13 => ⟨S2x1x32, .i1⟩
  | 14 => ⟨S_, .i32⟩
  | 15 => ⟨S2x1x32, .i32⟩
  | 16 => ⟨S2x1x32, .i32⟩
  | 17 => ⟨S2x1x32, .i32⟩
  | 18 => ⟨S2x1x32x1, .i32⟩
  | 19 => ⟨S1, .i32⟩
  | 20 => ⟨S_, .i32⟩
  | 21 => ⟨S2x1x32x1, .i32⟩
  | 22 => ⟨S2x1x32x1, .i1⟩
  | 23 => ⟨S1x1x1x1, .i32⟩
  | 24 => ⟨S2x1x32x1, .i32⟩
  | 25 => ⟨S2x1x32x1, .i1⟩
  | 26 => ⟨S2x1x32x1, .i1⟩
  | 27 => ⟨S_, .i1⟩
  | 28 => ⟨S2x1x32, .i1⟩
  | 29 => ⟨S2x1x32, .f32⟩
  | 30 => ⟨S_, .f32⟩
  | 31 => ⟨S2x1x32, .f32⟩
  | 32 => ⟨S2x1x32, .f32⟩
  | 33 => ⟨S2x32, .f32⟩
  | 34 => ⟨S_, .i32⟩
  | 35 => ⟨S2x1x32, .i32⟩
  | 36 => ⟨S2x1x32, .i1⟩
  | 37 => ⟨S_, .i32⟩
  | 38 => ⟨S2x1x32, .i32⟩
  | 39 => ⟨S2x1x32, .i32⟩
  | 40 => ⟨S2x1x32, .i32⟩
  | 41 => ⟨S2x1x32x1, .i32⟩
  | 42 => ⟨S1, .i32⟩
  | 43 => ⟨S_, .i32⟩
  | 44 => ⟨S2x1x32x1, .i32⟩
  | 45 => ⟨S2x1x32x1, .i1⟩
  | 46 => ⟨S1x1x1x1, .i32⟩
  | 47 => ⟨S2x1x32x1, .i32⟩
  | 48 => ⟨S2x1x32x1, .i1⟩
  | 49 => ⟨S2x1x32x1, .i1⟩
  | 50 => ⟨S_, .i1⟩
  | 51 => ⟨S2x1x32, .i1⟩
  | 52 => ⟨S2x1x32, .f32⟩
  | 53 => ⟨S_, .f32⟩
  | 54 => ⟨S2x1x32, .f32⟩
  | 55 => ⟨S2x1x32, .f32⟩
  | 56 => ⟨S2x32, .f32⟩
  | 57 => ⟨S_, .f32⟩
  | 58 => ⟨S2x32, .f32⟩
  | 59 => ⟨S2x32, .i1⟩
  | 60 => ⟨S_, .f32⟩
  | 61 => ⟨S_, .f32⟩
  | 62 => ⟨S2x32, .f32⟩
  | 63 => ⟨S2x32, .f32⟩
  | 64 => ⟨S2x32, .f32⟩
  | 65 => ⟨S_, .f32⟩
  | 66 => ⟨S_, .f32⟩
  | 67 => ⟨S2x32, .f32⟩
  | 68 => ⟨S2x32, .f32⟩
  | 69 => ⟨S2x32, .f32⟩
  | 70 => ⟨S2x32, .f32⟩
  | 71 => ⟨S2x32, .f32⟩
  | 72 => ⟨S_, .f32⟩
  | 73 => ⟨S_, .f32⟩
  | 74 => ⟨S2x32, .f32⟩
  | 75 => ⟨S2x32, .f32⟩
  | 76 => ⟨S2x32x1, .f32⟩
  | 77 => ⟨S2x1x32, .f32⟩
  | 78 => ⟨S2x32x32, .f32⟩
  | 79 => ⟨S2x32x32, .f32⟩
  | 80 => ⟨S2x32x32, .f32⟩
  | 81 => ⟨S2x32x32, .f32⟩
  | 82 => ⟨S2x32x1, .i32⟩
  | 83 => ⟨S2x1x32, .i32⟩
  | 84 => ⟨S2x32x32, .i32⟩
  | 85 => ⟨S2x32x32, .i32⟩
  | 86 => ⟨S2x32x32, .i1⟩
  | 87 => ⟨S_, .i1⟩
  | 88 => ⟨S32x32, .i1⟩
  | 89 => ⟨S32x32, .i32⟩
  | 90 => ⟨S_, .i32⟩
  | 91 => ⟨S32x32, .i32⟩
  | 92 => ⟨S32x32, .i32⟩
  | 93 => ⟨S32x32, .i32⟩
  | 94 => ⟨S32x32, .i1⟩
  | 95 => ⟨S_, .i1⟩
  | 96 => ⟨S32x32, .i1⟩
  | 97 => ⟨S32x32, .i1⟩
  | 98 => ⟨S1x32x32, .i1⟩
  | 99 => ⟨S2x32x32, .i1⟩
  | 100 => ⟨S2x32x32, .i1⟩
  | 101 => ⟨S_, .f32⟩
  | 102 => ⟨S2x32x32, .f32⟩
  | 103 => ⟨S2x32x32, .f32⟩
  | 104 => ⟨S_, .f32⟩
  | 105 => ⟨S2x32x32, .f32⟩
  | 106 => ⟨S2x32x32, .f32⟩
  | 107 => ⟨S_, .f32⟩
  | 108 => ⟨S_, .f32⟩
  | 109 => ⟨S2x32x32, .f32⟩
  | 110 => ⟨S2x32x32, .f32⟩
  | 111 => ⟨S_, .f32⟩
  | 112 => ⟨S2, .f32⟩
  | 113 => ⟨S2x32, .f32⟩
  | 114 => ⟨S_, .f32⟩
  | 115 => ⟨S2, .f32⟩
  | 116 => ⟨S_, .f32⟩
  | 117 => ⟨S2, .f32⟩
  | 118 => ⟨S2, .f32⟩
  | 119 => ⟨S_, .f32⟩
  | 120 => ⟨S2, .f32⟩
  | 121 => ⟨S_, .f32⟩
  | 122 => ⟨S2, .f32⟩
  | 123 => ⟨S2, .f32⟩
  | 124 => ⟨S_, .f32⟩
  | 125 => ⟨S2, .f32⟩
  | 126 => ⟨S2, .f32⟩
  | 127 => ⟨S_, .f32⟩
  | _ => ⟨S2x80x512x512, .f32⟩

abbrev hbmTy0_1 (i : Nat) : BufTy := match i % 128 with
  | 0 => ⟨S2, .f32⟩
  | 1 => ⟨S2, .f32⟩
  | 2 => ⟨S2, .f32⟩
  | 3 => ⟨S_, .f32⟩
  | 4 => ⟨S2, .f32⟩
  | 5 => ⟨S2, .f32⟩
  | 6 => ⟨S2, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | _ => ⟨S2x80x512x512, .f32⟩

abbrev hbmTy (i : Nat) : BufTy := match i / 128 with
  | 0 => hbmTy0_0 i
  | 1 => hbmTy0_1 i
  | _ => ⟨S2x80x512x512, .f32⟩

abbrev bufTy : (tb : Table) → Fin (tcTables nBuf tb) → BufTy
  | .hbm, ⟨i, _⟩ => hbmTy i
  | .local _ .vmem, ⟨0, _⟩ => ⟨S1x80x32768, .f32⟩
  | .local _ .vmem, ⟨1, _⟩ => ⟨S1x80x32768, .f32⟩
  | .local _ .vmem, ⟨2, _⟩ => ⟨S1x32x32768, .i32⟩
  | .local _ .vmem, ⟨3, _⟩ => ⟨S1x32x32768, .i32⟩
  | .local _ .vmem, ⟨4, _⟩ => ⟨S1x80x32, .f32⟩
  | .local _ .vmem, ⟨5, _⟩ => ⟨S1x80x32, .f32⟩
  | .local _ .vmem, ⟨6, _⟩ => ⟨S1x80x32, .f32⟩
  | .local _ .vmem, ⟨7, _⟩ => ⟨S1x80x32, .f32⟩
  | .local _ .vmem, ⟨8, _⟩ => ⟨S1x32x1, .f32⟩
  | .local _ .vmem, ⟨9, _⟩ => ⟨S1x32x1, .f32⟩
  | _, _ => ⟨S2x80x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4 : Ref sig .tc := ⟨.hbm, 9, rfl⟩
abbrev main_v5 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_cst : Ref sig .tc := ⟨.hbm, 30, rfl⟩
abbrev main_call0_v14 : Ref sig .tc := ⟨.hbm, 31, rfl⟩
abbrev main_v6 : Ref sig .tc := ⟨.hbm, 32, rfl⟩
abbrev main_v7 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_cst : Ref sig .tc := ⟨.hbm, 53, rfl⟩
abbrev main_call1_v14 : Ref sig .tc := ⟨.hbm, 54, rfl⟩
abbrev main_v8 : Ref sig .tc := ⟨.hbm, 55, rfl⟩
abbrev main_v9 : Ref sig .tc := ⟨.hbm, 56, rfl⟩
abbrev main_cst : Ref sig .tc := ⟨.hbm, 57, rfl⟩
abbrev main_v10 : Ref sig .tc := ⟨.hbm, 58, rfl⟩
abbrev main_v11 : Ref sig .tc := ⟨.hbm, 59, rfl⟩
abbrev main_cst_0 : Ref sig .tc := ⟨.hbm, 60, rfl⟩
abbrev main_call2_v0 : Ref sig .tc := ⟨.hbm, 61, rfl⟩
abbrev main_call2_v1 : Ref sig .tc := ⟨.hbm, 62, rfl⟩
abbrev main_v12 : Ref sig .tc := ⟨.hbm, 63, rfl⟩
abbrev main_v13 : Ref sig .tc := ⟨.hbm, 64, rfl⟩
abbrev main_cst_1 : Ref sig .tc := ⟨.hbm, 65, rfl⟩
abbrev main_call3_v0 : Ref sig .tc := ⟨.hbm, 66, rfl⟩
abbrev main_call3_v1 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_cst_2 : Ref sig .tc := ⟨.hbm, 72, rfl⟩
abbrev main_call4_v0 : Ref sig .tc := ⟨.hbm, 73, rfl⟩
abbrev main_call4_v1 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_c : Ref sig .tc := ⟨.hbm, 87, rfl⟩
abbrev main_v30 : Ref sig .tc := ⟨.hbm, 88, rfl⟩
abbrev main_call5_v0 : Ref sig .tc := ⟨.hbm, 89, rfl⟩
abbrev main_call5_c : Ref sig .tc := ⟨.hbm, 90, rfl⟩
abbrev main_call5_v1 : Ref sig .tc := ⟨.hbm, 91, rfl⟩
abbrev main_call5_v2 : Ref sig .tc := ⟨.hbm, 92, rfl⟩
abbrev main_call5_v3 : Ref sig .tc := ⟨.hbm, 93, rfl⟩
abbrev main_call5_v4 : Ref sig .tc := ⟨.hbm, 94, rfl⟩
abbrev main_call5_c_0 : Ref sig .tc := ⟨.hbm, 95, rfl⟩
abbrev main_call5_v5 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_cst_3 : Ref sig .tc := ⟨.hbm, 101, rfl⟩
abbrev main_v35 : Ref sig .tc := ⟨.hbm, 102, rfl⟩
abbrev main_v36 : Ref sig .tc := ⟨.hbm, 103, rfl⟩
abbrev main_cst_4 : Ref sig .tc := ⟨.hbm, 104, rfl⟩
abbrev main_v37 : Ref sig .tc := ⟨.hbm, 105, rfl⟩
abbrev main_v38 : Ref sig .tc := ⟨.hbm, 106, rfl⟩
abbrev main_cst_5 : Ref sig .tc := ⟨.hbm, 107, rfl⟩
abbrev main_call6_v0 : Ref sig .tc := ⟨.hbm, 108, rfl⟩
abbrev main_call6_v1 : Ref sig .tc := ⟨.hbm, 109, rfl⟩
abbrev main_v39 : Ref sig .tc := ⟨.hbm, 110, rfl⟩
abbrev main_cst_6 : Ref sig .tc := ⟨.hbm, 111, rfl⟩
abbrev main_v40 : Ref sig .tc := ⟨.hbm, 112, rfl⟩
abbrev main_v41 : Ref sig .tc := ⟨.hbm, 113, rfl⟩
abbrev main_cst_7 : Ref sig .tc := ⟨.hbm, 114, rfl⟩
abbrev main_v42 : Ref sig .tc := ⟨.hbm, 115, rfl⟩
abbrev main_cst_8 : Ref sig .tc := ⟨.hbm, 116, rfl⟩
abbrev main_v43 : Ref sig .tc := ⟨.hbm, 117, rfl⟩
abbrev main_v44 : Ref sig .tc := ⟨.hbm, 118, rfl⟩
abbrev main_cst_9 : Ref sig .tc := ⟨.hbm, 119, rfl⟩
abbrev main_v45 : Ref sig .tc := ⟨.hbm, 120, rfl⟩
abbrev main_cst_10 : Ref sig .tc := ⟨.hbm, 121, rfl⟩
abbrev main_v46 : Ref sig .tc := ⟨.hbm, 122, rfl⟩
abbrev main_v47 : Ref sig .tc := ⟨.hbm, 123, rfl⟩
abbrev main_cst_11 : Ref sig .tc := ⟨.hbm, 124, rfl⟩
abbrev main_v48 : Ref sig .tc := ⟨.hbm, 125, rfl⟩
abbrev main_v49 : Ref sig .tc := ⟨.hbm, 126, rfl⟩
abbrev main_cst_12 : Ref sig .tc := ⟨.hbm, 127, rfl⟩
abbrev main_v50 : Ref sig .tc := ⟨.hbm, 128, rfl⟩
abbrev main_v51 : Ref sig .tc := ⟨.hbm, 129, rfl⟩
abbrev main_v52 : Ref sig .tc := ⟨.hbm, 130, rfl⟩
abbrev main_cst_13 : Ref sig .tc := ⟨.hbm, 131, rfl⟩
abbrev main_v53 : Ref sig .tc := ⟨.hbm, 132, rfl⟩
abbrev main_v54 : Ref sig .tc := ⟨.hbm, 133, rfl⟩
abbrev main_v55 : Ref sig .tc := ⟨.hbm, 134, rfl⟩
abbrev main_cst_14 : Ref sig .tc := ⟨.hbm, 135, rfl⟩
abbrev main_v56 : Ref sig .tc := ⟨.hbm, 136, rfl⟩
abbrev main_cst_15 : Ref sig .tc := ⟨.hbm, 137, rfl⟩
abbrev main_v57 : Ref sig .tc := ⟨.hbm, 138, rfl⟩
abbrev main_cst_16 : Ref sig .tc := ⟨.hbm, 139, rfl⟩
abbrev main_v58 : Ref sig .tc := ⟨.hbm, 140, rfl⟩
abbrev main_cst_17 : Ref sig .tc := ⟨.hbm, 141, rfl⟩
abbrev main_v59 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x80x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x32768 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x80x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x80x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x32x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S2x80x512x512_S2x80x262144 : S2x80x512x512.ShapeCasts S2x80x262144
  shapeCasts_S2x32x512x512_S2x32x262144 : S2x32x512x512.ShapeCasts S2x32x262144
  natLt_1_32 : 1 < 32
  inb_S1x80x32_S1x80x32_0_0_0 : ∀ a, (![0, 0, 0] : Fin 3 → Nat) a + S1x80x32.size a ≤ S1x80x32.size a
  h_S1x80x32 : 0 < S1x80x32.numel
  inb_S1x32x1_S1x32x1_0_0_0 : ∀ a, (![0, 0, 0] : Fin 3 → Nat) a + S1x32x1.size a ≤ S1x32x1.size a
  h_S1x32x1 : 0 < S1x32x1.numel
  inb_S1x80x32768_S1x80x32768_0_0_0 : ∀ a, (![0, 0, 0] : Fin 3 → Nat) a + S1x80x32768.size a ≤ S1x80x32768.size a
  h_S1x80x32768 : 0 < S1x80x32768.numel
  shapeCasts_S1x80x32768_S80x32768 : S1x80x32768.ShapeCasts S80x32768
  inb_S1x32x32768_S1x32x32768_0_0_0 : ∀ a, (![0, 0, 0] : Fin 3 → Nat) a + S1x32x32768.size a ≤ S1x32x32768.size a
  h_S1x32x32768 : 0 < S1x32x32768.numel
  shapeCasts_S1x32x32768_S32x32768 : S1x32x32768.ShapeCasts S32x32768
  shapeCasts_S1x32x1_S1x32x1 : S1x32x1.ShapeCasts S1x32x1
  reduces_S32x32768_S32 : S32x32768.Reduces [1] S32
  shapeCasts_S32_S32x1 : S32.ShapeCasts S32x1
  shapeCasts_S32x1_S1x32x1 : S32x1.ShapeCasts S1x32x1
  bitsLt_bf16_f32 : FTy.bits .bf16 < FTy.bits .f32
  shapeCasts_S1x80x32_S1x80x32 : S1x80x32.ShapeCasts S1x80x32
  shapeCasts_S80x32_S1x80x32 : S80x32.ShapeCasts S1x80x32
  shapeCasts_S2x32x1_S2x32 : S2x32x1.ShapeCasts S2x32
  bcast_S2x32_S2x1x32_0_2 : S2x32.BroadcastsInDim S2x1x32 (![0, 2] : Fin 2 → Fin S2x1x32.rank)
  bcast_S_S2x1x32 : S_.BroadcastsInDim S2x1x32 (![] : Fin 0 → Fin S2x1x32.rank)
  shapeCasts_S2x1x32_S2x1x32x1 : S2x1x32.ShapeCasts S2x1x32x1
  bcast_S_S2x1x32x1 : S_.BroadcastsInDim S2x1x32x1 (![] : Fin 0 → Fin S2x1x32x1.rank)
  bcast_S1_S1x1x1x1_3 : S1.BroadcastsInDim S1x1x1x1 (![3] : Fin 1 → Fin S1x1x1x1.rank)
  bcast_S1x1x1x1_S2x1x32x1_0_1_2_3 : S1x1x1x1.BroadcastsInDim S2x1x32x1 (![0, 1, 2, 3] : Fin 4 → Fin S2x1x32x1.rank)
  reducesTo_S2x1x32x1_S2x1x32_d3 : S2x1x32x1.ReducesTo [3] S2x1x32
  h_S_ : 0 < S_.numel
  shapeCasts_S2x1x32_S2x32 : S2x1x32.ShapeCasts S2x32
  bcast_S_S2x32 : S_.BroadcastsInDim S2x32 (![] : Fin 0 → Fin S2x32.rank)
  bcast_S2x32_S2x32x1_0_1 : S2x32.BroadcastsInDim S2x32x1 (![0, 1] : Fin 2 → Fin S2x32x1.rank)
  bcast_S2x32x1_S2x32x32_0_1_2 : S2x32x1.BroadcastsInDim S2x32x32 (![0, 1, 2] : Fin 3 → Fin S2x32x32.rank)
  bcast_S2x1x32_S2x32x32_0_1_2 : S2x1x32.BroadcastsInDim S2x32x32 (![0, 1, 2] : Fin 3 → Fin S2x32x32.rank)
  bcast_S_S32x32 : S_.BroadcastsInDim S32x32 (![] : Fin 0 → Fin S32x32.rank)
  bcast_S32x32_S1x32x32_1_2 : S32x32.BroadcastsInDim S1x32x32 (![1, 2] : Fin 2 → Fin S1x32x32.rank)
  bcast_S1x32x32_S2x32x32_0_1_2 : S1x32x32.BroadcastsInDim S2x32x32 (![0, 1, 2] : Fin 3 → Fin S2x32x32.rank)
  bcast_S_S2x32x32 : S_.BroadcastsInDim S2x32x32 (![] : Fin 0 → Fin S2x32x32.rank)
  reducesTo_S2x32x32_S2_d1_2 : S2x32x32.ReducesTo [1, 2] S2
  reducesTo_S2x32_S2_d1 : S2x32.ReducesTo [1] S2
  bcast_S_S2 : S_.BroadcastsInDim S2 (![] : Fin 0 → Fin S2.rank)
  reducesTo_S2_S_d0 : S2.ReducesTo [0] S_
  dot_S80x32768_S32x32768_S80x32_1_1_0_0_n_n_wf : DotDims.WF S80x32768 S32x32768 S80x32 [1] [1] [0] [0] [] []
  gather_S2x80x32_S2x1x32x1_S2x1x32_n_1_02_02_1_3_111_wf : GatherDims.WF S2x80x32 S2x1x32x1 S2x1x32 [] [1] [0, 2] [1] [0, 2] 3 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x80x32768.size a ≤ S2x80x262144.size a
  hwx0_0 : ∀ i : grid0.Coords, EltTy.bits .f32 = 32 ∨ (Rect.block (s := S2x80x262144) S1x80x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x32768.size a ≤ S2x32x262144.size a
  hwx0_1 : ∀ i : grid0.Coords, EltTy.bits .i32 = 32 ∨ (Rect.block (s := S2x32x262144) S1x32x32768.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x80x32.size a ≤ S2x80x32.size a
  hwx0_2 : ∀ i : grid0.Coords, EltTy.bits .f32 = 32 ∨ (Rect.block (s := S2x80x32) S1x80x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x80x32.size a ≤ S2x80x32.size a
  hwx0_3 : ∀ i : grid0.Coords, EltTy.bits .f32 = 32 ∨ (Rect.block (s := S2x80x32) S1x80x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x1.size a ≤ S2x32x1.size a
  hwx0_4 : ∀ i : grid0.Coords, EltTy.bits .f32 = 32 ∨ (Rect.block (s := S2x32x1) S1x32x1.size (cc0_transform_4 i) (hinb0_4 i)).WholeWords (EltTy.packing .f32)

variable [Facts₀]

def dot_S80x32768_S32x32768_S80x32_1_1_0_0_n_n : DotDims S80x32768 S32x32768 S80x32 where
  lhsContracting := [1]
  rhsContracting := [1]
  lhsNonContracting := [0]
  rhsNonContracting := [0]
  lhsBatch := []
  rhsBatch := []
  wf := dot_S80x32768_S32x32768_S80x32_1_1_0_0_n_n_wf
def gather_S2x80x32_S2x1x32x1_S2x1x32_n_1_02_02_1_3_111 : GatherDims S2x80x32 S2x1x32x1 S2x1x32 where
  offsetDims := []
  collapsedSliceDims := [1]
  operandBatchingDims := [0, 2]
  startIndicesBatchingDims := [0, 2]
  startIndexMap := [1]
  indexVectorDim := 3
  sliceSizes := ![1, 1, 1]
  wf := gather_S2x80x32_S2x1x32x1_S2x1x32_n_1_02_02_1_3_111_wf

abbrev win0_0 : Pipeline.Window sig grid0 :=
  Pipeline.Window.ofSpec (Memref.whole main_v0) S1x80x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x32x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S1x80x32.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1x80x32.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_2) S1x32x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x80x512x512 : Shape := ⟨4, ![2, 80, 512, 512]⟩
abbrev S2x32x512x512 : Shape := ⟨4, ![2, 32, 512, 512]⟩
abbrev S2x32 : Shape := ⟨2, ![2, 32]⟩
abbrev S_ : Shape := ⟨0, ![]⟩
abbrev S2x32x1 : Shape := ⟨3, ![2, 32, 1]⟩
abbrev S32 : Shape := ⟨1, ![32]⟩
abbrev S2x1x32 : Shape := ⟨3, ![2, 1, 32]⟩
abbrev S2x32x32 : Shape := ⟨3, ![2, 32, 32]⟩
abbrev S32x32 : Shape := ⟨2, ![32, 32]⟩
abbrev S1x32x32 : Shape := ⟨3, ![1, 32, 32]⟩
abbrev S2 : Shape := ⟨1, ![2]⟩

abbrev nBuf : Space → Nat
  | .hbm => 112
  | .vmem => 0
  | .smem => 0
  | _ => 0

abbrev bufTy : (tb : Table) → Fin (tcTables nBuf tb) → BufTy
  | .hbm, ⟨0, _⟩ => ⟨S2x80x512x512, .f32⟩
  | .hbm, ⟨1, _⟩ => ⟨S2x32x512x512, .i1⟩
  | .hbm, ⟨2, _⟩ => ⟨S2x32, .i32⟩
  | .hbm, ⟨3, _⟩ => ⟨S_, .i32⟩
  | .hbm, ⟨4, _⟩ => ⟨S2x32, .i32⟩
  | .hbm, ⟨5, _⟩ => ⟨S2x32, .i1⟩
  | .hbm, ⟨6, _⟩ => ⟨S_, .i32⟩
  | .hbm, ⟨7, _⟩ => ⟨S2x32, .i32⟩
  | .hbm, ⟨8, _⟩ => ⟨S2x32, .i32⟩
  | .hbm, ⟨9, _⟩ => ⟨S2x32, .i32⟩
  | .hbm, ⟨10, _⟩ => ⟨S2x32x1, .i32⟩
  | .hbm, ⟨11, _⟩ => ⟨S2x32x512x512, .f32⟩
  | .hbm, ⟨12, _⟩ => ⟨S2x32x512x512, .f32⟩
  | .hbm, ⟨13, _⟩ => ⟨S_, .f32⟩
  | .hbm, ⟨14, _⟩ => ⟨S2x32, .f32⟩
  | .hbm, ⟨15, _⟩ => ⟨S2x32x512x512, .f32⟩
  | .hbm, ⟨16, _⟩ => ⟨S_, .f32⟩
  | .hbm, ⟨17, _⟩ => ⟨S2x32, .f32⟩
  | .hbm, ⟨18, _⟩ => ⟨S2x32x512x512, .f32⟩
  | .hbm, ⟨19, _⟩ => ⟨S2x32x512x512, .f32⟩
  | .hbm, ⟨20, _⟩ => ⟨S_, .f32⟩
  | .hbm, ⟨21, _⟩ => ⟨S2x32, .f32⟩
  | .hbm, ⟨22, _⟩ => ⟨S_, .f32⟩
  | .hbm, ⟨23, _⟩ => ⟨S2x32, .f32⟩
  | .hbm, ⟨24, _⟩ => ⟨S2x32, .i1⟩
  | .hbm, ⟨25, _⟩ => ⟨S_, .f32⟩
  | .hbm, ⟨26, _⟩ => ⟨S_, .f32⟩
  | .hbm, ⟨27, _⟩ => ⟨S32, .f32⟩
  | .hbm, ⟨28, _⟩ => ⟨S2x32, .f32⟩
  | .hbm, ⟨29, _⟩ => ⟨S2x32, .f32⟩
  | .hbm, ⟨30, _⟩ => ⟨S2x32, .f32⟩
  | .hbm, ⟨31, _⟩ => ⟨S_, .f32⟩
  | .hbm, ⟨32, _⟩ => ⟨S_, .f32⟩
  | .hbm, ⟨33, _⟩ => ⟨S32, .f32⟩
  | .hbm, ⟨34, _⟩ => ⟨S2x32, .f32⟩
  | .hbm, ⟨35, _⟩ => ⟨S2x32, .f32⟩
  | .hbm, ⟨36, _⟩ => ⟨S2x32, .f32⟩
  | .hbm, ⟨37, _⟩ => ⟨S2x32, .f32⟩
  | .hbm, ⟨38, _⟩ => ⟨S2x32, .f32⟩
  | .hbm, ⟨39, _⟩ => ⟨S_, .f32⟩
  | .hbm, ⟨40, _⟩ => ⟨S_, .f32⟩
  | .hbm, ⟨41, _⟩ => ⟨S32, .f32⟩
  | .hbm, ⟨42, _⟩ => ⟨S2x32, .f32⟩
  | .hbm, ⟨43, _⟩ => ⟨S2x32, .f32⟩
  | .hbm, ⟨44, _⟩ => ⟨S2x32x1, .f32⟩
  | .hbm, ⟨45, _⟩ => ⟨S2x1x32, .f32⟩
  | .hbm, ⟨46, _⟩ => ⟨S2x32x32, .f32⟩
  | .hbm, ⟨47, _⟩ => ⟨S2x32x32, .f32⟩
  | .hbm, ⟨48, _⟩ => ⟨S2x32x32, .f32⟩
  | .hbm, ⟨49, _⟩ => ⟨S2x32x32, .f32⟩
  | .hbm, ⟨50, _⟩ => ⟨S2x32x1, .i32⟩
  | .hbm, ⟨51, _⟩ => ⟨S2x1x32, .i32⟩
  | .hbm, ⟨52, _⟩ => ⟨S2x32x32, .i32⟩
  | .hbm, ⟨53, _⟩ => ⟨S2x32x32, .i32⟩
  | .hbm, ⟨54, _⟩ => ⟨S2x32x32, .i1⟩
  | .hbm, ⟨55, _⟩ => ⟨S_, .i1⟩
  | .hbm, ⟨56, _⟩ => ⟨S32x32, .i1⟩
  | .hbm, ⟨57, _⟩ => ⟨S32x32, .i32⟩
  | .hbm, ⟨58, _⟩ => ⟨S_, .i32⟩
  | .hbm, ⟨59, _⟩ => ⟨S32x32, .i32⟩
  | .hbm, ⟨60, _⟩ => ⟨S32x32, .i32⟩
  | .hbm, ⟨61, _⟩ => ⟨S32x32, .i32⟩
  | .hbm, ⟨62, _⟩ => ⟨S32x32, .i1⟩
  | .hbm, ⟨63, _⟩ => ⟨S_, .i1⟩
  | .hbm, ⟨64, _⟩ => ⟨S32x32, .i1⟩
  | .hbm, ⟨65, _⟩ => ⟨S32x32, .i1⟩
  | .hbm, ⟨66, _⟩ => ⟨S1x32x32, .i1⟩
  | .hbm, ⟨67, _⟩ => ⟨S2x32x32, .i1⟩
  | .hbm, ⟨68, _⟩ => ⟨S2x32x32, .i1⟩
  | .hbm, ⟨69, _⟩ => ⟨S_, .f32⟩
  | .hbm, ⟨70, _⟩ => ⟨S2x32x32, .f32⟩
  | .hbm, ⟨71, _⟩ => ⟨S2x32x32, .f32⟩
  | .hbm, ⟨72, _⟩ => ⟨S_, .f32⟩
  | .hbm, ⟨73, _⟩ => ⟨S2x32x32, .f32⟩
  | .hbm, ⟨74, _⟩ => ⟨S2x32x32, .f32⟩
  | .hbm, ⟨75, _⟩ => ⟨S_, .f32⟩
  | .hbm, ⟨76, _⟩ => ⟨S_, .f32⟩
  | .hbm, ⟨77, _⟩ => ⟨S32x32, .f32⟩
  | .hbm, ⟨78, _⟩ => ⟨S2x32x32, .f32⟩
  | .hbm, ⟨79, _⟩ => ⟨S2x32x32, .f32⟩
  | .hbm, ⟨80, _⟩ => ⟨S_, .f32⟩
  | .hbm, ⟨81, _⟩ => ⟨S2, .f32⟩
  | .hbm, ⟨82, _⟩ => ⟨S2x32, .f32⟩
  | .hbm, ⟨83, _⟩ => ⟨S_, .f32⟩
  | .hbm, ⟨84, _⟩ => ⟨S2, .f32⟩
  | .hbm, ⟨85, _⟩ => ⟨S_, .f32⟩
  | .hbm, ⟨86, _⟩ => ⟨S2, .f32⟩
  | .hbm, ⟨87, _⟩ => ⟨S2, .f32⟩
  | .hbm, ⟨88, _⟩ => ⟨S_, .f32⟩
  | .hbm, ⟨89, _⟩ => ⟨S2, .f32⟩
  | .hbm, ⟨90, _⟩ => ⟨S_, .f32⟩
  | .hbm, ⟨91, _⟩ => ⟨S2, .f32⟩
  | .hbm, ⟨92, _⟩ => ⟨S2, .f32⟩
  | .hbm, ⟨93, _⟩ => ⟨S_, .f32⟩
  | .hbm, ⟨94, _⟩ => ⟨S2, .f32⟩
  | .hbm, ⟨95, _⟩ => ⟨S2, .f32⟩
  | .hbm, ⟨96, _⟩ => ⟨S_, .f32⟩
  | .hbm, ⟨97, _⟩ => ⟨S2, .f32⟩
  | .hbm, ⟨98, _⟩ => ⟨S2, .f32⟩
  | .hbm, ⟨99, _⟩ => ⟨S2, .f32⟩
  | .hbm, ⟨100, _⟩ => ⟨S_, .f32⟩
  | .hbm, ⟨101, _⟩ => ⟨S2, .f32⟩
  | .hbm, ⟨102, _⟩ => ⟨S2, .f32⟩
  | .hbm, ⟨103, _⟩ => ⟨S2, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | _, _ => ⟨S2x80x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_6 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_call3_v0 : Ref sig .tc := ⟨.hbm, 57, rfl⟩
abbrev main_call3_c : Ref sig .tc := ⟨.hbm, 58, rfl⟩
abbrev main_call3_v1 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_call3_c_0 : Ref sig .tc := ⟨.hbm, 63, rfl⟩
abbrev main_call3_v5 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_8 : Ref sig .tc := ⟨.hbm, 69, rfl⟩
abbrev main_v39 : Ref sig .tc := ⟨.hbm, 70, rfl⟩
abbrev main_v40 : Ref sig .tc := ⟨.hbm, 71, rfl⟩
abbrev main_cst_9 : Ref sig .tc := ⟨.hbm, 72, rfl⟩
abbrev main_v41 : Ref sig .tc := ⟨.hbm, 73, rfl⟩
abbrev main_v42 : Ref sig .tc := ⟨.hbm, 74, rfl⟩
abbrev main_cst_10 : Ref sig .tc := ⟨.hbm, 75, rfl⟩
abbrev main_call4_v0 : Ref sig .tc := ⟨.hbm, 76, rfl⟩
abbrev main_call4_v1 : Ref sig .tc := ⟨.hbm, 77, rfl⟩
abbrev main_call4_v2 : Ref sig .tc := ⟨.hbm, 78, rfl⟩
abbrev main_v43 : Ref sig .tc := ⟨.hbm, 79, rfl⟩
abbrev main_cst_11 : Ref sig .tc := ⟨.hbm, 80, rfl⟩
abbrev main_v44 : Ref sig .tc := ⟨.hbm, 81, rfl⟩
abbrev main_v45 : Ref sig .tc := ⟨.hbm, 82, rfl⟩
abbrev main_cst_12 : Ref sig .tc := ⟨.hbm, 83, rfl⟩
abbrev main_v46 : Ref sig .tc := ⟨.hbm, 84, rfl⟩
abbrev main_cst_13 : Ref sig .tc := ⟨.hbm, 85, rfl⟩
abbrev main_v47 : Ref sig .tc := ⟨.hbm, 86, rfl⟩
abbrev main_v48 : Ref sig .tc := ⟨.hbm, 87, rfl⟩
abbrev main_cst_14 : Ref sig .tc := ⟨.hbm, 88, rfl⟩
abbrev main_v49 : Ref sig .tc := ⟨.hbm, 89, rfl⟩
abbrev main_cst_15 : Ref sig .tc := ⟨.hbm, 90, rfl⟩
abbrev main_v50 : Ref sig .tc := ⟨.hbm, 91, rfl⟩
abbrev main_v51 : Ref sig .tc := ⟨.hbm, 92, rfl⟩
abbrev main_cst_16 : Ref sig .tc := ⟨.hbm, 93, rfl⟩
abbrev main_v52 : Ref sig .tc := ⟨.hbm, 94, rfl⟩
abbrev main_v53 : Ref sig .tc := ⟨.hbm, 95, rfl⟩
abbrev main_cst_17 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_cst_18 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_cst_19 : Ref sig .tc := ⟨.hbm, 104, rfl⟩
abbrev main_v60 : Ref sig .tc := ⟨.hbm, 105, rfl⟩
abbrev main_cst_20 : Ref sig .tc := ⟨.hbm, 106, rfl⟩
abbrev main_v61 : Ref sig .tc := ⟨.hbm, 107, rfl⟩
abbrev main_cst_21 : Ref sig .tc := ⟨.hbm, 108, rfl⟩
abbrev main_v62 : Ref sig .tc := ⟨.hbm, 109, rfl⟩
abbrev main_cst_22 : Ref sig .tc := ⟨.hbm, 110, rfl⟩
abbrev main_v63 : Ref sig .tc := ⟨.hbm, 111, rfl⟩

abbrev nD : Nat := 1
abbrev τ : Topo := Topo.v7x

variable {F : FTy → Type} [FloatOps F]

class Facts₀ : Prop where
  bcast_S_S2x32 : S_.BroadcastsInDim S2x32 (![] : Fin 0 → Fin S2x32.rank)
  bcast_S2x32_S2x32x1_0_1 : S2x32.BroadcastsInDim S2x32x1 (![0, 1] : Fin 2 → Fin S2x32x1.rank)
  reducesTo_S2x32x512x512_S2x32_d2_3 : S2x32x512x512.ReducesTo [2, 3] S2x32
  h_S_ : 0 < S_.numel
  bcast_S_S32 : S_.BroadcastsInDim S32 (![] : Fin 0 → Fin S32.rank)
  bcast_S32_S2x32_1 : S32.BroadcastsInDim S2x32 (![1] : Fin 1 → Fin S2x32.rank)
  bcast_S2x32_S2x1x32_0_2 : S2x32.BroadcastsInDim S2x1x32 (![0, 2] : Fin 2 → Fin S2x1x32.rank)
  bcast_S2x32x1_S2x32x32_0_1_2 : S2x32x1.BroadcastsInDim S2x32x32 (![0, 1, 2] : Fin 3 → Fin S2x32x32.rank)
  bcast_S2x1x32_S2x32x32_0_1_2 : S2x1x32.BroadcastsInDim S2x32x32 (![0, 1, 2] : Fin 3 → Fin S2x32x32.rank)
  bcast_S_S32x32 : S_.BroadcastsInDim S32x32 (![] : Fin 0 → Fin S32x32.rank)
  bcast_S32x32_S1x32x32_1_2 : S32x32.BroadcastsInDim S1x32x32 (![1, 2] : Fin 2 → Fin S1x32x32.rank)
  bcast_S1x32x32_S2x32x32_0_1_2 : S1x32x32.BroadcastsInDim S2x32x32 (![0, 1, 2] : Fin 3 → Fin S2x32x32.rank)
  bcast_S_S2x32x32 : S_.BroadcastsInDim S2x32x32 (![] : Fin 0 → Fin S2x32x32.rank)
  bcast_S32x32_S2x32x32_1_2 : S32x32.BroadcastsInDim S2x32x32 (![1, 2] : Fin 2 → Fin S2x32x32.rank)
  reducesTo_S2x32x32_S2_d1_2 : S2x32x32.ReducesTo [1, 2] S2
  reducesTo_S2x32_S2_d1 : S2x32.ReducesTo [1] S2
  bcast_S_S2 : S_.BroadcastsInDim S2 (![] : Fin 0 → Fin S2.rank)
  reducesTo_S2_S_d0 : S2.ReducesTo [0] S_
  gather_S2x80x512x512_S2x32x1_S2x32x512x512_23_1_0_0_1_2_11512512_wf : GatherDims.WF S2x80x512x512 S2x32x1 S2x32x512x512 [2, 3] [1] [0] [1] [0] 2 ![1, 1, 512, 512]

variable [Facts₀]

def gather_S2x80x512x512_S2x32x1_S2x32x512x512_23_1_0_0_1_2_11512512 : GatherDims S2x80x512x512 S2x32x1 S2x32x512x512 where
  offsetDims := [2, 3]
  collapsedSliceDims := [1]
  operandBatchingDims := [0]
  startIndicesBatchingDims := [0]
  startIndexMap := [1]
  indexVectorDim := 2
  sliceSizes := ![1, 1, 512, 512]
  wf := gather_S2x80x512x512_S2x32x1_S2x32x512x512_23_1_0_0_1_2_11512512_wf

class Facts : Prop extends Facts₀ where

variable [Facts]
-- ==== Proof.KernelKit.lean ====
/-
  The launch side of `Kernel`'s frame: @main is three host operations (two reshapes and a widening of the mask), ONE
  pipelined region over the grid 2 × 8, and then fifteen stretches of host operations that read the region's three
  results. Here: the buffers' contents when the region is entered (`V0`, `V`), @main reduced to the region continued
  by the later stretches (`hmain`), the three facts the later stretches owe the region (they touch only unscoped
  buffers, allocate nothing, write no array the region stages), the argument arrays untouched by every host operation
  before and after, each window's block at a grid point, and the frame claim's post read off a frame run's post.
  The body branches once, on the second grid coordinate being zero (`cond0`): the points 0 and 8.
-/
import proofs.«429512_j49709951484028_2_alg».proof.Proof.Gen.Kernel.Launch
import proofs.«429512_j49709951484028_2_alg».proof.Proof.Gen.Kernel.Skeleton
import proofs.«429512_j49709951484028_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host stretches after the region, in order. -/
abbrev tail : List (List (HloOp τ sig (Elt F))) := [hostOps1, hostOps1_1, hostOps1_2, hostOps1_3, hostOps1_4, hostOps1_5, hostOps1_6, hostOps1_7, hostOps1_8, hostOps1_9, hostOps1_10, hostOps1_11, hostOps1_12, hostOps1_13, hostOps1_14]

/-- Core `c`'s buffers when the region is entered: the launch contents after the three host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- @main is the three host operations, the region, and the later stretches: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tail (F := F)).map StableHlo.seq)) :=
  Pipeline.hmain_around cfgs 0 defs₀ 𝒱₀ m main [hostOps0] tail (by simp only [List.Forall]; exact hostOps0_sub)
    (by simp only [List.Forall]; exact hostOps0_fresh) main_chain

theorem hostOps1_fresh : (hostOps1 : List (HloOp τ sig (Elt F))).Forall fun op => op.fresh = ∅ := by
  simp only [List.Forall]; repeat' constructor
theorem hostOps1_keeps : (hostOps1 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_1_fresh : (hostOps1_1 : List (HloOp τ sig (Elt F))).Forall fun op => op.fresh = ∅ := by
  simp only [List.Forall]; repeat' constructor
theorem hostOps1_1_keeps : (hostOps1_1 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_2_fresh : (hostOps1_2 : List (HloOp τ sig (Elt F))).Forall fun op => op.fresh = ∅ := by
  simp only [List.Forall]; repeat' constructor
theorem hostOps1_2_keeps : (hostOps1_2 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_3_fresh : (hostOps1_3 : List (HloOp τ sig (Elt F))).Forall fun op => op.fresh = ∅ := by
  simp only [List.Forall]; repeat' constructor
theorem hostOps1_3_keeps : (hostOps1_3 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_4_fresh : (hostOps1_4 : List (HloOp τ sig (Elt F))).Forall fun op => op.fresh = ∅ := by
  simp only [List.Forall]; repeat' constructor
theorem hostOps1_4_keeps : (hostOps1_4 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_5_fresh : (hostOps1_5 : List (HloOp τ sig (Elt F))).Forall fun op => op.fresh = ∅ := by
  simp only [List.Forall]; repeat' constructor
theorem hostOps1_5_keeps : (hostOps1_5 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_6_fresh : (hostOps1_6 : List (HloOp τ sig (Elt F))).Forall fun op => op.fresh = ∅ := by
  simp only [List.Forall]; repeat' constructor
theorem hostOps1_6_keeps : (hostOps1_6 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_7_fresh : (hostOps1_7 : List (HloOp τ sig (Elt F))).Forall fun op => op.fresh = ∅ := by
  simp only [List.Forall]; repeat' constructor
theorem hostOps1_7_keeps : (hostOps1_7 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_8_fresh : (hostOps1_8 : List (HloOp τ sig (Elt F))).Forall fun op => op.fresh = ∅ := by
  simp only [List.Forall]; repeat' constructor
theorem hostOps1_8_keeps : (hostOps1_8 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_9_fresh : (hostOps1_9 : List (HloOp τ sig (Elt F))).Forall fun op => op.fresh = ∅ := by
  simp only [List.Forall]; repeat' constructor
theorem hostOps1_9_keeps : (hostOps1_9 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_10_fresh : (hostOps1_10 : List (HloOp τ sig (Elt F))).Forall fun op => op.fresh = ∅ := by
  simp only [List.Forall]; repeat' constructor
theorem hostOps1_10_keeps : (hostOps1_10 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_11_fresh : (hostOps1_11 : List (HloOp τ sig (Elt F))).Forall fun op => op.fresh = ∅ := by
  simp only [List.Forall]; repeat' constructor
theorem hostOps1_11_keeps : (hostOps1_11 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_12_fresh : (hostOps1_12 : List (HloOp τ sig (Elt F))).Forall fun op => op.fresh = ∅ := by
  simp only [List.Forall]; repeat' constructor
theorem hostOps1_12_keeps : (hostOps1_12 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_13_fresh : (hostOps1_13 : List (HloOp τ sig (Elt F))).Forall fun op => op.fresh = ∅ := by
  simp only [List.Forall]; repeat' constructor
theorem hostOps1_13_keeps : (hostOps1_13 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_14_fresh : (hostOps1_14 : List (HloOp τ sig (Elt F))).Forall fun op => op.fresh = ∅ := by
  simp only [List.Forall]; repeat' constructor
theorem hostOps1_14_keeps : (hostOps1_14 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

/-- Every later stretch, with the three facts about each. -/
theorem tail_mem (ops : List (HloOp τ sig (Elt F))) (h : ops ∈ (tail (F := F))) :
    (ops.Forall fun op => op.bufs ⊆ StableHlo.tcRefs τ sig) ∧ (ops.Forall fun op => op.fresh = ∅)
      ∧ (ops.Forall fun op => ∀ w, Proc.devRef .tc (Pipeline.arrRef spec0 w) ∉ op.writes) := by
  simp only [tail, List.mem_cons, List.mem_nil_iff, or_false] at h
  rcases h with rfl | rfl | rfl | rfl | rfl | rfl | rfl | rfl | rfl | rfl | rfl | rfl | rfl | rfl | rfl
  · exact ⟨hostOps1_sub, hostOps1_fresh, hostOps1_keeps⟩
  · exact ⟨hostOps1_1_sub, hostOps1_1_fresh, hostOps1_1_keeps⟩
  · exact ⟨hostOps1_2_sub, hostOps1_2_fresh, hostOps1_2_keeps⟩
  · exact ⟨hostOps1_3_sub, hostOps1_3_fresh, hostOps1_3_keeps⟩
  · exact ⟨hostOps1_4_sub, hostOps1_4_fresh, hostOps1_4_keeps⟩
  · exact ⟨hostOps1_5_sub, hostOps1_5_fresh, hostOps1_5_keeps⟩
  · exact ⟨hostOps1_6_sub, hostOps1_6_fresh, hostOps1_6_keeps⟩
  · exact ⟨hostOps1_7_sub, hostOps1_7_fresh, hostOps1_7_keeps⟩
  · exact ⟨hostOps1_8_sub, hostOps1_8_fresh, hostOps1_8_keeps⟩
  · exact ⟨hostOps1_9_sub, hostOps1_9_fresh, hostOps1_9_keeps⟩
  · exact ⟨hostOps1_10_sub, hostOps1_10_fresh, hostOps1_10_keeps⟩
  · exact ⟨hostOps1_11_sub, hostOps1_11_fresh, hostOps1_11_keeps⟩
  · exact ⟨hostOps1_12_sub, hostOps1_12_fresh, hostOps1_12_keeps⟩
  · exact ⟨hostOps1_13_sub, hostOps1_13_fresh, hostOps1_13_keeps⟩
  · exact ⟨hostOps1_14_sub, hostOps1_14_fresh, hostOps1_14_keeps⟩

/-- The later stretches touch the region's arrays and the buffers that bypass it only. -/
theorem sfx_sub : ∀ ops ∈ (tail (F := F)), ∀ op ∈ ops, op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp (tail_mem ops hops).1) op hop)
/-- They allocate nothing. -/
theorem sfx_fresh : ∀ ops ∈ (tail (F := F)), ∀ op ∈ ops, op.fresh = ∅ :=
  fun ops hops op hop => (List.forall_iff_forall_mem.mp (tail_mem ops hops).2.1) op hop
/-- And write no array the region stages. -/
theorem sfx_keeps : ∀ ops ∈ (tail (F := F)), ∀ op ∈ ops, ∀ w, Proc.devRef .tc (Pipeline.arrRef spec0 w) ∉ op.writes :=
  fun ops hops op hop => (List.forall_iff_forall_mem.mp (tail_mem ops hops).2.2) op hop

/-! ## The argument arrays: no host operation writes them -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 1600000 in
theorem W_main_arg0 (dats : (p : Fin _) → (c : Dev nD) → Dat τ (Elt F) Unit ℕ (UR sig nD τ) ℕ (cfgs p) c) (c : Dev nD) :
    Pipeline.afterTail₀ cfgs dats 0 (V0 m) tail c main_arg0 = m ((c : Thread nD τ).loc main_arg0) := by
  unfold Pipeline.afterTail₀
  rw [StableHlo.after_of_forall_not_mem (b := Proc.devRef .tc main_arg0) _ _ (List.forall_iff_forall_mem.mp (by
      simp only [tail, hostOps1, hostOps1_1, hostOps1_2, hostOps1_3, hostOps1_4, hostOps1_5, hostOps1_6, hostOps1_7, hostOps1_8, hostOps1_9, hostOps1_10, hostOps1_11, hostOps1_12, hostOps1_13, hostOps1_14, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 1600000 in
theorem W_main_arg1 (dats : (p : Fin _) → (c : Dev nD) → Dat τ (Elt F) Unit ℕ (UR sig nD τ) ℕ (cfgs p) c) (c : Dev nD) :
    Pipeline.afterTail₀ cfgs dats 0 (V0 m) tail c main_arg1 = m ((c : Thread nD τ).loc main_arg1) := by
  unfold Pipeline.afterTail₀
  rw [StableHlo.after_of_forall_not_mem (b := Proc.devRef .tc main_arg1) _ _ (List.forall_iff_forall_mem.mp (by
      simp only [tail, hostOps1, hostOps1_1, hostOps1_2, hostOps1_3, hostOps1_4, hostOps1_5, hostOps1_6, hostOps1_7, hostOps1_8, hostOps1_9, hostOps1_10, hostOps1_11, hostOps1_12, hostOps1_13, hostOps1_14, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 1600000 in
theorem W_main_arg2 (dats : (p : Fin _) → (c : Dev nD) → Dat τ (Elt F) Unit ℕ (UR sig nD τ) ℕ (cfgs p) c) (c : Dev nD) :
    Pipeline.afterTail₀ cfgs dats 0 (V0 m) tail c main_arg2 = m ((c : Thread nD τ).loc main_arg2) := by
  unfold Pipeline.afterTail₀
  rw [StableHlo.after_of_forall_not_mem (b := Proc.devRef .tc main_arg2) _ _ (List.forall_iff_forall_mem.mp (by
      simp only [tail, hostOps1, hostOps1_1, hostOps1_2, hostOps1_3, hostOps1_4, hostOps1_5, hostOps1_6, hostOps1_7, hostOps1_8, hostOps1_9, hostOps1_10, hostOps1_11, hostOps1_12, hostOps1_13, hostOps1_14, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data over `V` whose body leaves it in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, for any proof data over `V` whose body leaves it in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tail))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The body's one branch -/

/-- The branch's condition from the grid coordinates: the second coordinate is zero. -/
abbrev cond0 (i : grid0.Coords) : Prop := (Scalar.cmpi .ne (Scalar.extui (Scalar.cmpi .eq (BitVec.ofNat 32 (i 1).val) 0#32)) 0#32) = 1#1
/-- It holds at the first point of each image: the points 0 and 8. -/
theorem hcond0 : ∀ t : Fin cfg0.N, cond0 (grid0.coords t) ↔ t.val % 8 = 0 :=
  (by decide +kernel : ∀ t : Fin grid0.N, cond0 (grid0.coords t) ↔ t.val % 8 = 0)

/-! ## The staging memrefs the pipeline hands the body -/

abbrev VO2 : View sig .tc .vmem S1x80x32 .f32 := (Memref.whole cc0_stg2_0 : Memref sig .tc .vmem S1x80x32 .f32).view
abbrev VO3 : View sig .tc .vmem S1x80x32 .f32 := (Memref.whole cc0_stg3_0 : Memref sig .tc .vmem S1x80x32 .f32).view
abbrev VO4 : View sig .tc .vmem S1x32x1 .f32 := (Memref.whole cc0_stg4_0 : Memref sig .tc .vmem S1x32x1 .f32).view
abbrev ms0 (t : Fin cfg0.N) : Memref sig .tc .vmem S1x80x32768 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x32x32768 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x80x32 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x80x32 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x32x1 .f32 := win0_4.stage (cfg0.slots t 4)
abbrev hs4 (t : Fin cfg0.N) : (ms4 t).IsWhole := hstage0_4 ((cfg0.slots t 4).cast nbuf0_4)

end Cert.Kernel.Fr

end
-- ==== Proof.KernelRunA.lean ====
/-
  The body of `Kernel`'s kernel run once, whole, at a point where the branch is TAKEN (the first tile of an image): the three result buffers, whatever they hold, are stored zero, then each is read back and stored again with this tile's contribution added.
  The run leaves the two input buffers as they were and each result buffer with a list of written pieces, which the
  symbolic execution finds; what the pieces hold is read in the frame module.
-/
import proofs.«429512_j49709951484028_2_alg».proof.Proof.KernelKit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, on any whole staging memrefs: the pieces each result buffer ends with, and the triple. -/
noncomputable def kernelRunA (c : Dev nD) (i : grid0.Coords) (arg2 : Memref sig .tc .vmem S1x80x32768 .f32) (harg2 : arg2.IsWhole) (arg3 : Memref sig .tc .vmem S1x32x32768 .i32) (harg3 : arg3.IsWhole) (arg4 : Memref sig .tc .vmem S1x80x32 .f32) (harg4 : arg4.IsWhole) (arg5 : Memref sig .tc .vmem S1x80x32 .f32) (harg5 : arg5.IsWhole) (arg6 : Memref sig .tc .vmem S1x32x1 .f32) (harg6 : arg6.IsWhole) (hc : cond0 i)
    (x0 : Vec F S1x80x32768 .f32) (x1 : Vec F S1x32x32768 .i32) :
    Σ' (L2 : List (View.Piece (Elt F) S1x80x32 .f32)) (L3 : List (View.Piece (Elt F) S1x80x32 .f32)), { L4 : List (View.Piece (Elt F) S1x32x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0__stats_kernel i arg2 harg2 arg3 harg3 arg4 harg4 arg5 harg5 arg6 harg6) K } := by
  refine ⟨?_, ?_, ?_, fun E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg2.eq_unread hf0; obtain rfl := harg3.eq_unread hf1
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact H4

end Cert.Kernel.Fr

end
-- ==== Proof.KernelRunB.lean ====
/-
  The body of `Kernel`'s kernel run once, whole, at a point where the branch is NOT taken (a later tile of an image): each of the three result buffers, holding its running contents, is read and stored again with this tile's contribution added.
  The run leaves the two input buffers as they were and each result buffer with a list of written pieces, which the
  symbolic execution finds; what the pieces hold is read in the frame module.
-/
import proofs.«429512_j49709951484028_2_alg».proof.Proof.KernelRunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, on any whole staging memrefs: the pieces each result buffer ends with, and the triple. -/
noncomputable def kernelRunB (c : Dev nD) (i : grid0.Coords) (arg2 : Memref sig .tc .vmem S1x80x32768 .f32) (harg2 : arg2.IsWhole) (arg3 : Memref sig .tc .vmem S1x32x32768 .i32) (harg3 : arg3.IsWhole) (arg4 : Memref sig .tc .vmem S1x80x32 .f32) (harg4 : arg4.IsWhole) (arg5 : Memref sig .tc .vmem S1x80x32 .f32) (harg5 : arg5.IsWhole) (arg6 : Memref sig .tc .vmem S1x32x1 .f32) (harg6 : arg6.IsWhole) (hc : ¬cond0 i)
    (x0 : Vec F S1x80x32768 .f32) (x1 : Vec F S1x32x32768 .i32) (xo2 : Vec F S1x80x32 .f32) (xo3 : Vec F S1x80x32 .f32) (xo4 : Vec F S1x32x1 .f32) :
    Σ' (L2 : List (View.Piece (Elt F) S1x80x32 .f32)) (L3 : List (View.Piece (Elt F) S1x80x32 .f32)), { L4 : List (View.Piece (Elt F) S1x32x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3 ∗ owns (c : Thread nD τ) arg6 fullShare xo4
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0__stats_kernel i arg2 harg2 arg3 harg3 arg4 harg4 arg5 harg5 arg6 harg6) K } := by
  refine ⟨?_, ?_, ?_, fun E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact H4

end Cert.Kernel.Fr

end
-- ==== Proof.KernelFrame.lean ====
/-
  The frame of `Kernel`: what the three result buffers hold after the body at each grid point, the proof data of
  the one pipelined region, the body obligation at a generic point, and the run of @main to the end.

  The grid is 2 images × 8 tiles, visited image by image. The three result windows' block index follows the image
  only, so a result buffer is kept, not written back, from one tile of an image to the next, and written back after the
  image's last tile (points 7 and 15). At the first tile of an image the body resets the three buffers and adds the
  tile's contribution; at a later tile it adds to what the tile before left. Hence what the buffers hold after point
  n is defined by recursion on n (`outsAt`): the reset case's contents at n ≡ 0 (mod 8), else the accumulating
  case's contents over what point n − 1 left.
-/
import proofs.«429512_j49709951484028_2_alg».proof.Proof.KernelRunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the result buffers -/

/-- In this case the pieces stored into result buffer 2 tile its block, so they cover it. -/
theorem coverA2 (c : Dev nD) (i : grid0.Coords) (arg2 : Memref sig .tc .vmem S1x80x32768 .f32) (harg2 : arg2.IsWhole) (arg3 : Memref sig .tc .vmem S1x32x32768 .i32) (harg3 : arg3.IsWhole) (arg4 : Memref sig .tc .vmem S1x80x32 .f32) (harg4 : arg4.IsWhole) (arg5 : Memref sig .tc .vmem S1x80x32 .f32) (harg5 : arg5.IsWhole) (arg6 : Memref sig .tc .vmem S1x32x1 .f32) (harg6 : arg6.IsWhole) (hc : cond0 i)
    (x0 : Vec F S1x80x32768 .f32) (x1 : Vec F S1x32x32768 .i32) (y : S1x80x32.Idx) :
    ∃ pc ∈ (kernelRunA c i arg2 harg2 arg3 harg3 arg4 harg4 arg5 harg5 arg6 harg6 hc x0 x1).1, y ∈ pc.1.set :=
  View.cover_of_tiledL (kernelRunA c i arg2 harg2 arg3 harg3 arg4 harg4 arg5 harg5 arg6 harg6 hc x0 x1).1 S1x80x32.size (by sl_kernel_rfl) y

/-- What the case leaves in result buffer 2: its pieces read back. -/
def outA2 (c : Dev nD) (i : grid0.Coords) (arg2 : Memref sig .tc .vmem S1x80x32768 .f32) (harg2 : arg2.IsWhole) (arg3 : Memref sig .tc .vmem S1x32x32768 .i32) (harg3 : arg3.IsWhole) (arg4 : Memref sig .tc .vmem S1x80x32 .f32) (harg4 : arg4.IsWhole) (arg5 : Memref sig .tc .vmem S1x80x32 .f32) (harg5 : arg5.IsWhole) (arg6 : Memref sig .tc .vmem S1x32x1 .f32) (harg6 : arg6.IsWhole) (hc : cond0 i)
    (x0 : Vec F S1x80x32768 .f32) (x1 : Vec F S1x32x32768 .i32) : Vec F S1x80x32 .f32 :=
  VO2.read (Elt F) (VO2.writes (Elt F) VO2.junk (kernelRunA c i arg2 harg2 arg3 harg3 arg4 harg4 arg5 harg5 arg6 harg6 hc x0 x1).1)

/-- In this case the pieces stored into result buffer 3 tile its block, so they cover it. -/
theorem coverA3 (c : Dev nD) (i : grid0.Coords) (arg2 : Memref sig .tc .vmem S1x80x32768 .f32) (harg2 : arg2.IsWhole) (arg3 : Memref sig .tc .vmem S1x32x32768 .i32) (harg3 : arg3.IsWhole) (arg4 : Memref sig .tc .vmem S1x80x32 .f32) (harg4 : arg4.IsWhole) (arg5 : Memref sig .tc .vmem S1x80x32 .f32) (harg5 : arg5.IsWhole) (arg6 : Memref sig .tc .vmem S1x32x1 .f32) (harg6 : arg6.IsWhole) (hc : cond0 i)
    (x0 : Vec F S1x80x32768 .f32) (x1 : Vec F S1x32x32768 .i32) (y : S1x80x32.Idx) :
    ∃ pc ∈ (kernelRunA c i arg2 harg2 arg3 harg3 arg4 harg4 arg5 harg5 arg6 harg6 hc x0 x1).2.1, y ∈ pc.1.set :=
  View.cover_of_tiledL (kernelRunA c i arg2 harg2 arg3 harg3 arg4 harg4 arg5 harg5 arg6 harg6 hc x0 x1).2.1 S1x80x32.size (by sl_kernel_rfl) y

/-- What the case leaves in result buffer 3: its pieces read back. -/
def outA3 (c : Dev nD) (i : grid0.Coords) (arg2 : Memref sig .tc .vmem S1x80x32768 .f32) (harg2 : arg2.IsWhole) (arg3 : Memref sig .tc .vmem S1x32x32768 .i32) (harg3 : arg3.IsWhole) (arg4 : Memref sig .tc .vmem S1x80x32 .f32) (harg4 : arg4.IsWhole) (arg5 : Memref sig .tc .vmem S1x80x32 .f32) (harg5 : arg5.IsWhole) (arg6 : Memref sig .tc .vmem S1x32x1 .f32) (harg6 : arg6.IsWhole) (hc : cond0 i)
    (x0 : Vec F S1x80x32768 .f32) (x1 : Vec F S1x32x32768 .i32) : Vec F S1x80x32 .f32 :=
  VO3.read (Elt F) (VO3.writes (Elt F) VO3.junk (kernelRunA c i arg2 harg2 arg3 harg3 arg4 harg4 arg5 harg5 arg6 harg6 hc x0 x1).2.1)

/-- In this case the pieces stored into result buffer 4 tile its block, so they cover it. -/
theorem coverA4 (c : Dev nD) (i : grid0.Coords) (arg2 : Memref sig .tc .vmem S1x80x32768 .f32) (harg2 : arg2.IsWhole) (arg3 : Memref sig .tc .vmem S1x32x32768 .i32) (harg3 : arg3.IsWhole) (arg4 : Memref sig .tc .vmem S1x80x32 .f32) (harg4 : arg4.IsWhole) (arg5 : Memref sig .tc .vmem S1x80x32 .f32) (harg5 : arg5.IsWhole) (arg6 : Memref sig .tc .vmem S1x32x1 .f32) (harg6 : arg6.IsWhole) (hc : cond0 i)
    (x0 : Vec F S1x80x32768 .f32) (x1 : Vec F S1x32x32768 .i32) (y : S1x32x1.Idx) :
    ∃ pc ∈ (kernelRunA c i arg2 harg2 arg3 harg3 arg4 harg4 arg5 harg5 arg6 harg6 hc x0 x1).2.2.1, y ∈ pc.1.set :=
  View.cover_of_tiledL (kernelRunA c i arg2 harg2 arg3 harg3 arg4 harg4 arg5 harg5 arg6 harg6 hc x0 x1).2.2.1 S1x32x1.size (by sl_kernel_rfl) y

/-- What the case leaves in result buffer 4: its pieces read back. -/
def outA4 (c : Dev nD) (i : grid0.Coords) (arg2 : Memref sig .tc .vmem S1x80x32768 .f32) (harg2 : arg2.IsWhole) (arg3 : Memref sig .tc .vmem S1x32x32768 .i32) (harg3 : arg3.IsWhole) (arg4 : Memref sig .tc .vmem S1x80x32 .f32) (harg4 : arg4.IsWhole) (arg5 : Memref sig .tc .vmem S1x80x32 .f32) (harg5 : arg5.IsWhole) (arg6 : Memref sig .tc .vmem S1x32x1 .f32) (harg6 : arg6.IsWhole) (hc : cond0 i)
    (x0 : Vec F S1x80x32768 .f32) (x1 : Vec F S1x32x32768 .i32) : Vec F S1x32x1 .f32 :=
  VO4.read (Elt F) (VO4.writes (Elt F) VO4.junk (kernelRunA c i arg2 harg2 arg3 harg3 arg4 harg4 arg5 harg5 arg6 harg6 hc x0 x1).2.2.1)

/-- In this case the pieces stored into result buffer 2 tile its block, so they cover it. -/
theorem coverB2 (c : Dev nD) (i : grid0.Coords) (arg2 : Memref sig .tc .vmem S1x80x32768 .f32) (harg2 : arg2.IsWhole) (arg3 : Memref sig .tc .vmem S1x32x32768 .i32) (harg3 : arg3.IsWhole) (arg4 : Memref sig .tc .vmem S1x80x32 .f32) (harg4 : arg4.IsWhole) (arg5 : Memref sig .tc .vmem S1x80x32 .f32) (harg5 : arg5.IsWhole) (arg6 : Memref sig .tc .vmem S1x32x1 .f32) (harg6 : arg6.IsWhole) (hc : ¬cond0 i)
    (x0 : Vec F S1x80x32768 .f32) (x1 : Vec F S1x32x32768 .i32) (xo2 : Vec F S1x80x32 .f32) (xo3 : Vec F S1x80x32 .f32) (xo4 : Vec F S1x32x1 .f32) (y : S1x80x32.Idx) :
    ∃ pc ∈ (kernelRunB c i arg2 harg2 arg3 harg3 arg4 harg4 arg5 harg5 arg6 harg6 hc x0 x1 xo2 xo3 xo4).1, y ∈ pc.1.set :=
  View.cover_of_tiledL (kernelRunB c i arg2 harg2 arg3 harg3 arg4 harg4 arg5 harg5 arg6 harg6 hc x0 x1 xo2 xo3 xo4).1 S1x80x32.size (by sl_kernel_rfl) y

/-- What the case leaves in result buffer 2: its pieces read back. -/
def outB2 (c : Dev nD) (i : grid0.Coords) (arg2 : Memref sig .tc .vmem S1x80x32768 .f32) (harg2 : arg2.IsWhole) (arg3 : Memref sig .tc .vmem S1x32x32768 .i32) (harg3 : arg3.IsWhole) (arg4 : Memref sig .tc .vmem S1x80x32 .f32) (harg4 : arg4.IsWhole) (arg5 : Memref sig .tc .vmem S1x80x32 .f32) (harg5 : arg5.IsWhole) (arg6 : Memref sig .tc .vmem S1x32x1 .f32) (harg6 : arg6.IsWhole) (hc : ¬cond0 i)
    (x0 : Vec F S1x80x32768 .f32) (x1 : Vec F S1x32x32768 .i32) (xo2 : Vec F S1x80x32 .f32) (xo3 : Vec F S1x80x32 .f32) (xo4 : Vec F S1x32x1 .f32) : Vec F S1x80x32 .f32 :=
  VO2.read (Elt F) (VO2.writes (Elt F) VO2.junk (kernelRunB c i arg2 harg2 arg3 harg3 arg4 harg4 arg5 harg5 arg6 harg6 hc x0 x1 xo2 xo3 xo4).1)

/-- In this case the pieces stored into result buffer 3 tile its block, so they cover it. -/
theorem coverB3 (c : Dev nD) (i : grid0.Coords) (arg2 : Memref sig .tc .vmem S1x80x32768 .f32) (harg2 : arg2.IsWhole) (arg3 : Memref sig .tc .vmem S1x32x32768 .i32) (harg3 : arg3.IsWhole) (arg4 : Memref sig .tc .vmem S1x80x32 .f32) (harg4 : arg4.IsWhole) (arg5 : Memref sig .tc .vmem S1x80x32 .f32) (harg5 : arg5.IsWhole) (arg6 : Memref sig .tc .vmem S1x32x1 .f32) (harg6 : arg6.IsWhole) (hc : ¬cond0 i)
    (x0 : Vec F S1x80x32768 .f32) (x1 : Vec F S1x32x32768 .i32) (xo2 : Vec F S1x80x32 .f32) (xo3 : Vec F S1x80x32 .f32) (xo4 : Vec F S1x32x1 .f32) (y : S1x80x32.Idx) :
    ∃ pc ∈ (kernelRunB c i arg2 harg2 arg3 harg3 arg4 harg4 arg5 harg5 arg6 harg6 hc x0 x1 xo2 xo3 xo4).2.1, y ∈ pc.1.set :=
  View.cover_of_tiledL (kernelRunB c i arg2 harg2 arg3 harg3 arg4 harg4 arg5 harg5 arg6 harg6 hc x0 x1 xo2 xo3 xo4).2.1 S1x80x32.size (by sl_kernel_rfl) y

/-- What the case leaves in result buffer 3: its pieces read back. -/
def outB3 (c : Dev nD) (i : grid0.Coords) (arg2 : Memref sig .tc .vmem S1x80x32768 .f32) (harg2 : arg2.IsWhole) (arg3 : Memref sig .tc .vmem S1x32x32768 .i32) (harg3 : arg3.IsWhole) (arg4 : Memref sig .tc .vmem S1x80x32 .f32) (harg4 : arg4.IsWhole) (arg5 : Memref sig .tc .vmem S1x80x32 .f32) (harg5 : arg5.IsWhole) (arg6 : Memref sig .tc .vmem S1x32x1 .f32) (harg6 : arg6.IsWhole) (hc : ¬cond0 i)
    (x0 : Vec F S1x80x32768 .f32) (x1 : Vec F S1x32x32768 .i32) (xo2 : Vec F S1x80x32 .f32) (xo3 : Vec F S1x80x32 .f32) (xo4 : Vec F S1x32x1 .f32) : Vec F S1x80x32 .f32 :=
  VO3.read (Elt F) (VO3.writes (Elt F) VO3.junk (kernelRunB c i arg2 harg2 arg3 harg3 arg4 harg4 arg5 harg5 arg6 harg6 hc x0 x1 xo2 xo3 xo4).2.1)

/-- In this case the pieces stored into result buffer 4 tile its block, so they cover it. -/
theorem coverB4 (c : Dev nD) (i : grid0.Coords) (arg2 : Memref sig .tc .vmem S1x80x32768 .f32) (harg2 : arg2.IsWhole) (arg3 : Memref sig .tc .vmem S1x32x32768 .i32) (harg3 : arg3.IsWhole) (arg4 : Memref sig .tc .vmem S1x80x32 .f32) (harg4 : arg4.IsWhole) (arg5 : Memref sig .tc .vmem S1x80x32 .f32) (harg5 : arg5.IsWhole) (arg6 : Memref sig .tc .vmem S1x32x1 .f32) (harg6 : arg6.IsWhole) (hc : ¬cond0 i)
    (x0 : Vec F S1x80x32768 .f32) (x1 : Vec F S1x32x32768 .i32) (xo2 : Vec F S1x80x32 .f32) (xo3 : Vec F S1x80x32 .f32) (xo4 : Vec F S1x32x1 .f32) (y : S1x32x1.Idx) :
    ∃ pc ∈ (kernelRunB c i arg2 harg2 arg3 harg3 arg4 harg4 arg5 harg5 arg6 harg6 hc x0 x1 xo2 xo3 xo4).2.2.1, y ∈ pc.1.set :=
  View.cover_of_tiledL (kernelRunB c i arg2 harg2 arg3 harg3 arg4 harg4 arg5 harg5 arg6 harg6 hc x0 x1 xo2 xo3 xo4).2.2.1 S1x32x1.size (by sl_kernel_rfl) y

/-- What the case leaves in result buffer 4: its pieces read back. -/
def outB4 (c : Dev nD) (i : grid0.Coords) (arg2 : Memref sig .tc .vmem S1x80x32768 .f32) (harg2 : arg2.IsWhole) (arg3 : Memref sig .tc .vmem S1x32x32768 .i32) (harg3 : arg3.IsWhole) (arg4 : Memref sig .tc .vmem S1x80x32 .f32) (harg4 : arg4.IsWhole) (arg5 : Memref sig .tc .vmem S1x80x32 .f32) (harg5 : arg5.IsWhole) (arg6 : Memref sig .tc .vmem S1x32x1 .f32) (harg6 : arg6.IsWhole) (hc : ¬cond0 i)
    (x0 : Vec F S1x80x32768 .f32) (x1 : Vec F S1x32x32768 .i32) (xo2 : Vec F S1x80x32 .f32) (xo3 : Vec F S1x80x32 .f32) (xo4 : Vec F S1x32x1 .f32) : Vec F S1x32x1 .f32 :=
  VO4.read (Elt F) (VO4.writes (Elt F) VO4.junk (kernelRunB c i arg2 harg2 arg3 harg3 arg4 harg4 arg5 harg5 arg6 harg6 hc x0 x1 xo2 xo3 xo4).2.2.1)

/-! ## What the result buffers hold after each point -/

/-- The three result buffers' contents after the body at position `n`. -/
def outsAt (c : Dev nD) : (n : ℕ) → n < cfg0.N → Vec F S1x80x32 .f32 × Vec F S1x80x32 .f32 × Vec F S1x32x1 .f32
  | 0, hn => (outA2 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) ((hcond0 ⟨0, hn⟩).mpr (Nat.zero_mod _)) (iblk m c 0 ⟨0, hn⟩) (iblk m c 1 ⟨0, hn⟩), outA3 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) ((hcond0 ⟨0, hn⟩).mpr (Nat.zero_mod _)) (iblk m c 0 ⟨0, hn⟩) (iblk m c 1 ⟨0, hn⟩), outA4 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) ((hcond0 ⟨0, hn⟩).mpr (Nat.zero_mod _)) (iblk m c 0 ⟨0, hn⟩) (iblk m c 1 ⟨0, hn⟩))
  | n + 1, hn =>
    if h0 : (n + 1) % 8 = 0 then
      (outA2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) ((hcond0 ⟨n + 1, hn⟩).mpr h0) (iblk m c 0 ⟨n + 1, hn⟩) (iblk m c 1 ⟨n + 1, hn⟩), outA3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) ((hcond0 ⟨n + 1, hn⟩).mpr h0) (iblk m c 0 ⟨n + 1, hn⟩) (iblk m c 1 ⟨n + 1, hn⟩), outA4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) ((hcond0 ⟨n + 1, hn⟩).mpr h0) (iblk m c 0 ⟨n + 1, hn⟩) (iblk m c 1 ⟨n + 1, hn⟩))
    else
      (outB2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (fun h => h0 ((hcond0 ⟨n + 1, hn⟩).mp h)) (iblk m c 0 ⟨n + 1, hn⟩) (iblk m c 1 ⟨n + 1, hn⟩) (outsAt c n (Nat.lt_of_succ_lt hn)).1 (outsAt c n (Nat.lt_of_succ_lt hn)).2.1 (outsAt c n (Nat.lt_of_succ_lt hn)).2.2, outB3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (fun h => h0 ((hcond0 ⟨n + 1, hn⟩).mp h)) (iblk m c 0 ⟨n + 1, hn⟩) (iblk m c 1 ⟨n + 1, hn⟩) (outsAt c n (Nat.lt_of_succ_lt hn)).1 (outsAt c n (Nat.lt_of_succ_lt hn)).2.1 (outsAt c n (Nat.lt_of_succ_lt hn)).2.2, outB4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (fun h => h0 ((hcond0 ⟨n + 1, hn⟩).mp h)) (iblk m c 0 ⟨n + 1, hn⟩) (iblk m c 1 ⟨n + 1, hn⟩) (outsAt c n (Nat.lt_of_succ_lt hn)).1 (outsAt c n (Nat.lt_of_succ_lt hn)).2.1 (outsAt c n (Nat.lt_of_succ_lt hn)).2.2)

/-- At a first tile: the reset case's contents. -/
theorem outsAt_A (c : Dev nD) (t : Fin cfg0.N) (h0 : t.val % 8 = 0) :
    outsAt m c t.val t.isLt = (outA2 c (grid0.coords t) (ms0 t) (hs0 t) (ms1 t) (hs1 t) (ms2 t) (hs2 t) (ms3 t) (hs3 t) (ms4 t) (hs4 t) ((hcond0 t).mpr h0) (iblk m c 0 t) (iblk m c 1 t), outA3 c (grid0.coords t) (ms0 t) (hs0 t) (ms1 t) (hs1 t) (ms2 t) (hs2 t) (ms3 t) (hs3 t) (ms4 t) (hs4 t) ((hcond0 t).mpr h0) (iblk m c 0 t) (iblk m c 1 t), outA4 c (grid0.coords t) (ms0 t) (hs0 t) (ms1 t) (hs1 t) (ms2 t) (hs2 t) (ms3 t) (hs3 t) (ms4 t) (hs4 t) ((hcond0 t).mpr h0) (iblk m c 0 t) (iblk m c 1 t)) := by
  obtain ⟨n, hn⟩ := t
  cases n with
  | zero => exact rfl
  | succ n => exact (dif_pos h0).trans rfl

/-- At a later tile: the accumulating case's contents over what the point before left. -/
theorem outsAt_B (c : Dev nD) (t : Fin cfg0.N) (h0 : ¬t.val % 8 = 0) :
    outsAt m c t.val t.isLt = (outB2 c (grid0.coords t) (ms0 t) (hs0 t) (ms1 t) (hs1 t) (ms2 t) (hs2 t) (ms3 t) (hs3 t) (ms4 t) (hs4 t) (fun h => h0 ((hcond0 t).mp h)) (iblk m c 0 t) (iblk m c 1 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2, outB3 c (grid0.coords t) (ms0 t) (hs0 t) (ms1 t) (hs1 t) (ms2 t) (hs2 t) (ms3 t) (hs3 t) (ms4 t) (hs4 t) (fun h => h0 ((hcond0 t).mp h)) (iblk m c 0 t) (iblk m c 1 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2, outB4 c (grid0.coords t) (ms0 t) (hs0 t) (ms1 t) (hs1 t) (ms2 t) (hs2 t) (ms3 t) (hs3 t) (ms4 t) (hs4 t) (fun h => h0 ((hcond0 t).mp h)) (iblk m c 0 t) (iblk m c 1 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The region's proof data -/

/-- On core `c`: the arrays as the region finds them; after the body at point `t` each input buffer at its block and the
    three result buffers at `outsAt`; the invariant the class's; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2.1
    | ⟨4, _⟩ => (outsAt m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]
theorem after3 (c : Dev nD) (t : Fin cfg0.N) : (dats m 0 c).after 3 t = (outsAt m c t.val t.isLt).2.1 := by dsimp only [dats]
theorem after4 (c : Dev nD) (t : Fin cfg0.N) : (dats m 0 c).after 4 t = (outsAt m c t.val t.isLt).2.2 := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-- At a later tile result buffer 2 still holds what the body left at the point before: it was not written back between. -/
theorem before2_B (c : Dev nD) (t : Fin cfg0.N) (h0 : ¬t.val % 8 = 0) (d) :
    (dats m 0 c).before 2 t d = (outsAt m c (t.val - 1) (Nat.lt_of_le_of_lt (Nat.sub_le _ _) t.isLt)).1 := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dats]
/-- At a later tile result buffer 3 still holds what the body left at the point before: it was not written back between. -/
theorem before3_B (c : Dev nD) (t : Fin cfg0.N) (h0 : ¬t.val % 8 = 0) (d) :
    (dats m 0 c).before 3 t d = (outsAt m c (t.val - 1) (Nat.lt_of_le_of_lt (Nat.sub_le _ _) t.isLt)).2.1 := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    (fun _ => rfl) (fun _ _ => rfl)]
  dsimp only [dats]
/-- At a later tile result buffer 4 still holds what the body left at the point before: it was not written back between. -/
theorem before4_B (c : Dev nD) (t : Fin cfg0.N) (h0 : ¬t.val % 8 = 0) (d) :
    (dats m 0 c).before 4 t d = (outsAt m c (t.val - 1) (Nat.lt_of_le_of_lt (Nat.sub_le _ _) t.isLt)).2.2 := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 1600000 in
/-- The body at any point: the input buffers hold their blocks; the branch's closed form says which case the point is
    in; at a later tile the result buffers hold what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3, after4]
  by_cases h0 : t.val % 8 = 0
  · rw [outsAt_A m c t h0]
    dsimp only
    unfold outA2 outA3 outA4
    iintro ⟨HΦ, Ho, ⟨%d0, H0⟩, ⟨%d1, H1⟩, ⟨%d2, H2⟩, ⟨%d3, H3⟩, ⟨%d4, H4⟩⟩
    iapply ((kernelRunA c (grid0.coords t) _ _ _ _ _ _ _ _ _ _ ((hcond0 t).mpr h0) (iblk m c 0 t) (iblk m c 1 t)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverA2 c _ _ _ _ _ _ _ _ _ _ _ _ _ _)
    isplitl [H3]
    · unfold owns; iexists _; isplitr
      swap; · iexact H3
      ipureintro; exact View.read_writes_of_cover _ _ _ _ _ (coverA3 c _ _ _ _ _ _ _ _ _ _ _ _ _ _)
    unfold owns; iexists _; isplitr
    swap; · iexact H4
    ipureintro; exact View.read_writes_of_cover _ _ _ _ _ (coverA4 c _ _ _ _ _ _ _ _ _ _ _ _ _ _)
  · rw [outsAt_B m c t h0]
    dsimp only
    simp only [before2_B m c t h0, before3_B m c t h0, before4_B m c t h0]
    unfold outB2 outB3 outB4
    iintro ⟨HΦ, Ho, ⟨%d0, H0⟩, ⟨%d1, H1⟩, ⟨%d2, H2⟩, ⟨%d3, H3⟩, ⟨%d4, H4⟩⟩
    iapply ((kernelRunB c (grid0.coords t) _ _ _ _ _ _ _ _ _ _ (fun h => h0 ((hcond0 t).mp h)) (iblk m c 0 t) (iblk m c 1 t) _ _ _).2.2.2 Set.univ _)
    isplitl [H0]; · iexact H0
    isplitl [H1]; · iexact H1
    isplitl [H2]; · iexact H2
    isplitl [H3]; · iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverB2 c _ _ _ _ _ _ _ _ _ _ _ _ _ _ _ _ _)
    isplitl [H3]
    · unfold owns; iexists _; isplitr
      swap; · iexact H3
      ipureintro; exact View.read_writes_of_cover _ _ _ _ _ (coverB3 c _ _ _ _ _ _ _ _ _ _ _ _ _ _ _ _ _)
    unfold owns; iexists _; isplitr
    swap; · iexact H4
    ipureintro; exact View.read_writes_of_cover _ _ _ _ _ (coverB4 c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates; in the final state every array
    the region stages holds what the library computes from the proof data, and every other unscoped buffer what the
    later host stretches leave from the region's exit. -/
theorem run_main : θ_run defs (onTc (τ := τ) (main (F := F))) (s₀ m ρ) (Pipeline.FramePost cfgs (dats m) 0 (Pipeline.afterTail₀ cfgs (dats m) 0 (V0 m) tail)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := sfx_sub) (hfresh := sfx_fresh) (hkeep := sfx_keeps)
    (hmain := hmain m Variants.none) (hA := A_eq m) (hΦ := fun _ _ => rfl)

/-- The frame claim's post at any float family: @main runs to the end and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.Kernel.Fr

end
-- ==== Proof.KernelIdealKit.lean ====
/-
  The launch side of `KernelIdeal`'s frame: @main is three host operations (two reshapes and a widening of the mask), ONE
  pipelined region over the grid 2 × 8, and then fifteen stretches of host operations that read the region's three
  results. Here: the buffers' contents when the region is entered (`V0`, `V`), @main reduced to the region continued
  by the later stretches (`hmain`), the three facts the later stretches owe the region (they touch only unscoped
  buffers, allocate nothing, write no array the region stages), the argument arrays untouched by every host operation
  before and after, each window's block at a grid point, and the frame claim's post read off a frame run's post.
  The body branches once, on the second grid coordinate being zero (`cond0`): the points 0 and 8.
-/
import proofs.«429512_j49709951484028_2_alg».proof.Proof.Gen.KernelIdeal.Launch
import proofs.«429512_j49709951484028_2_alg».proof.Proof.Gen.KernelIdeal.Skeleton
import proofs.«429512_j49709951484028_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host stretches after the region, in order. -/
abbrev tail : List (List (HloOp τ sig (Elt F))) := [hostOps1, hostOps1_1, hostOps1_2, hostOps1_3, hostOps1_4, hostOps1_5, hostOps1_6, hostOps1_7, hostOps1_8, hostOps1_9, hostOps1_10, hostOps1_11, hostOps1_12, hostOps1_13, hostOps1_14]

/-- Core `c`'s buffers when the region is entered: the launch contents after the three host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- @main is the three host operations, the region, and the later stretches: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tail (F := F)).map StableHlo.seq)) :=
  Pipeline.hmain_around cfgs 0 defs₀ 𝒱₀ m main [hostOps0] tail (by simp only [List.Forall]; exact hostOps0_sub)
    (by simp only [List.Forall]; exact hostOps0_fresh) main_chain

theorem hostOps1_fresh : (hostOps1 : List (HloOp τ sig (Elt F))).Forall fun op => op.fresh = ∅ := by
  simp only [List.Forall]; repeat' constructor
theorem hostOps1_keeps : (hostOps1 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_1_fresh : (hostOps1_1 : List (HloOp τ sig (Elt F))).Forall fun op => op.fresh = ∅ := by
  simp only [List.Forall]; repeat' constructor
theorem hostOps1_1_keeps : (hostOps1_1 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_2_fresh : (hostOps1_2 : List (HloOp τ sig (Elt F))).Forall fun op => op.fresh = ∅ := by
  simp only [List.Forall]; repeat' constructor
theorem hostOps1_2_keeps : (hostOps1_2 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_3_fresh : (hostOps1_3 : List (HloOp τ sig (Elt F))).Forall fun op => op.fresh = ∅ := by
  simp only [List.Forall]; repeat' constructor
theorem hostOps1_3_keeps : (hostOps1_3 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_4_fresh : (hostOps1_4 : List (HloOp τ sig (Elt F))).Forall fun op => op.fresh = ∅ := by
  simp only [List.Forall]; repeat' constructor
theorem hostOps1_4_keeps : (hostOps1_4 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_5_fresh : (hostOps1_5 : List (HloOp τ sig (Elt F))).Forall fun op => op.fresh = ∅ := by
  simp only [List.Forall]; repeat' constructor
theorem hostOps1_5_keeps : (hostOps1_5 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_6_fresh : (hostOps1_6 : List (HloOp τ sig (Elt F))).Forall fun op => op.fresh = ∅ := by
  simp only [List.Forall]; repeat' constructor
theorem hostOps1_6_keeps : (hostOps1_6 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_7_fresh : (hostOps1_7 : List (HloOp τ sig (Elt F))).Forall fun op => op.fresh = ∅ := by
  simp only [List.Forall]; repeat' constructor
theorem hostOps1_7_keeps : (hostOps1_7 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_8_fresh : (hostOps1_8 : List (HloOp τ sig (Elt F))).Forall fun op => op.fresh = ∅ := by
  simp only [List.Forall]; repeat' constructor
theorem hostOps1_8_keeps : (hostOps1_8 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_9_fresh : (hostOps1_9 : List (HloOp τ sig (Elt F))).Forall fun op => op.fresh = ∅ := by
  simp only [List.Forall]; repeat' constructor
theorem hostOps1_9_keeps : (hostOps1_9 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_10_fresh : (hostOps1_10 : List (HloOp τ sig (Elt F))).Forall fun op => op.fresh = ∅ := by
  simp only [List.Forall]; repeat' constructor
theorem hostOps1_10_keeps : (hostOps1_10 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_11_fresh : (hostOps1_11 : List (HloOp τ sig (Elt F))).Forall fun op => op.fresh = ∅ := by
  simp only [List.Forall]; repeat' constructor
theorem hostOps1_11_keeps : (hostOps1_11 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_12_fresh : (hostOps1_12 : List (HloOp τ sig (Elt F))).Forall fun op => op.fresh = ∅ := by
  simp only [List.Forall]; repeat' constructor
theorem hostOps1_12_keeps : (hostOps1_12 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_13_fresh : (hostOps1_13 : List (HloOp τ sig (Elt F))).Forall fun op => op.fresh = ∅ := by
  simp only [List.Forall]; repeat' constructor
theorem hostOps1_13_keeps : (hostOps1_13 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_14_fresh : (hostOps1_14 : List (HloOp τ sig (Elt F))).Forall fun op => op.fresh = ∅ := by
  simp only [List.Forall]; repeat' constructor
theorem hostOps1_14_keeps : (hostOps1_14 : List (HloOp τ sig (Elt F))).Forall fun op => ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

/-- Every later stretch, with the three facts about each. -/
theorem tail_mem (ops : List (HloOp τ sig (Elt F))) (h : ops ∈ (tail (F := F))) :
    (ops.Forall fun op => op.bufs ⊆ StableHlo.tcRefs τ sig) ∧ (ops.Forall fun op => op.fresh = ∅)
      ∧ (ops.Forall fun op => ∀ w, Proc.devRef .tc (Pipeline.arrRef spec0 w) ∉ op.writes) := by
  simp only [tail, List.mem_cons, List.mem_nil_iff, or_false] at h
  rcases h with rfl | rfl | rfl | rfl | rfl | rfl | rfl | rfl | rfl | rfl | rfl | rfl | rfl | rfl | rfl
  · exact ⟨hostOps1_sub, hostOps1_fresh, hostOps1_keeps⟩
  · exact ⟨hostOps1_1_sub, hostOps1_1_fresh, hostOps1_1_keeps⟩
  · exact ⟨hostOps1_2_sub, hostOps1_2_fresh, hostOps1_2_keeps⟩
  · exact ⟨hostOps1_3_sub, hostOps1_3_fresh, hostOps1_3_keeps⟩
  · exact ⟨hostOps1_4_sub, hostOps1_4_fresh, hostOps1_4_keeps⟩
  · exact ⟨hostOps1_5_sub, hostOps1_5_fresh, hostOps1_5_keeps⟩
  · exact ⟨hostOps1_6_sub, hostOps1_6_fresh, hostOps1_6_keeps⟩
  · exact ⟨hostOps1_7_sub, hostOps1_7_fresh, hostOps1_7_keeps⟩
  · exact ⟨hostOps1_8_sub, hostOps1_8_fresh, hostOps1_8_keeps⟩
  · exact ⟨hostOps1_9_sub, hostOps1_9_fresh, hostOps1_9_keeps⟩
  · exact ⟨hostOps1_10_sub, hostOps1_10_fresh, hostOps1_10_keeps⟩
  · exact ⟨hostOps1_11_sub, hostOps1_11_fresh, hostOps1_11_keeps⟩
  · exact ⟨hostOps1_12_sub, hostOps1_12_fresh, hostOps1_12_keeps⟩
  · exact ⟨hostOps1_13_sub, hostOps1_13_fresh, hostOps1_13_keeps⟩
  · exact ⟨hostOps1_14_sub, hostOps1_14_fresh, hostOps1_14_keeps⟩

/-- The later stretches touch the region's arrays and the buffers that bypass it only. -/
theorem sfx_sub : ∀ ops ∈ (tail (F := F)), ∀ op ∈ ops, op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp (tail_mem ops hops).1) op hop)
/-- They allocate nothing. -/
theorem sfx_fresh : ∀ ops ∈ (tail (F := F)), ∀ op ∈ ops, op.fresh = ∅ :=
  fun ops hops op hop => (List.forall_iff_forall_mem.mp (tail_mem ops hops).2.1) op hop
/-- And write no array the region stages. -/
theorem sfx_keeps : ∀ ops ∈ (tail (F := F)), ∀ op ∈ ops, ∀ w, Proc.devRef .tc (Pipeline.arrRef spec0 w) ∉ op.writes :=
  fun ops hops op hop => (List.forall_iff_forall_mem.mp (tail_mem ops hops).2.2) op hop

/-! ## The argument arrays: no host operation writes them -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 1600000 in
theorem W_main_arg0 (dats : (p : Fin _) → (c : Dev nD) → Dat τ (Elt F) Unit ℕ (UR sig nD τ) ℕ (cfgs p) c) (c : Dev nD) :
    Pipeline.afterTail₀ cfgs dats 0 (V0 m) tail c main_arg0 = m ((c : Thread nD τ).loc main_arg0) := by
  unfold Pipeline.afterTail₀
  rw [StableHlo.after_of_forall_not_mem (b := Proc.devRef .tc main_arg0) _ _ (List.forall_iff_forall_mem.mp (by
      simp only [tail, hostOps1, hostOps1_1, hostOps1_2, hostOps1_3, hostOps1_4, hostOps1_5, hostOps1_6, hostOps1_7, hostOps1_8, hostOps1_9, hostOps1_10, hostOps1_11, hostOps1_12, hostOps1_13, hostOps1_14, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 1600000 in
theorem W_main_arg1 (dats : (p : Fin _) → (c : Dev nD) → Dat τ (Elt F) Unit ℕ (UR sig nD τ) ℕ (cfgs p) c) (c : Dev nD) :
    Pipeline.afterTail₀ cfgs dats 0 (V0 m) tail c main_arg1 = m ((c : Thread nD τ).loc main_arg1) := by
  unfold Pipeline.afterTail₀
  rw [StableHlo.after_of_forall_not_mem (b := Proc.devRef .tc main_arg1) _ _ (List.forall_iff_forall_mem.mp (by
      simp only [tail, hostOps1, hostOps1_1, hostOps1_2, hostOps1_3, hostOps1_4, hostOps1_5, hostOps1_6, hostOps1_7, hostOps1_8, hostOps1_9, hostOps1_10, hostOps1_11, hostOps1_12, hostOps1_13, hostOps1_14, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 1600000 in
theorem W_main_arg2 (dats : (p : Fin _) → (c : Dev nD) → Dat τ (Elt F) Unit ℕ (UR sig nD τ) ℕ (cfgs p) c) (c : Dev nD) :
    Pipeline.afterTail₀ cfgs dats 0 (V0 m) tail c main_arg2 = m ((c : Thread nD τ).loc main_arg2) := by
  unfold Pipeline.afterTail₀
  rw [StableHlo.after_of_forall_not_mem (b := Proc.devRef .tc main_arg2) _ _ (List.forall_iff_forall_mem.mp (by
      simp only [tail, hostOps1, hostOps1_1, hostOps1_2, hostOps1_3, hostOps1_4, hostOps1_5, hostOps1_6, hostOps1_7, hostOps1_8, hostOps1_9, hostOps1_10, hostOps1_11, hostOps1_12, hostOps1_13, hostOps1_14, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data over `V` whose body leaves it in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, for any proof data over `V` whose body leaves it in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tail))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The body's one branch -/

/-- The branch's condition from the grid coordinates: the second coordinate is zero. -/
abbrev cond0 (i : grid0.Coords) : Prop := (Scalar.cmpi .ne (Scalar.extui (Scalar.cmpi .eq (BitVec.ofNat 32 (i 1).val) 0#32)) 0#32) = 1#1
/-- It holds at the first point of each image: the points 0 and 8. -/
theorem hcond0 : ∀ t : Fin cfg0.N, cond0 (grid0.coords t) ↔ t.val % 8 = 0 :=
  (by decide +kernel : ∀ t : Fin grid0.N, cond0 (grid0.coords t) ↔ t.val % 8 = 0)

/-! ## The staging memrefs the pipeline hands the body -/

abbrev VO2 : View sig .tc .vmem S1x80x32 .f32 := (Memref.whole cc0_stg2_0 : Memref sig .tc .vmem S1x80x32 .f32).view
abbrev VO3 : View sig .tc .vmem S1x80x32 .f32 := (Memref.whole cc0_stg3_0 : Memref sig .tc .vmem S1x80x32 .f32).view
abbrev VO4 : View sig .tc .vmem S1x32x1 .f32 := (Memref.whole cc0_stg4_0 : Memref sig .tc .vmem S1x32x1 .f32).view
abbrev ms0 (t : Fin cfg0.N) : Memref sig .tc .vmem S1x80x32768 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x32x32768 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x80x32 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x80x32 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x32x1 .f32 := win0_4.stage (cfg0.slots t 4)
abbrev hs4 (t : Fin cfg0.N) : (ms4 t).IsWhole := hstage0_4 ((cfg0.slots t 4).cast nbuf0_4)

end Cert.KernelIdeal.Fr

end
-- ==== Proof.KernelIdealRunA.lean ====
/-
  The body of `KernelIdeal`'s kernel run once, whole, at a point where the branch is TAKEN (the first tile of an image): the three result buffers, whatever they hold, are stored zero, then each is read back and stored again with this tile's contribution added.
  The run leaves the two input buffers as they were and each result buffer with a list of written pieces, which the
  symbolic execution finds; what the pieces hold is read in the frame module.
-/
import proofs.«429512_j49709951484028_2_alg».proof.Proof.KernelIdealKit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, on any whole staging memrefs: the pieces each result buffer ends with, and the triple. -/
noncomputable def kernelRunA (c : Dev nD) (i : grid0.Coords) (arg2 : Memref sig .tc .vmem S1x80x32768 .f32) (harg2 : arg2.IsWhole) (arg3 : Memref sig .tc .vmem S1x32x32768 .i32) (harg3 : arg3.IsWhole) (arg4 : Memref sig .tc .vmem S1x80x32 .f32) (harg4 : arg4.IsWhole) (arg5 : Memref sig .tc .vmem S1x80x32 .f32) (harg5 : arg5.IsWhole) (arg6 : Memref sig .tc .vmem S1x32x1 .f32) (harg6 : arg6.IsWhole) (hc : cond0 i)
    (x0 : Vec F S1x80x32768 .f32) (x1 : Vec F S1x32x32768 .i32) :
    Σ' (L2 : List (View.Piece (Elt F) S1x80x32 .f32)) (L3 : List (View.Piece (Elt F) S1x80x32 .f32)), { L4 : List (View.Piece (Elt F) S1x32x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0__stats_kernel i arg2 harg2 arg3 harg3 arg4 harg4 arg5 harg5 arg6 harg6) K } := by
  refine ⟨?_, ?_, ?_, fun E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg2.eq_unread hf0; obtain rfl := harg3.eq_unread hf1
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact H4

end Cert.KernelIdeal.Fr

end
-- ==== Proof.KernelIdealRunB.lean ====
/-
  The body of `KernelIdeal`'s kernel run once, whole, at a point where the branch is NOT taken (a later tile of an image): each of the three result buffers, holding its running contents, is read and stored again with this tile's contribution added.
  The run leaves the two input buffers as they were and each result buffer with a list of written pieces, which the
  symbolic execution finds; what the pieces hold is read in the frame module.
-/
import proofs.«429512_j49709951484028_2_alg».proof.Proof.KernelIdealRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, on any whole staging memrefs: the pieces each result buffer ends with, and the triple. -/
noncomputable def kernelRunB (c : Dev nD) (i : grid0.Coords) (arg2 : Memref sig .tc .vmem S1x80x32768 .f32) (harg2 : arg2.IsWhole) (arg3 : Memref sig .tc .vmem S1x32x32768 .i32) (harg3 : arg3.IsWhole) (arg4 : Memref sig .tc .vmem S1x80x32 .f32) (harg4 : arg4.IsWhole) (arg5 : Memref sig .tc .vmem S1x80x32 .f32) (harg5 : arg5.IsWhole) (arg6 : Memref sig .tc .vmem S1x32x1 .f32) (harg6 : arg6.IsWhole) (hc : ¬cond0 i)
    (x0 : Vec F S1x80x32768 .f32) (x1 : Vec F S1x32x32768 .i32) (xo2 : Vec F S1x80x32 .f32) (xo3 : Vec F S1x80x32 .f32) (xo4 : Vec F S1x32x1 .f32) :
    Σ' (L2 : List (View.Piece (Elt F) S1x80x32 .f32)) (L3 : List (View.Piece (Elt F) S1x80x32 .f32)), { L4 : List (View.Piece (Elt F) S1x32x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3 ∗ owns (c : Thread nD τ) arg6 fullShare xo4
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0__stats_kernel i arg2 harg2 arg3 harg3 arg4 harg4 arg5 harg5 arg6 harg6) K } := by
  refine ⟨?_, ?_, ?_, fun E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact H4

end Cert.KernelIdeal.Fr

end
-- ==== Proof.KernelIdealFrame.lean ====
/-
  The frame of `KernelIdeal`: what the three result buffers hold after the body at each grid point, the proof data of
  the one pipelined region, the body obligation at a generic point, and the run of @main to the end.

  The grid is 2 images × 8 tiles, visited image by image. The three result windows' block index follows the image
  only, so a result buffer is kept, not written back, from one tile of an image to the next, and written back after the
  image's last tile (points 7 and 15). At the first tile of an image the body resets the three buffers and adds the
  tile's contribution; at a later tile it adds to what the tile before left. Hence what the buffers hold after point
  n is defined by recursion on n (`outsAt`): the reset case's contents at n ≡ 0 (mod 8), else the accumulating
  case's contents over what point n − 1 left.
-/
import proofs.«429512_j49709951484028_2_alg».proof.Proof.KernelIdealRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the result buffers -/

/-- In this case the pieces stored into result buffer 2 tile its block, so they cover it. -/
theorem coverA2 (c : Dev nD) (i : grid0.Coords) (arg2 : Memref sig .tc .vmem S1x80x32768 .f32) (harg2 : arg2.IsWhole) (arg3 : Memref sig .tc .vmem S1x32x32768 .i32) (harg3 : arg3.IsWhole) (arg4 : Memref sig .tc .vmem S1x80x32 .f32) (harg4 : arg4.IsWhole) (arg5 : Memref sig .tc .vmem S1x80x32 .f32) (harg5 : arg5.IsWhole) (arg6 : Memref sig .tc .vmem S1x32x1 .f32) (harg6 : arg6.IsWhole) (hc : cond0 i)
    (x0 : Vec F S1x80x32768 .f32) (x1 : Vec F S1x32x32768 .i32) (y : S1x80x32.Idx) :
    ∃ pc ∈ (kernelRunA c i arg2 harg2 arg3 harg3 arg4 harg4 arg5 harg5 arg6 harg6 hc x0 x1).1, y ∈ pc.1.set :=
  View.cover_of_tiledL (kernelRunA c i arg2 harg2 arg3 harg3 arg4 harg4 arg5 harg5 arg6 harg6 hc x0 x1).1 S1x80x32.size (by sl_kernel_rfl) y

/-- What the case leaves in result buffer 2: its pieces read back. -/
def outA2 (c : Dev nD) (i : grid0.Coords) (arg2 : Memref sig .tc .vmem S1x80x32768 .f32) (harg2 : arg2.IsWhole) (arg3 : Memref sig .tc .vmem S1x32x32768 .i32) (harg3 : arg3.IsWhole) (arg4 : Memref sig .tc .vmem S1x80x32 .f32) (harg4 : arg4.IsWhole) (arg5 : Memref sig .tc .vmem S1x80x32 .f32) (harg5 : arg5.IsWhole) (arg6 : Memref sig .tc .vmem S1x32x1 .f32) (harg6 : arg6.IsWhole) (hc : cond0 i)
    (x0 : Vec F S1x80x32768 .f32) (x1 : Vec F S1x32x32768 .i32) : Vec F S1x80x32 .f32 :=
  VO2.read (Elt F) (VO2.writes (Elt F) VO2.junk (kernelRunA c i arg2 harg2 arg3 harg3 arg4 harg4 arg5 harg5 arg6 harg6 hc x0 x1).1)

/-- In this case the pieces stored into result buffer 3 tile its block, so they cover it. -/
theorem coverA3 (c : Dev nD) (i : grid0.Coords) (arg2 : Memref sig .tc .vmem S1x80x32768 .f32) (harg2 : arg2.IsWhole) (arg3 : Memref sig .tc .vmem S1x32x32768 .i32) (harg3 : arg3.IsWhole) (arg4 : Memref sig .tc .vmem S1x80x32 .f32) (harg4 : arg4.IsWhole) (arg5 : Memref sig .tc .vmem S1x80x32 .f32) (harg5 : arg5.IsWhole) (arg6 : Memref sig .tc .vmem S1x32x1 .f32) (harg6 : arg6.IsWhole) (hc : cond0 i)
    (x0 : Vec F S1x80x32768 .f32) (x1 : Vec F S1x32x32768 .i32) (y : S1x80x32.Idx) :
    ∃ pc ∈ (kernelRunA c i arg2 harg2 arg3 harg3 arg4 harg4 arg5 harg5 arg6 harg6 hc x0 x1).2.1, y ∈ pc.1.set :=
  View.cover_of_tiledL (kernelRunA c i arg2 harg2 arg3 harg3 arg4 harg4 arg5 harg5 arg6 harg6 hc x0 x1).2.1 S1x80x32.size (by sl_kernel_rfl) y

/-- What the case leaves in result buffer 3: its pieces read back. -/
def outA3 (c : Dev nD) (i : grid0.Coords) (arg2 : Memref sig .tc .vmem S1x80x32768 .f32) (harg2 : arg2.IsWhole) (arg3 : Memref sig .tc .vmem S1x32x32768 .i32) (harg3 : arg3.IsWhole) (arg4 : Memref sig .tc .vmem S1x80x32 .f32) (harg4 : arg4.IsWhole) (arg5 : Memref sig .tc .vmem S1x80x32 .f32) (harg5 : arg5.IsWhole) (arg6 : Memref sig .tc .vmem S1x32x1 .f32) (harg6 : arg6.IsWhole) (hc : cond0 i)
    (x0 : Vec F S1x80x32768 .f32) (x1 : Vec F S1x32x32768 .i32) : Vec F S1x80x32 .f32 :=
  VO3.read (Elt F) (VO3.writes (Elt F) VO3.junk (kernelRunA c i arg2 harg2 arg3 harg3 arg4 harg4 arg5 harg5 arg6 harg6 hc x0 x1).2.1)

/-- In this case the pieces stored into result buffer 4 tile its block, so they cover it. -/
theorem coverA4 (c : Dev nD) (i : grid0.Coords) (arg2 : Memref sig .tc .vmem S1x80x32768 .f32) (harg2 : arg2.IsWhole) (arg3 : Memref sig .tc .vmem S1x32x32768 .i32) (harg3 : arg3.IsWhole) (arg4 : Memref sig .tc .vmem S1x80x32 .f32) (harg4 : arg4.IsWhole) (arg5 : Memref sig .tc .vmem S1x80x32 .f32) (harg5 : arg5.IsWhole) (arg6 : Memref sig .tc .vmem S1x32x1 .f32) (harg6 : arg6.IsWhole) (hc : cond0 i)
    (x0 : Vec F S1x80x32768 .f32) (x1 : Vec F S1x32x32768 .i32) (y : S1x32x1.Idx) :
    ∃ pc ∈ (kernelRunA c i arg2 harg2 arg3 harg3 arg4 harg4 arg5 harg5 arg6 harg6 hc x0 x1).2.2.1, y ∈ pc.1.set :=
  View.cover_of_tiledL (kernelRunA c i arg2 harg2 arg3 harg3 arg4 harg4 arg5 harg5 arg6 harg6 hc x0 x1).2.2.1 S1x32x1.size (by sl_kernel_rfl) y

/-- What the case leaves in result buffer 4: its pieces read back. -/
def outA4 (c : Dev nD) (i : grid0.Coords) (arg2 : Memref sig .tc .vmem S1x80x32768 .f32) (harg2 : arg2.IsWhole) (arg3 : Memref sig .tc .vmem S1x32x32768 .i32) (harg3 : arg3.IsWhole) (arg4 : Memref sig .tc .vmem S1x80x32 .f32) (harg4 : arg4.IsWhole) (arg5 : Memref sig .tc .vmem S1x80x32 .f32) (harg5 : arg5.IsWhole) (arg6 : Memref sig .tc .vmem S1x32x1 .f32) (harg6 : arg6.IsWhole) (hc : cond0 i)
    (x0 : Vec F S1x80x32768 .f32) (x1 : Vec F S1x32x32768 .i32) : Vec F S1x32x1 .f32 :=
  VO4.read (Elt F) (VO4.writes (Elt F) VO4.junk (kernelRunA c i arg2 harg2 arg3 harg3 arg4 harg4 arg5 harg5 arg6 harg6 hc x0 x1).2.2.1)

/-- In this case the pieces stored into result buffer 2 tile its block, so they cover it. -/
theorem coverB2 (c : Dev nD) (i : grid0.Coords) (arg2 : Memref sig .tc .vmem S1x80x32768 .f32) (harg2 : arg2.IsWhole) (arg3 : Memref sig .tc .vmem S1x32x32768 .i32) (harg3 : arg3.IsWhole) (arg4 : Memref sig .tc .vmem S1x80x32 .f32) (harg4 : arg4.IsWhole) (arg5 : Memref sig .tc .vmem S1x80x32 .f32) (harg5 : arg5.IsWhole) (arg6 : Memref sig .tc .vmem S1x32x1 .f32) (harg6 : arg6.IsWhole) (hc : ¬cond0 i)
    (x0 : Vec F S1x80x32768 .f32) (x1 : Vec F S1x32x32768 .i32) (xo2 : Vec F S1x80x32 .f32) (xo3 : Vec F S1x80x32 .f32) (xo4 : Vec F S1x32x1 .f32) (y : S1x80x32.Idx) :
    ∃ pc ∈ (kernelRunB c i arg2 harg2 arg3 harg3 arg4 harg4 arg5 harg5 arg6 harg6 hc x0 x1 xo2 xo3 xo4).1, y ∈ pc.1.set :=
  View.cover_of_tiledL (kernelRunB c i arg2 harg2 arg3 harg3 arg4 harg4 arg5 harg5 arg6 harg6 hc x0 x1 xo2 xo3 xo4).1 S1x80x32.size (by sl_kernel_rfl) y

/-- What the case leaves in result buffer 2: its pieces read back. -/
def outB2 (c : Dev nD) (i : grid0.Coords) (arg2 : Memref sig .tc .vmem S1x80x32768 .f32) (harg2 : arg2.IsWhole) (arg3 : Memref sig .tc .vmem S1x32x32768 .i32) (harg3 : arg3.IsWhole) (arg4 : Memref sig .tc .vmem S1x80x32 .f32) (harg4 : arg4.IsWhole) (arg5 : Memref sig .tc .vmem S1x80x32 .f32) (harg5 : arg5.IsWhole) (arg6 : Memref sig .tc .vmem S1x32x1 .f32) (harg6 : arg6.IsWhole) (hc : ¬cond0 i)
    (x0 : Vec F S1x80x32768 .f32) (x1 : Vec F S1x32x32768 .i32) (xo2 : Vec F S1x80x32 .f32) (xo3 : Vec F S1x80x32 .f32) (xo4 : Vec F S1x32x1 .f32) : Vec F S1x80x32 .f32 :=
  VO2.read (Elt F) (VO2.writes (Elt F) VO2.junk (kernelRunB c i arg2 harg2 arg3 harg3 arg4 harg4 arg5 harg5 arg6 harg6 hc x0 x1 xo2 xo3 xo4).1)

/-- In this case the pieces stored into result buffer 3 tile its block, so they cover it. -/
theorem coverB3 (c : Dev nD) (i : grid0.Coords) (arg2 : Memref sig .tc .vmem S1x80x32768 .f32) (harg2 : arg2.IsWhole) (arg3 : Memref sig .tc .vmem S1x32x32768 .i32) (harg3 : arg3.IsWhole) (arg4 : Memref sig .tc .vmem S1x80x32 .f32) (harg4 : arg4.IsWhole) (arg5 : Memref sig .tc .vmem S1x80x32 .f32) (harg5 : arg5.IsWhole) (arg6 : Memref sig .tc .vmem S1x32x1 .f32) (harg6 : arg6.IsWhole) (hc : ¬cond0 i)
    (x0 : Vec F S1x80x32768 .f32) (x1 : Vec F S1x32x32768 .i32) (xo2 : Vec F S1x80x32 .f32) (xo3 : Vec F S1x80x32 .f32) (xo4 : Vec F S1x32x1 .f32) (y : S1x80x32.Idx) :
    ∃ pc ∈ (kernelRunB c i arg2 harg2 arg3 harg3 arg4 harg4 arg5 harg5 arg6 harg6 hc x0 x1 xo2 xo3 xo4).2.1, y ∈ pc.1.set :=
  View.cover_of_tiledL (kernelRunB c i arg2 harg2 arg3 harg3 arg4 harg4 arg5 harg5 arg6 harg6 hc x0 x1 xo2 xo3 xo4).2.1 S1x80x32.size (by sl_kernel_rfl) y

/-- What the case leaves in result buffer 3: its pieces read back. -/
def outB3 (c : Dev nD) (i : grid0.Coords) (arg2 : Memref sig .tc .vmem S1x80x32768 .f32) (harg2 : arg2.IsWhole) (arg3 : Memref sig .tc .vmem S1x32x32768 .i32) (harg3 : arg3.IsWhole) (arg4 : Memref sig .tc .vmem S1x80x32 .f32) (harg4 : arg4.IsWhole) (arg5 : Memref sig .tc .vmem S1x80x32 .f32) (harg5 : arg5.IsWhole) (arg6 : Memref sig .tc .vmem S1x32x1 .f32) (harg6 : arg6.IsWhole) (hc : ¬cond0 i)
    (x0 : Vec F S1x80x32768 .f32) (x1 : Vec F S1x32x32768 .i32) (xo2 : Vec F S1x80x32 .f32) (xo3 : Vec F S1x80x32 .f32) (xo4 : Vec F S1x32x1 .f32) : Vec F S1x80x32 .f32 :=
  VO3.read (Elt F) (VO3.writes (Elt F) VO3.junk (kernelRunB c i arg2 harg2 arg3 harg3 arg4 harg4 arg5 harg5 arg6 harg6 hc x0 x1 xo2 xo3 xo4).2.1)

/-- In this case the pieces stored into result buffer 4 tile its block, so they cover it. -/
theorem coverB4 (c : Dev nD) (i : grid0.Coords) (arg2 : Memref sig .tc .vmem S1x80x32768 .f32) (harg2 : arg2.IsWhole) (arg3 : Memref sig .tc .vmem S1x32x32768 .i32) (harg3 : arg3.IsWhole) (arg4 : Memref sig .tc .vmem S1x80x32 .f32) (harg4 : arg4.IsWhole) (arg5 : Memref sig .tc .vmem S1x80x32 .f32) (harg5 : arg5.IsWhole) (arg6 : Memref sig .tc .vmem S1x32x1 .f32) (harg6 : arg6.IsWhole) (hc : ¬cond0 i)
    (x0 : Vec F S1x80x32768 .f32) (x1 : Vec F S1x32x32768 .i32) (xo2 : Vec F S1x80x32 .f32) (xo3 : Vec F S1x80x32 .f32) (xo4 : Vec F S1x32x1 .f32) (y : S1x32x1.Idx) :
    ∃ pc ∈ (kernelRunB c i arg2 harg2 arg3 harg3 arg4 harg4 arg5 harg5 arg6 harg6 hc x0 x1 xo2 xo3 xo4).2.2.1, y ∈ pc.1.set :=
  View.cover_of_tiledL (kernelRunB c i arg2 harg2 arg3 harg3 arg4 harg4 arg5 harg5 arg6 harg6 hc x0 x1 xo2 xo3 xo4).2.2.1 S1x32x1.size (by sl_kernel_rfl) y

/-- What the case leaves in result buffer 4: its pieces read back. -/
def outB4 (c : Dev nD) (i : grid0.Coords) (arg2 : Memref sig .tc .vmem S1x80x32768 .f32) (harg2 : arg2.IsWhole) (arg3 : Memref sig .tc .vmem S1x32x32768 .i32) (harg3 : arg3.IsWhole) (arg4 : Memref sig .tc .vmem S1x80x32 .f32) (harg4 : arg4.IsWhole) (arg5 : Memref sig .tc .vmem S1x80x32 .f32) (harg5 : arg5.IsWhole) (arg6 : Memref sig .tc .vmem S1x32x1 .f32) (harg6 : arg6.IsWhole) (hc : ¬cond0 i)
    (x0 : Vec F S1x80x32768 .f32) (x1 : Vec F S1x32x32768 .i32) (xo2 : Vec F S1x80x32 .f32) (xo3 : Vec F S1x80x32 .f32) (xo4 : Vec F S1x32x1 .f32) : Vec F S1x32x1 .f32 :=
  VO4.read (Elt F) (VO4.writes (Elt F) VO4.junk (kernelRunB c i arg2 harg2 arg3 harg3 arg4 harg4 arg5 harg5 arg6 harg6 hc x0 x1 xo2 xo3 xo4).2.2.1)

/-! ## What the result buffers hold after each point -/

/-- The three result buffers' contents after the body at position `n`. -/
def outsAt (c : Dev nD) : (n : ℕ) → n < cfg0.N → Vec F S1x80x32 .f32 × Vec F S1x80x32 .f32 × Vec F S1x32x1 .f32
  | 0, hn => (outA2 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) ((hcond0 ⟨0, hn⟩).mpr (Nat.zero_mod _)) (iblk m c 0 ⟨0, hn⟩) (iblk m c 1 ⟨0, hn⟩), outA3 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) ((hcond0 ⟨0, hn⟩).mpr (Nat.zero_mod _)) (iblk m c 0 ⟨0, hn⟩) (iblk m c 1 ⟨0, hn⟩), outA4 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) ((hcond0 ⟨0, hn⟩).mpr (Nat.zero_mod _)) (iblk m c 0 ⟨0, hn⟩) (iblk m c 1 ⟨0, hn⟩))
  | n + 1, hn =>
    if h0 : (n + 1) % 8 = 0 then
      (outA2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) ((hcond0 ⟨n + 1, hn⟩).mpr h0) (iblk m c 0 ⟨n + 1, hn⟩) (iblk m c 1 ⟨n + 1, hn⟩), outA3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) ((hcond0 ⟨n + 1, hn⟩).mpr h0) (iblk m c 0 ⟨n + 1, hn⟩) (iblk m c 1 ⟨n + 1, hn⟩), outA4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) ((hcond0 ⟨n + 1, hn⟩).mpr h0) (iblk m c 0 ⟨n + 1, hn⟩) (iblk m c 1 ⟨n + 1, hn⟩))
    else
      (outB2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (fun h => h0 ((hcond0 ⟨n + 1, hn⟩).mp h)) (iblk m c 0 ⟨n + 1, hn⟩) (iblk m c 1 ⟨n + 1, hn⟩) (outsAt c n (Nat.lt_of_succ_lt hn)).1 (outsAt c n (Nat.lt_of_succ_lt hn)).2.1 (outsAt c n (Nat.lt_of_succ_lt hn)).2.2, outB3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (fun h => h0 ((hcond0 ⟨n + 1, hn⟩).mp h)) (iblk m c 0 ⟨n + 1, hn⟩) (iblk m c 1 ⟨n + 1, hn⟩) (outsAt c n (Nat.lt_of_succ_lt hn)).1 (outsAt c n (Nat.lt_of_succ_lt hn)).2.1 (outsAt c n (Nat.lt_of_succ_lt hn)).2.2, outB4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (fun h => h0 ((hcond0 ⟨n + 1, hn⟩).mp h)) (iblk m c 0 ⟨n + 1, hn⟩) (iblk m c 1 ⟨n + 1, hn⟩) (outsAt c n (Nat.lt_of_succ_lt hn)).1 (outsAt c n (Nat.lt_of_succ_lt hn)).2.1 (outsAt c n (Nat.lt_of_succ_lt hn)).2.2)

/-- At a first tile: the reset case's contents. -/
theorem outsAt_A (c : Dev nD) (t : Fin cfg0.N) (h0 : t.val % 8 = 0) :
    outsAt m c t.val t.isLt = (outA2 c (grid0.coords t) (ms0 t) (hs0 t) (ms1 t) (hs1 t) (ms2 t) (hs2 t) (ms3 t) (hs3 t) (ms4 t) (hs4 t) ((hcond0 t).mpr h0) (iblk m c 0 t) (iblk m c 1 t), outA3 c (grid0.coords t) (ms0 t) (hs0 t) (ms1 t) (hs1 t) (ms2 t) (hs2 t) (ms3 t) (hs3 t) (ms4 t) (hs4 t) ((hcond0 t).mpr h0) (iblk m c 0 t) (iblk m c 1 t), outA4 c (grid0.coords t) (ms0 t) (hs0 t) (ms1 t) (hs1 t) (ms2 t) (hs2 t) (ms3 t) (hs3 t) (ms4 t) (hs4 t) ((hcond0 t).mpr h0) (iblk m c 0 t) (iblk m c 1 t)) := by
  obtain ⟨n, hn⟩ := t
  cases n with
  | zero => exact rfl
  | succ n => exact (dif_pos h0).trans rfl

/-- At a later tile: the accumulating case's contents over what the point before left. -/
theorem outsAt_B (c : Dev nD) (t : Fin cfg0.N) (h0 : ¬t.val % 8 = 0) :
    outsAt m c t.val t.isLt = (outB2 c (grid0.coords t) (ms0 t) (hs0 t) (ms1 t) (hs1 t) (ms2 t) (hs2 t) (ms3 t) (hs3 t) (ms4 t) (hs4 t) (fun h => h0 ((hcond0 t).mp h)) (iblk m c 0 t) (iblk m c 1 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2, outB3 c (grid0.coords t) (ms0 t) (hs0 t) (ms1 t) (hs1 t) (ms2 t) (hs2 t) (ms3 t) (hs3 t) (ms4 t) (hs4 t) (fun h => h0 ((hcond0 t).mp h)) (iblk m c 0 t) (iblk m c 1 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2, outB4 c (grid0.coords t) (ms0 t) (hs0 t) (ms1 t) (hs1 t) (ms2 t) (hs2 t) (ms3 t) (hs3 t) (ms4 t) (hs4 t) (fun h => h0 ((hcond0 t).mp h)) (iblk m c 0 t) (iblk m c 1 t) (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The region's proof data -/

/-- On core `c`: the arrays as the region finds them; after the body at point `t` each input buffer at its block and the
    three result buffers at `outsAt`; the invariant the class's; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2.1
    | ⟨4, _⟩ => (outsAt m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]
theorem after3 (c : Dev nD) (t : Fin cfg0.N) : (dats m 0 c).after 3 t = (outsAt m c t.val t.isLt).2.1 := by dsimp only [dats]
theorem after4 (c : Dev nD) (t : Fin cfg0.N) : (dats m 0 c).after 4 t = (outsAt m c t.val t.isLt).2.2 := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-- At a later tile result buffer 2 still holds what the body left at the point before: it was not written back between. -/
theorem before2_B (c : Dev nD) (t : Fin cfg0.N) (h0 : ¬t.val % 8 = 0) (d) :
    (dats m 0 c).before 2 t d = (outsAt m c (t.val - 1) (Nat.lt_of_le_of_lt (Nat.sub_le _ _) t.isLt)).1 := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dats]
/-- At a later tile result buffer 3 still holds what the body left at the point before: it was not written back between. -/
theorem before3_B (c : Dev nD) (t : Fin cfg0.N) (h0 : ¬t.val % 8 = 0) (d) :
    (dats m 0 c).before 3 t d = (outsAt m c (t.val - 1) (Nat.lt_of_le_of_lt (Nat.sub_le _ _) t.isLt)).2.1 := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    (fun _ => rfl) (fun _ _ => rfl)]
  dsimp only [dats]
/-- At a later tile result buffer 4 still holds what the body left at the point before: it was not written back between. -/
theorem before4_B (c : Dev nD) (t : Fin cfg0.N) (h0 : ¬t.val % 8 = 0) (d) :
    (dats m 0 c).before 4 t d = (outsAt m c (t.val - 1) (Nat.lt_of_le_of_lt (Nat.sub_le _ _) t.isLt)).2.2 := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 1600000 in
/-- The body at any point: the input buffers hold their blocks; the branch's closed form says which case the point is
    in; at a later tile the result buffers hold what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3, after4]
  by_cases h0 : t.val % 8 = 0
  · rw [outsAt_A m c t h0]
    dsimp only
    unfold outA2 outA3 outA4
    iintro ⟨HΦ, Ho, ⟨%d0, H0⟩, ⟨%d1, H1⟩, ⟨%d2, H2⟩, ⟨%d3, H3⟩, ⟨%d4, H4⟩⟩
    iapply ((kernelRunA c (grid0.coords t) _ _ _ _ _ _ _ _ _ _ ((hcond0 t).mpr h0) (iblk m c 0 t) (iblk m c 1 t)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverA2 c _ _ _ _ _ _ _ _ _ _ _ _ _ _)
    isplitl [H3]
    · unfold owns; iexists _; isplitr
      swap; · iexact H3
      ipureintro; exact View.read_writes_of_cover _ _ _ _ _ (coverA3 c _ _ _ _ _ _ _ _ _ _ _ _ _ _)
    unfold owns; iexists _; isplitr
    swap; · iexact H4
    ipureintro; exact View.read_writes_of_cover _ _ _ _ _ (coverA4 c _ _ _ _ _ _ _ _ _ _ _ _ _ _)
  · rw [outsAt_B m c t h0]
    dsimp only
    simp only [before2_B m c t h0, before3_B m c t h0, before4_B m c t h0]
    unfold outB2 outB3 outB4
    iintro ⟨HΦ, Ho, ⟨%d0, H0⟩, ⟨%d1, H1⟩, ⟨%d2, H2⟩, ⟨%d3, H3⟩, ⟨%d4, H4⟩⟩
    iapply ((kernelRunB c (grid0.coords t) _ _ _ _ _ _ _ _ _ _ (fun h => h0 ((hcond0 t).mp h)) (iblk m c 0 t) (iblk m c 1 t) _ _ _).2.2.2 Set.univ _)
    isplitl [H0]; · iexact H0
    isplitl [H1]; · iexact H1
    isplitl [H2]; · iexact H2
    isplitl [H3]; · iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverB2 c _ _ _ _ _ _ _ _ _ _ _ _ _ _ _ _ _)
    isplitl [H3]
    · unfold owns; iexists _; isplitr
      swap; · iexact H3
      ipureintro; exact View.read_writes_of_cover _ _ _ _ _ (coverB3 c _ _ _ _ _ _ _ _ _ _ _ _ _ _ _ _ _)
    unfold owns; iexists _; isplitr
    swap; · iexact H4
    ipureintro; exact View.read_writes_of_cover _ _ _ _ _ (coverB4 c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates; in the final state every array
    the region stages holds what the library computes from the proof data, and every other unscoped buffer what the
    later host stretches leave from the region's exit. -/
theorem run_main : θ_run defs (onTc (τ := τ) (main (F := F))) (s₀ m ρ) (Pipeline.FramePost cfgs (dats m) 0 (Pipeline.afterTail₀ cfgs (dats m) 0 (V0 m) tail)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := sfx_sub) (hfresh := sfx_fresh) (hkeep := sfx_keeps)
    (hmain := hmain m Variants.none) (hA := A_eq m) (hΦ := fun _ _ => rfl)

/-- The frame claim's post at any float family: @main runs to the end and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.KernelIdeal.Fr

end
-- ==== Proof.KernelIdealTail.lean ====
/- The host operations that follow the pallas_call, read as pure functions of the values they take, one `let` per operation
  in program order under the operation's own buffer name:
    `countRow`  — the [2,32,1] pixel counts laid out as [2,32];
    `takeRow`   — jnp.take_along_axis(x, classes[:, None, :], axis=1)[:, 0, :] of a [2,80,32] table: negative class ids
                   wrapped by 80, the row gathered, a class id outside [0, 80) answered by the NaN pattern (both calls of the
                   program print the same operations; the script checks it);
    `lossTail`  — everything after: the per-instance mean and variance, the pairwise term over same-class pairs j < k, the
                   regulariser, and the final mean times 0.1.
-/
import proofs.«429512_j49709951484028_2_alg».proof.Proof.Gen.KernelIdeal

noncomputable section

namespace Cert.KernelIdeal.Tl

open Cert.KernelIdeal Cert.KernelIdeal.Gen Idealize.ShloMosaic

variable {F : FTy → Type} [FloatOps F]

def countRow (x : (⟨S2x32x1, .f32⟩ : BufTy).Contents (Elt F)) : (⟨S2x32, .f32⟩ : BufTy).Contents (Elt F) :=
  let main_v4 : (⟨S2x32, .f32⟩ : BufTy).Contents (Elt F) := shapeCast S2x32 x shapeCasts_S2x32x1_S2x32
  main_v4

def takeRow (x : (⟨S2x80x32, .f32⟩ : BufTy).Contents (Elt F)) (cls : (⟨S2x32, .i32⟩ : BufTy).Contents (Elt F)) : (⟨S2x32, .f32⟩ : BufTy).Contents (Elt F) :=
  let main_v5 : (⟨S2x1x32, .i32⟩ : BufTy).Contents (Elt F) := (broadcastInDim S2x1x32 ![0, 2] bcast_S2x32_S2x1x32_0_2 : (⟨S2x32, .i32⟩ : BufTy).Contents (Elt F) → (⟨S2x1x32, .i32⟩ : BufTy).Contents (Elt F)) cls
  let main_call0_c : (⟨S_, .i32⟩ : BufTy).Contents (Elt F) := constantI S_ 32 0#32
  let main_call0_v0 : (⟨S2x1x32, .i32⟩ : BufTy).Contents (Elt F) := (broadcastInDim S2x1x32 ![] bcast_S_S2x1x32) main_call0_c
  let main_call0_v1 : (⟨S2x1x32, .i1⟩ : BufTy).Contents (Elt F) := (cmpi .slt) main_v5 main_call0_v0
  let main_call0_c_0 : (⟨S_, .i32⟩ : BufTy).Contents (Elt F) := constantI S_ 32 80#32
  let main_call0_v2 : (⟨S2x1x32, .i32⟩ : BufTy).Contents (Elt F) := (broadcastInDim S2x1x32 ![] bcast_S_S2x1x32) main_call0_c_0
  let main_call0_v3 : (⟨S2x1x32, .i32⟩ : BufTy).Contents (Elt F) := addi main_v5 main_call0_v2
  let main_call0_v4 : (⟨S2x1x32, .i32⟩ : BufTy).Contents (Elt F) := select main_call0_v1 main_call0_v3 main_v5
  let main_call0_v5 : (⟨S2x1x32x1, .i32⟩ : BufTy).Contents (Elt F) := shapeCast S2x1x32x1 main_call0_v4 shapeCasts_S2x1x32_S2x1x32x1
  let main_call0_c_1 : (⟨S1, .i32⟩ : BufTy).Contents (Elt F) := constantI S1 32 79#32
  let main_call0_c_2 : (⟨S_, .i32⟩ : BufTy).Contents (Elt F) := constantI S_ 32 0#32
  let main_call0_v6 : (⟨S2x1x32x1, .i32⟩ : BufTy).Contents (Elt F) := (broadcastInDim S2x1x32x1 ![] bcast_S_S2x1x32x1) main_call0_c_2
  let main_call0_v7 : (⟨S2x1x32x1, .i1⟩ : BufTy).Contents (Elt F) := (cmpi .sge) main_call0_v5 main_call0_v6
  let main_call0_v8 : (⟨S1x1x1x1, .i32⟩ : BufTy).Contents (Elt F) := (broadcastInDim S1x1x1x1 ![3] bcast_S1_S1x1x1x1_3) main_call0_c_1
  let main_call0_v9 : (⟨S2x1x32x1, .i32⟩ : BufTy).Contents (Elt F) := (broadcastInDim S2x1x32x1 ![0, 1, 2, 3] bcast_S1x1x1x1_S2x1x32x1_0_1_2_3) main_call0_v8
  let main_call0_v10 : (⟨S2x1x32x1, .i1⟩ : BufTy).Contents (Elt F) := (cmpi .sle) main_call0_v5 main_call0_v9
  let main_call0_v11 : (⟨S2x1x32x1, .i1⟩ : BufTy).Contents (Elt F) := andi main_call0_v7 main_call0_v10
  let main_call0_c_3 : (⟨S_, .i1⟩ : BufTy).Contents (Elt F) := constantI S_ 1 1#1
  let main_call0_v12 : (⟨S2x1x32, .i1⟩ : BufTy).Contents (Elt F) := (fun x v => Host.reduce IntOp.andi x v reducesTo_S2x1x32x1_S2x1x32_d3 h_S_) main_call0_v11 main_call0_c_3
  let main_call0_v13 : (⟨S2x1x32, .f32⟩ : BufTy).Contents (Elt F) := (fun x i => Host.gather gather_S2x80x32_S2x1x32x1_S2x1x32_n_1_02_02_1_3_111 x i) x main_call0_v5
  let main_call0_cst : (⟨S_, .f32⟩ : BufTy).Contents (Elt F) := constant (F := F) S_ .f32 0x7FC00000#32
  let main_call0_v14 : (⟨S2x1x32, .f32⟩ : BufTy).Contents (Elt F) := (broadcastInDim S2x1x32 ![] bcast_S_S2x1x32) main_call0_cst
  let main_v6 : (⟨S2x1x32, .f32⟩ : BufTy).Contents (Elt F) := select main_call0_v12 main_call0_v13 main_call0_v14
  let main_v7 : (⟨S2x32, .f32⟩ : BufTy).Contents (Elt F) := shapeCast S2x32 main_v6 shapeCasts_S2x1x32_S2x32
  main_v7

def lossTail (cnt s s2 : (⟨S2x32, .f32⟩ : BufTy).Contents (Elt F)) (cls : (⟨S2x32, .i32⟩ : BufTy).Contents (Elt F)) : (⟨S_, .f32⟩ : BufTy).Contents (Elt F) :=
  let main_cst : (⟨S_, .f32⟩ : BufTy).Contents (Elt F) := constant (F := F) S_ .f32 0x00000000#32
  let main_v10 : (⟨S2x32, .f32⟩ : BufTy).Contents (Elt F) := (broadcastInDim S2x32 ![] bcast_S_S2x32 : (⟨S_, .f32⟩ : BufTy).Contents (Elt F) → (⟨S2x32, .f32⟩ : BufTy).Contents (Elt F)) main_cst
  let main_v11 : (⟨S2x32, .i1⟩ : BufTy).Contents (Elt F) := (cmpf .ogt : (⟨S2x32, .f32⟩ : BufTy).Contents (Elt F) → (⟨S2x32, .f32⟩ : BufTy).Contents (Elt F) → (⟨S2x32, .i1⟩ : BufTy).Contents (Elt F)) cnt main_v10
  let main_cst_0 : (⟨S_, .f32⟩ : BufTy).Contents (Elt F) := constant (F := F) S_ .f32 0x3F800000#32
  let main_call2_v0 : (⟨S_, .f32⟩ : BufTy).Contents (Elt F) := id main_cst_0
  let main_call2_v1 : (⟨S2x32, .f32⟩ : BufTy).Contents (Elt F) := (broadcastInDim S2x32 ![] bcast_S_S2x32) main_call2_v0
  let main_v12 : (⟨S2x32, .f32⟩ : BufTy).Contents (Elt F) := select main_v11 cnt main_call2_v1
  let main_v13 : (⟨S2x32, .f32⟩ : BufTy).Contents (Elt F) := (Host.divf : (⟨S2x32, .f32⟩ : BufTy).Contents (Elt F) → (⟨S2x32, .f32⟩ : BufTy).Contents (Elt F) → (⟨S2x32, .f32⟩ : BufTy).Contents (Elt F)) s main_v12
  let main_cst_1 : (⟨S_, .f32⟩ : BufTy).Contents (Elt F) := constant (F := F) S_ .f32 0x00000000#32
  let main_call3_v0 : (⟨S_, .f32⟩ : BufTy).Contents (Elt F) := id main_cst_1
  let main_call3_v1 : (⟨S2x32, .f32⟩ : BufTy).Contents (Elt F) := (broadcastInDim S2x32 ![] bcast_S_S2x32) main_call3_v0
  let main_v14 : (⟨S2x32, .f32⟩ : BufTy).Contents (Elt F) := select main_v11 main_v13 main_call3_v1
  let main_v15 : (⟨S2x32, .f32⟩ : BufTy).Contents (Elt F) := (Host.divf : (⟨S2x32, .f32⟩ : BufTy).Contents (Elt F) → (⟨S2x32, .f32⟩ : BufTy).Contents (Elt F) → (⟨S2x32, .f32⟩ : BufTy).Contents (Elt F)) s2 main_v12
  let main_v16 : (⟨S2x32, .f32⟩ : BufTy).Contents (Elt F) := (mulf : (⟨S2x32, .f32⟩ : BufTy).Contents (Elt F) → (⟨S2x32, .f32⟩ : BufTy).Contents (Elt F) → (⟨S2x32, .f32⟩ : BufTy).Contents (Elt F)) main_v14 main_v14
  let main_v17 : (⟨S2x32, .f32⟩ : BufTy).Contents (Elt F) := (subf : (⟨S2x32, .f32⟩ : BufTy).Contents (Elt F) → (⟨S2x32, .f32⟩ : BufTy).Contents (Elt F) → (⟨S2x32, .f32⟩ : BufTy).Contents (Elt F)) main_v15 main_v16
  let main_cst_2 : (⟨S_, .f32⟩ : BufTy).Contents (Elt F) := constant (F := F) S_ .f32 0x00000000#32
  let main_call4_v0 : (⟨S_, .f32⟩ : BufTy).Contents (Elt F) := id main_cst_2
  let main_call4_v1 : (⟨S2x32, .f32⟩ : BufTy).Contents (Elt F) := (broadcastInDim S2x32 ![] bcast_S_S2x32) main_call4_v0
  let main_v18 : (⟨S2x32, .f32⟩ : BufTy).Contents (Elt F) := select main_v11 main_v17 main_call4_v1
  let main_v19 : (⟨S2x32x1, .f32⟩ : BufTy).Contents (Elt F) := (broadcastInDim S2x32x1 ![0, 1] bcast_S2x32_S2x32x1_0_1 : (⟨S2x32, .f32⟩ : BufTy).Contents (Elt F) → (⟨S2x32x1, .f32⟩ : BufTy).Contents (Elt F)) main_v14
  let main_v20 : (⟨S2x1x32, .f32⟩ : BufTy).Contents (Elt F) := (broadcastInDim S2x1x32 ![0, 2] bcast_S2x32_S2x1x32_0_2 : (⟨S2x32, .f32⟩ : BufTy).Contents (Elt F) → (⟨S2x1x32, .f32⟩ : BufTy).Contents (Elt F)) main_v14
  let main_v21 : (⟨S2x32x32, .f32⟩ : BufTy).Contents (Elt F) := (broadcastInDim S2x32x32 ![0, 1, 2] bcast_S2x32x1_S2x32x32_0_1_2 : (⟨S2x32x1, .f32⟩ : BufTy).Contents (Elt F) → (⟨S2x32x32, .f32⟩ : BufTy).Contents (Elt F)) main_v19
  let main_v22 : (⟨S2x32x32, .f32⟩ : BufTy).Contents (Elt F) := (broadcastInDim S2x32x32 ![0, 1, 2] bcast_S2x1x32_S2x32x32_0_1_2 : (⟨S2x1x32, .f32⟩ : BufTy).Contents (Elt F) → (⟨S2x32x32, .f32⟩ : BufTy).Contents (Elt F)) main_v20
  let main_v23 : (⟨S2x32x32, .f32⟩ : BufTy).Contents (Elt F) := (subf : (⟨S2x32x32, .f32⟩ : BufTy).Contents (Elt F) → (⟨S2x32x32, .f32⟩ : BufTy).Contents (Elt F) → (⟨S2x32x32, .f32⟩ : BufTy).Contents (Elt F)) main_v21 main_v22
  let main_v24 : (⟨S2x32x32, .f32⟩ : BufTy).Contents (Elt F) := (mulf : (⟨S2x32x32, .f32⟩ : BufTy).Contents (Elt F) → (⟨S2x32x32, .f32⟩ : BufTy).Contents (Elt F) → (⟨S2x32x32, .f32⟩ : BufTy).Contents (Elt F)) main_v23 main_v23
  let main_v25 : (⟨S2x32x1, .i32⟩ : BufTy).Contents (Elt F) := (broadcastInDim S2x32x1 ![0, 1] bcast_S2x32_S2x32x1_0_1 : (⟨S2x32, .i32⟩ : BufTy).Contents (Elt F) → (⟨S2x32x1, .i32⟩ : BufTy).Contents (Elt F)) cls
  let main_v26 : (⟨S2x1x32, .i32⟩ : BufTy).Contents (Elt F) := (broadcastInDim S2x1x32 ![0, 2] bcast_S2x32_S2x1x32_0_2 : (⟨S2x32, .i32⟩ : BufTy).Contents (Elt F) → (⟨S2x1x32, .i32⟩ : BufTy).Contents (Elt F)) cls
  let main_v27 : (⟨S2x32x32, .i32⟩ : BufTy).Contents (Elt F) := (broadcastInDim S2x32x32 ![0, 1, 2] bcast_S2x32x1_S2x32x32_0_1_2 : (⟨S2x32x1, .i32⟩ : BufTy).Contents (Elt F) → (⟨S2x32x32, .i32⟩ : BufTy).Contents (Elt F)) main_v25
  let main_v28 : (⟨S2x32x32, .i32⟩ : BufTy).Contents (Elt F) := (broadcastInDim S2x32x32 ![0, 1, 2] bcast_S2x1x32_S2x32x32_0_1_2 : (⟨S2x1x32, .i32⟩ : BufTy).Contents (Elt F) → (⟨S2x32x32, .i32⟩ : BufTy).Contents (Elt F)) main_v26
  let main_v29 : (⟨S2x32x32, .i1⟩ : BufTy).Contents (Elt F) := (cmpi .eq : (⟨S2x32x32, .i32⟩ : BufTy).Contents (Elt F) → (⟨S2x32x32, .i32⟩ : BufTy).Contents (Elt F) → (⟨S2x32x32, .i1⟩ : BufTy).Contents (Elt F)) main_v27 main_v28
  let main_c : (⟨S_, .i1⟩ : BufTy).Contents (Elt F) := constantI S_ 1 1#1
  let main_v30 : (⟨S32x32, .i1⟩ : BufTy).Contents (Elt F) := (broadcastInDim S32x32 ![] bcast_S_S32x32 : (⟨S_, .i1⟩ : BufTy).Contents (Elt F) → (⟨S32x32, .i1⟩ : BufTy).Contents (Elt F)) main_c
  let main_call5_v0 : (⟨S32x32, .i32⟩ : BufTy).Contents (Elt F) := iotaInDim S32x32 32 0
  let main_call5_c : (⟨S_, .i32⟩ : BufTy).Contents (Elt F) := constantI S_ 32 0#32
  let main_call5_v1 : (⟨S32x32, .i32⟩ : BufTy).Contents (Elt F) := (broadcastInDim S32x32 ![] bcast_S_S32x32) main_call5_c
  let main_call5_v2 : (⟨S32x32, .i32⟩ : BufTy).Contents (Elt F) := addi main_call5_v0 main_call5_v1
  let main_call5_v3 : (⟨S32x32, .i32⟩ : BufTy).Contents (Elt F) := iotaInDim S32x32 32 1
  let main_call5_v4 : (⟨S32x32, .i1⟩ : BufTy).Contents (Elt F) := (cmpi .sge) main_call5_v2 main_call5_v3
  let main_call5_c_0 : (⟨S_, .i1⟩ : BufTy).Contents (Elt F) := constantI S_ 1 0#1
  let main_call5_v5 : (⟨S32x32, .i1⟩ : BufTy).Contents (Elt F) := (broadcastInDim S32x32 ![] bcast_S_S32x32) main_call5_c_0
  let main_v31 : (⟨S32x32, .i1⟩ : BufTy).Contents (Elt F) := select main_call5_v4 main_call5_v5 main_v30
  let main_v32 : (⟨S1x32x32, .i1⟩ : BufTy).Contents (Elt F) := (broadcastInDim S1x32x32 ![1, 2] bcast_S32x32_S1x32x32_1_2 : (⟨S32x32, .i1⟩ : BufTy).Contents (Elt F) → (⟨S1x32x32, .i1⟩ : BufTy).Contents (Elt F)) main_v31
  let main_v33 : (⟨S2x32x32, .i1⟩ : BufTy).Contents (Elt F) := (broadcastInDim S2x32x32 ![0, 1, 2] bcast_S1x32x32_S2x32x32_0_1_2 : (⟨S1x32x32, .i1⟩ : BufTy).Contents (Elt F) → (⟨S2x32x32, .i1⟩ : BufTy).Contents (Elt F)) main_v32
  let main_v34 : (⟨S2x32x32, .i1⟩ : BufTy).Contents (Elt F) := (andi : (⟨S2x32x32, .i1⟩ : BufTy).Contents (Elt F) → (⟨S2x32x32, .i1⟩ : BufTy).Contents (Elt F) → (⟨S2x32x32, .i1⟩ : BufTy).Contents (Elt F)) main_v29 main_v33
  let main_cst_3 : (⟨S_, .f32⟩ : BufTy).Contents (Elt F) := constant (F := F) S_ .f32 0x3F800000#32
  let main_v35 : (⟨S2x32x32, .f32⟩ : BufTy).Contents (Elt F) := (broadcastInDim S2x32x32 ![] bcast_S_S2x32x32 : (⟨S_, .f32⟩ : BufTy).Contents (Elt F) → (⟨S2x32x32, .f32⟩ : BufTy).Contents (Elt F)) main_cst_3
  let main_v36 : (⟨S2x32x32, .f32⟩ : BufTy).Contents (Elt F) := (subf : (⟨S2x32x32, .f32⟩ : BufTy).Contents (Elt F) → (⟨S2x32x32, .f32⟩ : BufTy).Contents (Elt F) → (⟨S2x32x32, .f32⟩ : BufTy).Contents (Elt F)) main_v35 main_v24
  let main_cst_4 : (⟨S_, .f32⟩ : BufTy).Contents (Elt F) := constant (F := F) S_ .f32 0x00000000#32
  let main_v37 : (⟨S2x32x32, .f32⟩ : BufTy).Contents (Elt F) := (broadcastInDim S2x32x32 ![] bcast_S_S2x32x32 : (⟨S_, .f32⟩ : BufTy).Contents (Elt F) → (⟨S2x32x32, .f32⟩ : BufTy).Contents (Elt F)) main_cst_4
  let main_v38 : (⟨S2x32x32, .f32⟩ : BufTy).Contents (Elt F) := (maximumf : (⟨S2x32x32, .f32⟩ : BufTy).Contents (Elt F) → (⟨S2x32x32, .f32⟩ : BufTy).Contents (Elt F) → (⟨S2x32x32, .f32⟩ : BufTy).Contents (Elt F)) main_v36 main_v37
  let main_cst_5 : (⟨S_, .f32⟩ : BufTy).Contents (Elt F) := constant (F := F) S_ .f32 0x00000000#32
  let main_call6_v0 : (⟨S_, .f32⟩ : BufTy).Contents (Elt F) := id main_cst_5
  let main_call6_v1 : (⟨S2x32x32, .f32⟩ : BufTy).Contents (Elt F) := (broadcastInDim S2x32x32 ![] bcast_S_S2x32x32) main_call6_v0
  let main_v39 : (⟨S2x32x32, .f32⟩ : BufTy).Contents (Elt F) := select main_v34 main_v38 main_call6_v1
  let main_cst_6 : (⟨S_, .f32⟩ : BufTy).Contents (Elt F) := constant (F := F) S_ .f32 0x00000000#32
  let main_v40 : (⟨S2, .f32⟩ : BufTy).Contents (Elt F) := ((fun x v => Host.reduceAdd x v reducesTo_S2x32x32_S2_d1_2 h_S_) : (⟨S2x32x32, .f32⟩ : BufTy).Contents (Elt F) → (⟨S_, .f32⟩ : BufTy).Contents (Elt F) → (⟨S2, .f32⟩ : BufTy).Contents (Elt F)) main_v39 main_cst_6
  let main_v41 : (⟨S2x32, .f32⟩ : BufTy).Contents (Elt F) := (mulf : (⟨S2x32, .f32⟩ : BufTy).Contents (Elt F) → (⟨S2x32, .f32⟩ : BufTy).Contents (Elt F) → (⟨S2x32, .f32⟩ : BufTy).Contents (Elt F)) main_v14 main_v14
  let main_cst_7 : (⟨S_, .f32⟩ : BufTy).Contents (Elt F) := constant (F := F) S_ .f32 0x00000000#32
  let main_v42 : (⟨S2, .f32⟩ : BufTy).Contents (Elt F) := ((fun x v => Host.reduceAdd x v reducesTo_S2x32_S2_d1 h_S_) : (⟨S2x32, .f32⟩ : BufTy).Contents (Elt F) → (⟨S_, .f32⟩ : BufTy).Contents (Elt F) → (⟨S2, .f32⟩ : BufTy).Contents (Elt F)) main_v41 main_cst_7
  let main_cst_8 : (⟨S_, .f32⟩ : BufTy).Contents (Elt F) := constant (F := F) S_ .f32 0x42000000#32
  let main_v43 : (⟨S2, .f32⟩ : BufTy).Contents (Elt F) := (broadcastInDim S2 ![] bcast_S_S2 : (⟨S_, .f32⟩ : BufTy).Contents (Elt F) → (⟨S2, .f32⟩ : BufTy).Contents (Elt F)) main_cst_8
  let main_v44 : (⟨S2, .f32⟩ : BufTy).Contents (Elt F) := (Host.divf : (⟨S2, .f32⟩ : BufTy).Contents (Elt F) → (⟨S2, .f32⟩ : BufTy).Contents (Elt F) → (⟨S2, .f32⟩ : BufTy).Contents (Elt F)) main_v42 main_v43
  let main_cst_9 : (⟨S_, .f32⟩ : BufTy).Contents (Elt F) := constant (F := F) S_ .f32 0x00000000#32
  let main_v45 : (⟨S2, .f32⟩ : BufTy).Contents (Elt F) := ((fun x v => Host.reduceAdd x v reducesTo_S2x32_S2_d1 h_S_) : (⟨S2x32, .f32⟩ : BufTy).Contents (Elt F) → (⟨S_, .f32⟩ : BufTy).Contents (Elt F) → (⟨S2, .f32⟩ : BufTy).Contents (Elt F)) main_v18 main_cst_9
  let main_cst_10 : (⟨S_, .f32⟩ : BufTy).Contents (Elt F) := constant (F := F) S_ .f32 0x42000000#32
  let main_v46 : (⟨S2, .f32⟩ : BufTy).Contents (Elt F) := (broadcastInDim S2 ![] bcast_S_S2 : (⟨S_, .f32⟩ : BufTy).Contents (Elt F) → (⟨S2, .f32⟩ : BufTy).Contents (Elt F)) main_cst_10
  let main_v47 : (⟨S2, .f32⟩ : BufTy).Contents (Elt F) := (Host.divf : (⟨S2, .f32⟩ : BufTy).Contents (Elt F) → (⟨S2, .f32⟩ : BufTy).Contents (Elt F) → (⟨S2, .f32⟩ : BufTy).Contents (Elt F)) main_v45 main_v46
  let main_cst_11 : (⟨S_, .f32⟩ : BufTy).Contents (Elt F) := constant (F := F) S_ .f32 0x3F800000#32
  let main_v48 : (⟨S2, .f32⟩ : BufTy).Contents (Elt F) := (broadcastInDim S2 ![] bcast_S_S2 : (⟨S_, .f32⟩ : BufTy).Contents (Elt F) → (⟨S2, .f32⟩ : BufTy).Contents (Elt F)) main_cst_11
  let main_v49 : (⟨S2, .f32⟩ : BufTy).Contents (Elt F) := (mulf : (⟨S2, .f32⟩ : BufTy).Contents (Elt F) → (⟨S2, .f32⟩ : BufTy).Contents (Elt F) → (⟨S2, .f32⟩ : BufTy).Contents (Elt F)) main_v48 main_v40
  let main_cst_12 : (⟨S_, .f32⟩ : BufTy).Contents (Elt F) := constant (F := F) S_ .f32 0x3F800000#32
  let main_v50 : (⟨S2, .f32⟩ : BufTy).Contents (Elt F) := (broadcastInDim S2 ![] bcast_S_S2 : (⟨S_, .f32⟩ : BufTy).Contents (Elt F) → (⟨S2, .f32⟩ : BufTy).Contents (Elt F)) main_cst_12
  let main_v51 : (⟨S2, .f32⟩ : BufTy).Contents (Elt F) := (mulf : (⟨S2, .f32⟩ : BufTy).Contents (Elt F) → (⟨S2, .f32⟩ : BufTy).Contents (Elt F) → (⟨S2, .f32⟩ : BufTy).Contents (Elt F)) main_v50 main_v44
  let main_v52 : (⟨S2, .f32⟩ : BufTy).Contents (Elt F) := (addf : (⟨S2, .f32⟩ : BufTy).Contents (Elt F) → (⟨S2, .f32⟩ : BufTy).Contents (Elt F) → (⟨S2, .f32⟩ : BufTy).Contents (Elt F)) main_v49 main_v51
  let main_cst_13 : (⟨S_, .f32⟩ : BufTy).Contents (Elt F) := constant (F := F) S_ .f32 0x3F800000#32
  let main_v53 : (⟨S2, .f32⟩ : BufTy).Contents (Elt F) := (broadcastInDim S2 ![] bcast_S_S2 : (⟨S_, .f32⟩ : BufTy).Contents (Elt F) → (⟨S2, .f32⟩ : BufTy).Contents (Elt F)) main_cst_13
  let main_v54 : (⟨S2, .f32⟩ : BufTy).Contents (Elt F) := (mulf : (⟨S2, .f32⟩ : BufTy).Contents (Elt F) → (⟨S2, .f32⟩ : BufTy).Contents (Elt F) → (⟨S2, .f32⟩ : BufTy).Contents (Elt F)) main_v53 main_v47
  let main_v55 : (⟨S2, .f32⟩ : BufTy).Contents (Elt F) := (addf : (⟨S2, .f32⟩ : BufTy).Contents (Elt F) → (⟨S2, .f32⟩ : BufTy).Contents (Elt F) → (⟨S2, .f32⟩ : BufTy).Contents (Elt F)) main_v52 main_v54
  let main_cst_14 : (⟨S_, .f32⟩ : BufTy).Contents (Elt F) := constant (F := F) S_ .f32 0x00000000#32
  let main_v56 : (⟨S_, .f32⟩ : BufTy).Contents (Elt F) := ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)) main_v55 main_cst_14
  let main_cst_15 : (⟨S_, .f32⟩ : BufTy).Contents (Elt F) := constant (F := F) S_ .f32 0x40000000#32
  let main_v57 : (⟨S_, .f32⟩ : BufTy).Contents (Elt F) := (Host.divf : (⟨S_, .f32⟩ : BufTy).Contents (Elt F) → (⟨S_, .f32⟩ : BufTy).Contents (Elt F) → (⟨S_, .f32⟩ : BufTy).Contents (Elt F)) main_v56 main_cst_15
  let main_cst_16 : (⟨S_, .f32⟩ : BufTy).Contents (Elt F) := constant (F := F) S_ .f32 0x3F800000#32
  let main_v58 : (⟨S_, .f32⟩ : BufTy).Contents (Elt F) := (mulf : (⟨S_, .f32⟩ : BufTy).Contents (Elt F) → (⟨S_, .f32⟩ : BufTy).Contents (Elt F) → (⟨S_, .f32⟩ : BufTy).Contents (Elt F)) main_v57 main_cst_16
  let main_cst_17 : (⟨S_, .f32⟩ : BufTy).Contents (Elt F) := constant (F := F) S_ .f32 0x3DCCCCCD#32
  let main_v59 : (⟨S_, .f32⟩ : BufTy).Contents (Elt F) := (mulf : (⟨S_, .f32⟩ : BufTy).Contents (Elt F) → (⟨S_, .f32⟩ : BufTy).Contents (Elt F) → (⟨S_, .f32⟩ : BufTy).Contents (Elt F)) main_v58 main_cst_17
  main_v59

end Cert.KernelIdeal.Tl

end
-- ==== Proof.KTail.lean ====
/-
  What the host operations after the region compute from the region's three result arrays: the program's result is the
  loss tail of the counts laid out as [2,32], of the two tables' class rows, and of the class ids.
-/
import proofs.«429512_j49709951484028_2_alg».proof.Proof.KernelIdealFrame
import proofs.«429512_j49709951484028_2_alg».proof.Proof.KernelIdealTail
import Idealize.ShloMosaic.Lib.StableHlo.Run
import Idealize.ShloMosaic.Lib.Pipeline.Value

set_option maxRecDepth 16384

noncomputable section

namespace Cert.KernelIdeal.KT

open Cert.KernelIdeal Cert.KernelIdeal.Gen Cert.KernelIdeal.Fr Cert.KernelIdeal.Tl
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
theorem tail_eq (c : Dev nD) :
    Pipeline.afterTail₀ cfgs (dats m) 0 (V0 m) tail c main_v59
      = lossTail (countRow ((dats m 0 c).arrAt 4 cfg0.N))
          (takeRow ((dats m 0 c).arrAt 2 cfg0.N) (m ((c : Thread nD τ).loc main_arg2)))
          (takeRow ((dats m 0 c).arrAt 3 cfg0.N) (m ((c : Thread nD τ).loc main_arg2)))
          (m ((c : Thread nD τ).loc main_arg2)) := by
  have e2 : Pipeline.withArrays (cfgs 0).spec c (V0 m c) (fun w => (dats m 0 c).arrAt w (cfgs 0).N) (Proc.devRef .tc main_v3_0)
      = (dats m 0 c).arrAt 2 cfg0.N := Pipeline.withArrays_arr spec0 launch0.win.arr_inj c _ _ 2
  have e3 : Pipeline.withArrays (cfgs 0).spec c (V0 m c) (fun w => (dats m 0 c).arrAt w (cfgs 0).N) (Proc.devRef .tc main_v3_1)
      = (dats m 0 c).arrAt 3 cfg0.N := Pipeline.withArrays_arr spec0 launch0.win.arr_inj c _ _ 3
  have e4 : Pipeline.withArrays (cfgs 0).spec c (V0 m c) (fun w => (dats m 0 c).arrAt w (cfgs 0).N) (Proc.devRef .tc main_v3_2)
      = (dats m 0 c).arrAt 4 cfg0.N := Pipeline.withArrays_arr spec0 launch0.win.arr_inj c _ _ 4
  have ea : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans (V_main_arg2 m c)
  unfold Pipeline.afterTail₀
  simp only [tail, hostOps1, hostOps1_1, hostOps1_2, hostOps1_3, hostOps1_4, hostOps1_5, hostOps1_6, hostOps1_7, hostOps1_8, hostOps1_9, hostOps1_10, hostOps1_11, hostOps1_12, hostOps1_13, hostOps1_14, List.flatten_cons, List.flatten_nil, List.append_nil, List.cons_append, List.nil_append]
  after_results_simp
  all_goals (try simp only [StableHlo.TRef.ofBuf, StableHlo.TRef.toBuf, cast_eq])
  simp only [e2, e3, e4, ea]
  generalize (dats m 0 c).arrAt 2 cfg0.N = A2
  generalize (dats m 0 c).arrAt 3 cfg0.N = A3
  generalize (dats m 0 c).arrAt 4 cfg0.N = A4
  generalize m ((c : Thread nD τ).loc main_arg2) = cls
  rfl

end Cert.KernelIdeal.KT

end
-- ==== Proof.KernelIdealCase.lean ====
/-
  What each case of the kernel body leaves in the three result buffers, as the body's stored values: at a later tile
  (the branch not taken) each buffer's one covering store holds the tile's contribution added to the buffer's running
  contents; at a first tile (the branch taken) each buffer is first stored zero, read back, and stored again with the
  tile's contribution added, so it ends at the contribution added to the zero block.
-/
import proofs.«429512_j49709951484028_2_alg».proof.Proof.KernelIdealFrame
import Idealize.ShloMosaic.Lib.Pipeline.Value

set_option maxRecDepth 16384

noncomputable section

namespace Cert.KernelIdeal.Cs

open Cert.KernelIdeal Cert.KernelIdeal.Gen Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0, 0] : Fin 3 → Nat) = fun _ => 0 := funext fun a => by fin_cases a <;> rfl

/-! ## A later tile -/

set_option maxHeartbeats 1600000 in
theorem outB2_eq (c : Dev nD) (i : grid0.Coords) (arg2 : Memref sig .tc .vmem S1x80x32768 .f32) (harg2 : arg2.IsWhole) (arg3 : Memref sig .tc .vmem S1x32x32768 .i32) (harg3 : arg3.IsWhole) (arg4 : Memref sig .tc .vmem S1x80x32 .f32) (harg4 : arg4.IsWhole) (arg5 : Memref sig .tc .vmem S1x80x32 .f32) (harg5 : arg5.IsWhole) (arg6 : Memref sig .tc .vmem S1x32x1 .f32) (harg6 : arg6.IsWhole) (hc : ¬cond0 i)
    (x0 : Vec F S1x80x32768 .f32) (x1 : Vec F S1x32x32768 .i32) (xo2 : Vec F S1x80x32 .f32) (xo3 : Vec F S1x80x32 .f32) (xo4 : Vec F S1x32x1 .f32) :
    outB2 c i arg2 harg2 arg3 harg3 arg4 harg4 arg5 harg5 arg6 harg6 hc x0 x1 xo2 xo3 xo4 = k0_pay10 x0 x1 xo2 := by
  unfold outB2
  rw [View.read_writes_eq_canon _ _ _ (coverB2 c i arg2 harg2 arg3 harg3 arg4 harg4 arg5 harg5 arg6 harg6 hc x0 x1 xo2 xo3 xo4)]
  unfold kernelRunB
  dsimp only
  sl_unfold_words
  rw [View.canon_unit_zero hz]
  simp only [View.readAt_eq_ld, harg2.read_unread, harg3.read_unread, harg4.read_unread, harg5.read_unread, harg6.read_unread,
    View.ld_unit_zero (S := S1x80x32768) hz, View.ld_unit_zero (S := S1x32x32768) hz, View.ld_unit_zero (S := S1x80x32) hz, View.ld_unit_zero (S := S1x32x1) hz]

set_option maxHeartbeats 1600000 in
theorem outB3_eq (c : Dev nD) (i : grid0.Coords) (arg2 : Memref sig .tc .vmem S1x80x32768 .f32) (harg2 : arg2.IsWhole) (arg3 : Memref sig .tc .vmem S1x32x32768 .i32) (harg3 : arg3.IsWhole) (arg4 : Memref sig .tc .vmem S1x80x32 .f32) (harg4 : arg4.IsWhole) (arg5 : Memref sig .tc .vmem S1x80x32 .f32) (harg5 : arg5.IsWhole) (arg6 : Memref sig .tc .vmem S1x32x1 .f32) (harg6 : arg6.IsWhole) (hc : ¬cond0 i)
    (x0 : Vec F S1x80x32768 .f32) (x1 : Vec F S1x32x32768 .i32) (xo2 : Vec F S1x80x32 .f32) (xo3 : Vec F S1x80x32 .f32) (xo4 : Vec F S1x32x1 .f32) :
    outB3 c i arg2 harg2 arg3 harg3 arg4 harg4 arg5 harg5 arg6 harg6 hc x0 x1 xo2 xo3 xo4 = k0_pay1 (k0_pay9 x0 x1) xo3 := by
  unfold outB3
  rw [View.read_writes_eq_canon _ _ _ (coverB3 c i arg2 harg2 arg3 harg3 arg4 harg4 arg5 harg5 arg6 harg6 hc x0 x1 xo2 xo3 xo4)]
  unfold kernelRunB
  dsimp only
  sl_unfold_words
  rw [View.canon_unit_zero hz]
  simp only [View.readAt_eq_ld, harg2.read_unread, harg3.read_unread, harg4.read_unread, harg5.read_unread, harg6.read_unread,
    View.ld_unit_zero (S := S1x80x32768) hz, View.ld_unit_zero (S := S1x32x32768) hz, View.ld_unit_zero (S := S1x80x32) hz, View.ld_unit_zero (S := S1x32x1) hz]

set_option maxHeartbeats 1600000 in
theorem outB4_eq (c : Dev nD) (i : grid0.Coords) (arg2 : Memref sig .tc .vmem S1x80x32768 .f32) (harg2 : arg2.IsWhole) (arg3 : Memref sig .tc .vmem S1x32x32768 .i32) (harg3 : arg3.IsWhole) (arg4 : Memref sig .tc .vmem S1x80x32 .f32) (harg4 : arg4.IsWhole) (arg5 : Memref sig .tc .vmem S1x80x32 .f32) (harg5 : arg5.IsWhole) (arg6 : Memref sig .tc .vmem S1x32x1 .f32) (harg6 : arg6.IsWhole) (hc : ¬cond0 i)
    (x0 : Vec F S1x80x32768 .f32) (x1 : Vec F S1x32x32768 .i32) (xo2 : Vec F S1x80x32 .f32) (xo3 : Vec F S1x80x32 .f32) (xo4 : Vec F S1x32x1 .f32) :
    outB4 c i arg2 harg2 arg3 harg3 arg4 harg4 arg5 harg5 arg6 harg6 hc x0 x1 xo2 xo3 xo4 = k0_pay6 x1 xo4 := by
  unfold outB4
  rw [View.read_writes_eq_canon _ _ _ (coverB4 c i arg2 harg2 arg3 harg3 arg4 harg4 arg5 harg5 arg6 harg6 hc x0 x1 xo2 xo3 xo4)]
  unfold kernelRunB
  dsimp only
  sl_unfold_words
  rw [View.canon_unit_zero hz]
  simp only [View.readAt_eq_ld, harg2.read_unread, harg3.read_unread, harg4.read_unread, harg5.read_unread, harg6.read_unread,
    View.ld_unit_zero (S := S1x80x32768) hz, View.ld_unit_zero (S := S1x32x32768) hz, View.ld_unit_zero (S := S1x80x32) hz, View.ld_unit_zero (S := S1x32x1) hz]

/-! ## A first tile -/

set_option maxHeartbeats 1600000 in
theorem outA2_eq (c : Dev nD) (i : grid0.Coords) (arg2 : Memref sig .tc .vmem S1x80x32768 .f32) (harg2 : arg2.IsWhole) (arg3 : Memref sig .tc .vmem S1x32x32768 .i32) (harg3 : arg3.IsWhole) (arg4 : Memref sig .tc .vmem S1x80x32 .f32) (harg4 : arg4.IsWhole) (arg5 : Memref sig .tc .vmem S1x80x32 .f32) (harg5 : arg5.IsWhole) (arg6 : Memref sig .tc .vmem S1x32x1 .f32) (harg6 : arg6.IsWhole) (hc : cond0 i)
    (x0 : Vec F S1x80x32768 .f32) (x1 : Vec F S1x32x32768 .i32) :
    outA2 c i arg2 harg2 arg3 harg3 arg4 harg4 arg5 harg5 arg6 harg6 hc x0 x1 = k0_pay10 x0 x1 k0_pay2 := by
  unfold outA2
  rw [View.read_writes_eq_canon _ _ _ (coverA2 c i arg2 harg2 arg3 harg3 arg4 harg4 arg5 harg5 arg6 harg6 hc x0 x1)]
  unfold kernelRunA
  dsimp only
  sl_unfold_words
  rw [View.canon_cons_unit_zero (S := S1x80x32) hz, View.readCov_unit_zero (S := S1x80x32) _ hz]
  simp only [View.readAt_eq_ld, harg2.read_unread, harg3.read_unread,
    View.ld_unit_zero (S := S1x80x32768) hz, View.ld_unit_zero (S := S1x32x32768) hz, View.ld_unit_zero (S := S1x80x32) hz, View.ld_unit_zero (S := S1x32x1) hz]

set_option maxHeartbeats 1600000 in
theorem outA3_eq (c : Dev nD) (i : grid0.Coords) (arg2 : Memref sig .tc .vmem S1x80x32768 .f32) (harg2 : arg2.IsWhole) (arg3 : Memref sig .tc .vmem S1x32x32768 .i32) (harg3 : arg3.IsWhole) (arg4 : Memref sig .tc .vmem S1x80x32 .f32) (harg4 : arg4.IsWhole) (arg5 : Memref sig .tc .vmem S1x80x32 .f32) (harg5 : arg5.IsWhole) (arg6 : Memref sig .tc .vmem S1x32x1 .f32) (harg6 : arg6.IsWhole) (hc : cond0 i)
    (x0 : Vec F S1x80x32768 .f32) (x1 : Vec F S1x32x32768 .i32) :
    outA3 c i arg2 harg2 arg3 harg3 arg4 harg4 arg5 harg5 arg6 harg6 hc x0 x1 = k0_pay1 (k0_pay9 x0 x1) k0_pay3 := by
  unfold outA3
  rw [View.read_writes_eq_canon _ _ _ (coverA3 c i arg2 harg2 arg3 harg3 arg4 harg4 arg5 harg5 arg6 harg6 hc x0 x1)]
  unfold kernelRunA
  dsimp only
  sl_unfold_words
  rw [View.canon_cons_unit_zero (S := S1x80x32) hz, View.readCov_unit_zero (S := S1x80x32) _ hz]
  simp only [View.readAt_eq_ld, harg2.read_unread, harg3.read_unread,
    View.ld_unit_zero (S := S1x80x32768) hz, View.ld_unit_zero (S := S1x32x32768) hz, View.ld_unit_zero (S := S1x80x32) hz, View.ld_unit_zero (S := S1x32x1) hz]

set_option maxHeartbeats 1600000 in
theorem outA4_eq (c : Dev nD) (i : grid0.Coords) (arg2 : Memref sig .tc .vmem S1x80x32768 .f32) (harg2 : arg2.IsWhole) (arg3 : Memref sig .tc .vmem S1x32x32768 .i32) (harg3 : arg3.IsWhole) (arg4 : Memref sig .tc .vmem S1x80x32 .f32) (harg4 : arg4.IsWhole) (arg5 : Memref sig .tc .vmem S1x80x32 .f32) (harg5 : arg5.IsWhole) (arg6 : Memref sig .tc .vmem S1x32x1 .f32) (harg6 : arg6.IsWhole) (hc : cond0 i)
    (x0 : Vec F S1x80x32768 .f32) (x1 : Vec F S1x32x32768 .i32) :
    outA4 c i arg2 harg2 arg3 harg3 arg4 harg4 arg5 harg5 arg6 harg6 hc x0 x1 = k0_pay6 x1 k0_pay4 := by
  unfold outA4
  rw [View.read_writes_eq_canon _ _ _ (coverA4 c i arg2 harg2 arg3 harg3 arg4 harg4 arg5 harg5 arg6 harg6 hc x0 x1)]
  unfold kernelRunA
  dsimp only
  sl_unfold_words
  rw [View.canon_cons_unit_zero (S := S1x32x1) hz, View.readCov_unit_zero (S := S1x32x1) _ hz]
  simp only [View.readAt_eq_ld, harg2.read_unread, harg3.read_unread,
    View.ld_unit_zero (S := S1x80x32768) hz, View.ld_unit_zero (S := S1x32x32768) hz, View.ld_unit_zero (S := S1x80x32) hz, View.ld_unit_zero (S := S1x32x1) hz]

end Cert.KernelIdeal.Cs

end
-- ==== Proof.Spec.lean ====
/-
  The mathematics both programs compute, over the extended reals, stated index by index over literal shapes.

  Inputs: `pred` : [2, 80, 512, 512] numbers, `mask` : [2, 32, 512, 512] bits, `cls` : [2, 32] class ids (32-bit words).
  For image n, instance k and class row c:
    cnt n k      = ∑ over the 512 × 512 pixels of the mask bit of instance k, read as 0 or 1;
    sum1 n c k   = ∑ over the pixels of pred[n, c, pixel] · bit;
    sum2 n c k   = ∑ over the pixels of pred[n, c, pixel]² · bit.
  The kernel leaves the tables `sum1`, `sum2` over ALL class rows ([2, 80, 32]) and the counts ([2, 32, 1]) and picks,
  afterwards, each instance's own class row; the reference gathers the class row first and sums only that row. Both
  then apply the same loss tail to (cnt, sum1 at the class row, sum2 at the class row, cls).
  A class id is a valid row when it lies in [0, 80): `InRange`.
-/
import Idealize.ShloMosaic.PureOps.Ideal
import Idealize.ShloMosaic.Lib.ValueIdx

noncomputable section

namespace Cert.Spec

open Idealize.ShloMosaic Idealize.ShloMosaic.ValueIdx

abbrev SPred : Shape := ⟨4, ![2, 80, 512, 512]⟩
abbrev SMask : Shape := ⟨4, ![2, 32, 512, 512]⟩
abbrev SCls : Shape := ⟨2, ![2, 32]⟩
abbrev STab : Shape := ⟨3, ![2, 80, 32]⟩
abbrev SCnt : Shape := ⟨3, ![2, 32, 1]⟩

/-- A mask bit as a number: 1 where the bit is set, else 0. -/
def bit (b : BitVec 1) : EReal := if b = 1#1 then 1 else 0

/-- The masked pixel count of instance `k` of image `n`. -/
def cnt (mask : SMask.Idx → BitVec 1) (n : Fin 2) (k : Fin 32) : EReal :=
  ∑ h : Fin 512, ∑ w : Fin 512, bit (mask (ix4 n k h w))

/-- The masked sum of class row `c` over instance `k`'s pixels. -/
def sum1 (pred : SPred.Idx → EReal) (mask : SMask.Idx → BitVec 1) (n : Fin 2) (c : Fin 80) (k : Fin 32) : EReal :=
  ∑ h : Fin 512, ∑ w : Fin 512, pred (ix4 n c h w) * bit (mask (ix4 n k h w))

/-- The masked sum of squares of class row `c` over instance `k`'s pixels. -/
def sum2 (pred : SPred.Idx → EReal) (mask : SMask.Idx → BitVec 1) (n : Fin 2) (c : Fin 80) (k : Fin 32) : EReal :=
  ∑ h : Fin 512, ∑ w : Fin 512, pred (ix4 n c h w) * pred (ix4 n c h w) * bit (mask (ix4 n k h w))

/-- The tables over every class row, as the kernel's region leaves them. -/
def cntTab (mask : SMask.Idx → BitVec 1) : SCnt.Idx → EReal := fun j => cnt mask (j 0) (j 1)
def sum1Tab (pred : SPred.Idx → EReal) (mask : SMask.Idx → BitVec 1) : STab.Idx → EReal := fun j => sum1 pred mask (j 0) (j 1) (j 2)
def sum2Tab (pred : SPred.Idx → EReal) (mask : SMask.Idx → BitVec 1) : STab.Idx → EReal := fun j => sum2 pred mask (j 0) (j 1) (j 2)

theorem cntTab_ix3 (mask : SMask.Idx → BitVec 1) (n : Fin 2) (k : Fin 32) (z : Fin 1) : cntTab mask (ix3 n k z) = cnt mask n k := rfl
theorem sum1Tab_ix3 (pred : SPred.Idx → EReal) (mask : SMask.Idx → BitVec 1) (n : Fin 2) (c : Fin 80) (k : Fin 32) :
    sum1Tab pred mask (ix3 n c k) = sum1 pred mask n c k := rfl
theorem sum2Tab_ix3 (pred : SPred.Idx → EReal) (mask : SMask.Idx → BitVec 1) (n : Fin 2) (c : Fin 80) (k : Fin 32) :
    sum2Tab pred mask (ix3 n c k) = sum2 pred mask n c k := rfl

/-- Every class id is a valid row: below 80 as an unsigned word (a word in [0, 80) signed is). -/
def InRange (cls : SCls.Idx → BitVec 32) : Prop := ∀ j : SCls.Idx, (cls j).toNat < 80

/-- Instance (n, k)'s class row (reduced modulo 80 so that it is total; under `InRange` it is the class id). -/
def clsRow (cls : SCls.Idx → BitVec 32) (n : Fin 2) (k : Fin 32) : Fin 80 := ⟨(cls (ix2 n k)).toNat % 80, Nat.mod_lt _ (by decide)⟩

theorem clsRow_val (cls : SCls.Idx → BitVec 32) (h : InRange cls) (n : Fin 2) (k : Fin 32) :
    (clsRow cls n k).val = (cls (ix2 n k)).toNat := Nat.mod_eq_of_lt (h _)

/-- A [2, 80, 32] table read at each instance's class row: the [2, 32] array both programs feed the loss tail. -/
def atRow (T : STab.Idx → EReal) (cls : SCls.Idx → BitVec 32) : SCls.Idx → EReal :=
  fun j => T (ix3 (j 0) (clsRow cls (j 0) (j 1)) (j 1))

/-- The three [2, 32] arrays. -/
def cntA (mask : SMask.Idx → BitVec 1) : SCls.Idx → EReal := fun j => cnt mask (j 0) (j 1)
def sum1A (pred : SPred.Idx → EReal) (mask : SMask.Idx → BitVec 1) (cls : SCls.Idx → BitVec 32) : SCls.Idx → EReal :=
  atRow (sum1Tab pred mask) cls
def sum2A (pred : SPred.Idx → EReal) (mask : SMask.Idx → BitVec 1) (cls : SCls.Idx → BitVec 32) : SCls.Idx → EReal :=
  atRow (sum2Tab pred mask) cls

/-- The kernel walks an image's 262144 pixels in 8 tiles of 32768: pixel l of tile p is pixel 32768·p + l of the image,
    row (32768·p + l) / 512 and column (32768·p + l) % 512 of the 512 × 512 picture. -/
def pixRow (p : Fin 8) (l : Fin 32768) : Fin 512 := ⟨(32768 * p.val + l.val) / 512, by have := p.isLt; have := l.isLt; omega⟩
def pixCol (p : Fin 8) (l : Fin 32768) : Fin 512 := ⟨(32768 * p.val + l.val) % 512, Nat.mod_lt _ (by decide)⟩

theorem atRow_ix2 (T : STab.Idx → EReal) (cls : SCls.Idx → BitVec 32) (n : Fin 2) (k : Fin 32) :
    atRow T cls (ix2 n k) = T (ix3 n (clsRow cls n k) k) := rfl
theorem cntA_ix2 (mask : SMask.Idx → BitVec 1) (n : Fin 2) (k : Fin 32) : cntA mask (ix2 n k) = cnt mask n k := rfl

end Cert.Spec

end
-- ==== Proof.KPayload.lean ====
/-
  The kernel body's three stored values read at one entry, over the extended reals.
  With x the [1,80,32768] tile of pred, w the [1,32,32768] tile of mask words and a the buffer's running contents:
    the count buffer gets      a[0,k,0] + ∑ over the tile's 32768 pixels l of (w[0,k,l] ≠ 0 read as 0 or 1);
    the sum buffer gets        a[0,c,k] + ∑ l, x[0,c,l] · (w[0,k,l] ≠ 0);
    the sum-of-squares buffer  a[0,c,k] + ∑ l, x[0,c,l] · x[0,c,l] · (w[0,k,l] ≠ 0).
  The change of float format before the matrix product is the identity here, and a product into the zero accumulator
  is the plain sum of products over the contracted axis.
-/
import proofs.«429512_j49709951484028_2_alg».proof.Proof.Gen.KernelIdeal.Skeleton
import proofs.«429512_j49709951484028_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx

/-- A mask word as a number: 0 for the zero word, else 1. -/
def wbit (w : BitVec 32) : EReal := if w = 0#32 then 0 else 1

/-- A mask bit widened to a word reads as the bit. -/
theorem wbit_setWidth (b : BitVec 1) : wbit (b.setWidth 32) = Cert.Spec.bit b := by
  unfold wbit Cert.Spec.bit
  rcases BitVec.eq_zero_or_eq_one b with h | h <;> subst h
  · rw [if_pos (by decide), if_neg (by decide)]
  · rw [if_neg (by decide), if_pos rfl]

/-- The three buffers' first contents: the zero word of the float format is the number 0. -/
theorem pay2_apply (j : S1x80x32.Idx) : k0_pay2 (F := Ideal) j = 0 := by
  show Ideal.ofBits .f32 0x00000000#32 = 0
  exact Ideal.ofBits_zero_f32
theorem pay3_apply (j : S1x80x32.Idx) : k0_pay3 (F := Ideal) j = 0 := by
  show Ideal.ofBits .f32 0x00000000#32 = 0
  exact Ideal.ofBits_zero_f32
theorem pay4_apply (j : S1x32x1.Idx) : k0_pay4 (F := Ideal) j = 0 := by
  show Ideal.ofBits .f32 0x00000000#32 = 0
  exact Ideal.ofBits_zero_f32

/-- The comparison with the zero word, widened and read as a signed integer, is 0 for the zero word and 1 otherwise. -/
private theorem word_bit (w : BitVec 32) :
    ((((IntOp.cmpi .ne w 0#32).setWidth 32).toInt : ℝ) : EReal) = wbit w := by
  unfold wbit
  by_cases h : w = 0#32
  · subst h
    rw [if_pos rfl]
    have e : ((IntOp.cmpi .ne (0#32) 0#32).setWidth 32).toInt = 0 := by decide
    rw [e]; simp
  · rw [if_neg h]
    have hb : (w != 0#32) = true := by simpa [bne_iff_ne] using h
    have e : ((IntOp.cmpi .ne w 0#32).setWidth 32).toInt = 1 := by
      show ((BitVec.ofBool (w != 0#32)).setWidth 32).toInt = 1
      rw [hb]; decide
    rw [e]; simp

/-- The mask tile as numbers: at (k, l) of the [32, 32768] view it is the bit of word (0, k, l). -/
private theorem maskf_apply (v5 : Vec Ideal S1x32x32768 .i32) (k : Fin 32) (l : Fin 32768) :
    (sitofp .f32 (extui 32 (k0_pay5 (F := Ideal) v5) natLt_1_32) : FVec Ideal S32x32768 .f32) (ix2 k l)
      = wbit (v5 (ix3 0 k l)) := by
  rw [sitofp_apply, extui_apply]
  unfold k0_pay5
  show (((((IntOp.cmpi .ne (shapeCast S32x32768 v5 shapeCasts_S1x32x32768_S32x32768 (ix2 k l)) 0#32).setWidth 32).toInt : ℝ)) : EReal) = _
  rw [shapeCast_1ab_ab_apply]
  exact word_bit _

/-- The source index of the lane sum over row k at lane l is (k, l). -/
private theorem lift_row (k : Fin 32) (l : Fin 32768) :
    (reduces_S32x32768_S32 : S32x32768.Reduces [1] S32).lift (ix1 k) l = ix2 k l := by
  funext a
  refine Fin.ext ?_
  match a with
  | ⟨0, _⟩ => rfl
  | ⟨1, _⟩ => rfl

/-- The lane sum of a [32, 32768] tile at row k. -/
private theorem rowsum_apply (src : FVec Ideal S32x32768 .f32) (hφ : FKind.Formats .f32)
    (hacc : (0x00000000#32 : BitVec 32) = 0x00000000#32) (k : Fin 32) :
    multiReduction (F := Ideal) .add [1] S32 src 0x00000000#32 reduces_S32x32768_S32 hφ hacc (ix1 k)
      = ∑ l : Fin 32768, src (ix2 k l) :=
  (Ideal.multiReduction_add_single src 0x00000000#32 reduces_S32x32768_S32 hφ hacc (ix1 k)).trans
    (Finset.sum_congr rfl fun l _ => congrArg src (lift_row k l))

/-- A [32] row of sums stored as the [1, 32, 1] column block: entry (0, k, 0) is the sum of row k. -/
private theorem col_apply (v : FVec Ideal S32 .f32) (k : Fin 32) :
    shapeCast S1x32x1 (shapeCast S32x1 v shapeCasts_S32_S32x1) shapeCasts_S32x1_S1x32x1 (ix3 0 k 0) = v (ix1 k) := by
  rw [shapeCast_ab_1ab_apply]
  refine shapeCast_apply v shapeCasts_S32_S32x1 _ _ ?_
  rw [Shape.rowMajor_val_one, Shape.rowMajor_val_two]
  show k.val = k.val * 1 + 0
  omega

/-- The count buffer's new contents at instance k. -/
theorem pay6_apply (v5 : Vec Ideal S1x32x32768 .i32) (v10 : Vec Ideal S1x32x1 .f32) (k : Fin 32) :
    k0_pay6 (F := Ideal) v5 v10 (ix3 0 k 0) = v10 (ix3 0 k 0) + ∑ l : Fin 32768, wbit (v5 (ix3 0 k l)) := by
  unfold k0_pay6
  rw [addf_apply, shapeCast_self, col_apply]
  refine congrArg (v10 (ix3 0 k 0) + ·) ?_
  refine (rowsum_apply _ _ _ k).trans ?_
  exact Finset.sum_congr rfl fun l _ => maskf_apply v5 k l

/-! The product's operand indices, coordinate by coordinate: the left operand reads row `i 0` and the contracted
pixel, the right operand reads row `i 1` and the contracted pixel. -/

private theorem lhs_prod_0 (i : S80x32.Idx) (q : dot_S80x32768_S32x32768_S80x32_1_1_0_0_n_n.contr.Idx) :
    (dot_S80x32768_S32x32768_S80x32_1_1_0_0_n_n.lhsIdx i q 0).val = (i 0).val := by
  unfold DotDims.lhsIdx
  rw [dif_neg (show ¬(0 : Fin S80x32768.rank) ∈ dot_S80x32768_S32x32768_S80x32_1_1_0_0_n_n.lhsBatch by decide),
    dif_pos (show (0 : Fin S80x32768.rank) ∈ dot_S80x32768_S32x32768_S80x32_1_1_0_0_n_n.lhsNonContracting by decide)]
  rfl
private theorem lhs_prod_1 (i : S80x32.Idx) (q : dot_S80x32768_S32x32768_S80x32_1_1_0_0_n_n.contr.Idx) :
    (dot_S80x32768_S32x32768_S80x32_1_1_0_0_n_n.lhsIdx i q 1).val = (q ⟨0, by decide⟩).val :=
  dot_S80x32768_S32x32768_S80x32_1_1_0_0_n_n.lhsIdx_val_of_single rfl i q
private theorem rhs_prod_0 (i : S80x32.Idx) (q : dot_S80x32768_S32x32768_S80x32_1_1_0_0_n_n.contr.Idx) :
    (dot_S80x32768_S32x32768_S80x32_1_1_0_0_n_n.rhsIdx i q 0).val = (i 1).val := by
  unfold DotDims.rhsIdx
  rw [dif_neg (show ¬(0 : Fin S32x32768.rank) ∈ dot_S80x32768_S32x32768_S80x32_1_1_0_0_n_n.rhsBatch by decide),
    dif_pos (show (0 : Fin S32x32768.rank) ∈ dot_S80x32768_S32x32768_S80x32_1_1_0_0_n_n.rhsNonContracting by decide)]
  rfl
private theorem rhs_prod_1 (i : S80x32.Idx) (q : dot_S80x32768_S32x32768_S80x32_1_1_0_0_n_n.contr.Idx) :
    (dot_S80x32768_S32x32768_S80x32_1_1_0_0_n_n.rhsIdx i q 1).val = (q ⟨0, by decide⟩).val :=
  dot_S80x32768_S32x32768_S80x32_1_1_0_0_n_n.rhsIdx_val_of_single rfl i q

/-- The matrix product of an [80, 32768] tile with a [32, 32768] tile, both contracted along the pixels, into the zero
    accumulator: at (c, k) the sum over the pixels of the products. -/
private theorem prod_apply {φ₁ φ₂ : FTy} (A : FVec Ideal S80x32768 φ₁) (B : FVec Ideal S32x32768 φ₂) (c : Fin 80) (k : Fin 32) :
    matmul dot_S80x32768_S32x32768_S80x32_1_1_0_0_n_n none A B (constant (F := Ideal) S80x32 .f32 0x00000000#32) (ix2 c k)
      = ∑ l : Fin 32768, A (ix2 c l) * B (ix2 k l) := by
  simp only [matmul]
  rw [Ideal.matmul_constant_zero_apply,
    ← Equiv.sum_comp (contrEquiv1 dot_S80x32768_S32x32768_S80x32_1_1_0_0_n_n 32768 rfl rfl).symm]
  refine Finset.sum_congr rfl fun l _ => ?_
  have hk := contrEquiv1_symm_val dot_S80x32768_S32x32768_S80x32_1_1_0_0_n_n 32768 rfl rfl l
  have el : dot_S80x32768_S32x32768_S80x32_1_1_0_0_n_n.lhsIdx (ix2 c k)
      ((contrEquiv1 dot_S80x32768_S32x32768_S80x32_1_1_0_0_n_n 32768 rfl rfl).symm l) = ix2 c l :=
    funext fun a => Fin.ext (by
      match a with
      | ⟨0, _⟩ => exact lhs_prod_0 _ _
      | ⟨1, _⟩ => exact (lhs_prod_1 _ _).trans hk)
  have er : dot_S80x32768_S32x32768_S80x32_1_1_0_0_n_n.rhsIdx (ix2 c k)
      ((contrEquiv1 dot_S80x32768_S32x32768_S80x32_1_1_0_0_n_n 32768 rfl rfl).symm l) = ix2 k l :=
    funext fun a => Fin.ext (by
      match a with
      | ⟨0, _⟩ => exact rhs_prod_0 _ _
      | ⟨1, _⟩ => exact (rhs_prod_1 _ _).trans hk)
  rw [el, er]

/-- The pred tile in the product's format: at (c, l) of the [80, 32768] view it is entry (0, c, l). -/
private theorem pay7_apply (v3 : Vec Ideal S1x80x32768 .f32) (c : Fin 80) (l : Fin 32768) :
    k0_pay7 (F := Ideal) v3 (ix2 c l) = v3 (ix3 0 c l) := by
  unfold k0_pay7
  rw [truncf_apply, shapeCast_1ab_ab_apply]

/-- The mask tile in the product's format: at (k, l) it is the bit of word (0, k, l). -/
private theorem pay8_apply (v5 : Vec Ideal S1x32x32768 .i32) (k : Fin 32) (l : Fin 32768) :
    k0_pay8 (F := Ideal) v5 (ix2 k l) = wbit (v5 (ix3 0 k l)) := by
  unfold k0_pay8
  rw [truncf_apply]
  exact maskf_apply v5 k l

/-- The sum buffer's new contents at (class row c, instance k). -/
theorem pay10_apply (v3 : Vec Ideal S1x80x32768 .f32) (v5 : Vec Ideal S1x32x32768 .i32) (v24 : Vec Ideal S1x80x32 .f32)
    (c : Fin 80) (k : Fin 32) :
    k0_pay10 (F := Ideal) v3 v5 v24 (ix3 0 c k) = v24 (ix3 0 c k) + ∑ l : Fin 32768, v3 (ix3 0 c l) * wbit (v5 (ix3 0 k l)) := by
  unfold k0_pay10
  rw [addf_apply, shapeCast_self, shapeCast_ab_1ab_apply, prod_apply]
  refine congrArg (v24 (ix3 0 c k) + ·) (Finset.sum_congr rfl fun l _ => ?_)
  rw [pay7_apply, pay8_apply]

/-- The sum-of-squares buffer's new contents at (class row c, instance k). -/
theorem pay1_apply (v3 : Vec Ideal S1x80x32768 .f32) (v5 : Vec Ideal S1x32x32768 .i32) (v29 : Vec Ideal S1x80x32 .f32)
    (c : Fin 80) (k : Fin 32) :
    k0_pay1 (F := Ideal) (k0_pay9 v3 v5) v29 (ix3 0 c k)
      = v29 (ix3 0 c k) + ∑ l : Fin 32768, v3 (ix3 0 c l) * v3 (ix3 0 c l) * wbit (v5 (ix3 0 k l)) := by
  unfold k0_pay1 k0_pay9
  rw [addf_apply, shapeCast_self, shapeCast_ab_1ab_apply, prod_apply]
  refine congrArg (v29 (ix3 0 c k) + ·) (Finset.sum_congr rfl fun l _ => ?_)
  rw [mulf_apply, pay7_apply, pay8_apply]

end Cert.KernelIdeal.Pay

end
-- ==== Proof.KBlocks.lean ====
/-
  The two input windows' blocks read at one entry. Before the region the host lays pred out as [2, 80, 262144] and the
  mask as [2, 32, 262144] words (each bit widened); window 0's block at grid point t = 8·n + p is the [1, 80, 32768]
  tile p of image n, window 1's the [1, 32, 32768] tile of the mask words. Entry (0, c, l) of a tile is pixel
  32768·p + l of the image, that is pixel (row, column) = ((32768·p + l) / 512, (32768·p + l) % 512) of the picture.
-/
import proofs.«429512_j49709951484028_2_alg».proof.Proof.KernelIdealKit
import proofs.«429512_j49709951484028_2_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.Blk

open Cert.KernelIdeal Cert.KernelIdeal.Gen Cert.KernelIdeal.Fr Cert.Spec Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The two staged arrays as the host leaves them -/

/-- The host's first operation: pred with its two picture axes flattened into one pixel axis. -/
theorem V_main_v0 (c : Dev nD) :
    (V m c main_v0 : S2x80x262144.Idx → Elt F .f32)
      = shapeCast S2x80x262144 (m ((c : Thread nD τ).loc main_arg0)) shapeCasts_S2x80x512x512_S2x80x262144 := by
  show StableHlo.after hostOps0 (fun b => m (c, b)) (Proc.devRef .tc main_v0) = _
  after_results
  rfl

/-- The host's second and third operations: the mask flattened the same way, then each bit widened to a word. -/
theorem V_main_v2 (c : Dev nD) :
    (V m c main_v2 : S2x32x262144.Idx → Elt F .i32)
      = extui 32 (shapeCast S2x32x262144 (m ((c : Thread nD τ).loc main_arg1)) shapeCasts_S2x32x512x512_S2x32x262144) natLt_1_32 := by
  show StableHlo.after hostOps0 (fun b => m (c, b)) (Proc.devRef .tc main_v2) = _
  after_results
  rfl

/-- Flattened pred at (n, c, q), with q = 512·h + w, is pred at (n, c, h, w): both sit at the same row-major position. -/
theorem pred_at (c : Dev nD) (n : Fin 2) (cc : Fin 80) (q : Fin 262144) (h w : Fin 512) (hq : q.val = 512 * h.val + w.val) :
    (V m c main_v0 : S2x80x262144.Idx → Elt F .f32) (ix3 n cc q) = m ((c : Thread nD τ).loc main_arg0) (ix4 n cc h w) := by
  rw [V_main_v0]
  refine shapeCast_apply (s := S2x80x512x512) _ _ _ (ix4 n cc h w) ?_
  show (S2x80x512x512.rowMajor (ix4 n cc h w)).val = (S2x80x262144.rowMajor (ix3 n cc q)).val
  rw [Shape.rowMajor_val_four, Shape.rowMajor_val_three]
  show ((n.val * 80 + cc.val) * 512 + h.val) * 512 + w.val = (n.val * 80 + cc.val) * 262144 + q.val
  omega

/-- The widened flattened mask at (n, k, q), with q = 512·h + w, is the mask bit at (n, k, h, w) widened. -/
theorem mask_at (c : Dev nD) (n : Fin 2) (k : Fin 32) (q : Fin 262144) (h w : Fin 512) (hq : q.val = 512 * h.val + w.val) :
    (V m c main_v2 : S2x32x262144.Idx → Elt F .i32) (ix3 n k q)
      = (m ((c : Thread nD τ).loc main_arg1) (ix4 n k h w)).setWidth 32 := by
  rw [V_main_v2, extui_apply]
  refine congrArg (fun b : BitVec 1 => b.setWidth 32) (shapeCast_apply (s := S2x32x512x512) _ _ _ (ix4 n k h w) ?_)
  show (S2x32x512x512.rowMajor (ix4 n k h w)).val = (S2x32x262144.rowMajor (ix3 n k q)).val
  rw [Shape.rowMajor_val_four, Shape.rowMajor_val_three]
  show ((n.val * 32 + k.val) * 512 + h.val) * 512 + w.val = (n.val * 32 + k.val) * 262144 + q.val
  omega

/-! ## The index maps over the grid -/

/-- Window 0's block index at point t: (t / 8, 0, t % 8). -/
theorem index0 : ∀ t : Fin cfg0.N, win0_0.index t 0 = t.val / 8 ∧ win0_0.index t 1 = 0 ∧ win0_0.index t 2 = t.val % 8 :=
  (by decide +kernel : ∀ t : Fin grid0.N, win0_0.index t 0 = t.val / 8 ∧ win0_0.index t 1 = 0 ∧ win0_0.index t 2 = t.val % 8)

/-- Window 1's block index at point t: (t / 8, 0, t % 8). -/
theorem index1 : ∀ t : Fin cfg0.N, win0_1.index t 0 = t.val / 8 ∧ win0_1.index t 1 = 0 ∧ win0_1.index t 2 = t.val % 8 :=
  (by decide +kernel : ∀ t : Fin grid0.N, win0_1.index t 0 = t.val / 8 ∧ win0_1.index t 1 = 0 ∧ win0_1.index t 2 = t.val % 8)

/-- Pixel 32768·p + l of an image splits as 512·(its row) + (its column). -/
theorem pix_split (p : Fin 8) (l : Fin 32768) : 32768 * p.val + l.val = 512 * (pixRow p l).val + (pixCol p l).val := by
  show 32768 * p.val + l.val = 512 * ((32768 * p.val + l.val) / 512) + (32768 * p.val + l.val) % 512
  omega

/-! ## The blocks -/

/-- Window 0's block at point t = 8·n + p, entry (0, c, l): pred at image n, class row c, pixel 32768·p + l. -/
theorem iblk0_apply (c : Dev nD) (t : Fin cfg0.N) (n : Fin 2) (p : Fin 8) (ht : t.val = 8 * n.val + p.val) (cc : Fin 80) (l : Fin 32768) :
    (iblk m c 0 t : Vec F S1x80x32768 .f32) (ix3 0 cc l) = m ((c : Thread nD τ).loc main_arg0) (ix4 n cc (pixRow p l) (pixCol p l)) := by
  have hi := index0 t
  have hp := p.isLt
  have hl := l.isLt
  have hn := n.isLt
  refine Eq.trans ?_ (pred_at m c n cc ⟨32768 * p.val + l.val, by omega⟩ (pixRow p l) (pixCol p l) (pix_split p l))
  unfold iblk
  rw [View.read_apply]
  show (V m c main_v0 : S2x80x262144.Idx → Elt F .f32) _ = (V m c main_v0 : S2x80x262144.Idx → Elt F .f32) _
  refine congrArg (V m c main_v0 : S2x80x262144.Idx → Elt F .f32) (funext fun a => Fin.ext ?_)
  match a with
  | ⟨0, _⟩ => show win0_0.index t 0 * 1 + 1 * 0 = n.val; rw [hi.1]; omega
  | ⟨1, _⟩ => show win0_0.index t 1 * 80 + 1 * cc.val = cc.val; rw [hi.2.1]; omega
  | ⟨2, _⟩ => show win0_0.index t 2 * 32768 + 1 * l.val = 32768 * p.val + l.val; rw [hi.2.2]; omega

/-- Window 1's block at point t = 8·n + p, entry (0, k, l): the mask bit of instance k at that pixel, widened to a word. -/
theorem iblk1_apply (c : Dev nD) (t : Fin cfg0.N) (n : Fin 2) (p : Fin 8) (ht : t.val = 8 * n.val + p.val) (k : Fin 32) (l : Fin 32768) :
    (iblk m c 1 t : Vec F S1x32x32768 .i32) (ix3 0 k l) = (m ((c : Thread nD τ).loc main_arg1) (ix4 n k (pixRow p l) (pixCol p l))).setWidth 32 := by
  have hi := index1 t
  have hp := p.isLt
  have hl := l.isLt
  have hn := n.isLt
  refine Eq.trans ?_ (mask_at m c n k ⟨32768 * p.val + l.val, by omega⟩ (pixRow p l) (pixCol p l) (pix_split p l))
  unfold iblk
  rw [View.read_apply]
  show (V m c main_v2 : S2x32x262144.Idx → Elt F .i32) _ = (V m c main_v2 : S2x32x262144.Idx → Elt F .i32) _
  refine congrArg (V m c main_v2 : S2x32x262144.Idx → Elt F .i32) (funext fun a => Fin.ext ?_)
  match a with
  | ⟨0, _⟩ => show win0_1.index t 0 * 1 + 1 * 0 = n.val; rw [hi.1]; omega
  | ⟨1, _⟩ => show win0_1.index t 1 * 32 + 1 * k.val = k.val; rw [hi.2.1]; omega
  | ⟨2, _⟩ => show win0_1.index t 2 * 32768 + 1 * l.val = 32768 * p.val + l.val; rw [hi.2.2]; omega

end Cert.KernelIdeal.Blk

end
-- ==== Proof.SumTiles.lean ====
/-
  Eight tiles of 32768 pixels are the 512 × 512 pixels: a sum over the tiles of the sums over a tile's pixels, each pixel
  taken at its (row, column), is the double sum over rows and columns. In any commutative monoid.
-/
import proofs.«429512_j49709951484028_2_alg».proof.Proof.Spec
import Mathlib.Algebra.BigOperators.Fin

namespace Cert.Spec

/-- (tile, pixel of the tile) ↦ (row, column) is a bijection: both number the 262144 pixels, by q = 32768·p + l
    and by q = 512·h + w. -/
private def tileEquiv : Fin 8 × Fin 32768 ≃ Fin 512 × Fin 512 where
  toFun x := (pixRow x.1 x.2, pixCol x.1 x.2)
  invFun y :=
    (⟨(512 * y.1.val + y.2.val) / 32768, by have := y.1.isLt; have := y.2.isLt; omega⟩,
     ⟨(512 * y.1.val + y.2.val) % 32768, Nat.mod_lt _ (by decide)⟩)
  left_inv := by
    rintro ⟨⟨p, hp⟩, ⟨l, hl⟩⟩
    simp only [pixRow, pixCol, Prod.mk.injEq, Fin.mk.injEq]
    constructor <;> omega
  right_inv := by
    rintro ⟨⟨h, hh⟩, ⟨w, hw⟩⟩
    simp only [pixRow, pixCol, Prod.mk.injEq, Fin.mk.injEq]
    constructor <;> omega

theorem sum_tiles {M : Type*} [AddCommMonoid M] (g : Fin 512 → Fin 512 → M) :
    ∑ p : Fin 8, ∑ l : Fin 32768, g (pixRow p l) (pixCol p l) = ∑ h : Fin 512, ∑ w : Fin 512, g h w := by
  -- both double sums are sums over the pairs; the bijection carries one onto the other term by term
  rw [← Fintype.sum_prod_type' (fun p l => g (pixRow p l) (pixCol p l)), ← Fintype.sum_prod_type' g]
  exact Fintype.sum_equiv tileEquiv _ _ (fun _ => rfl)

end Cert.Spec
-- ==== Proof.KAccum.lean ====
/-
  The region's three result arrays, as the specification's tables. After the body at grid point t = 8·n + p the three
  result buffers hold, entry by entry, the sum over the tiles 0 … p of image n of the tile's contribution (by induction
  on the point: a first tile adds its contribution to zero, a later tile to what the tile before left); the buffers are
  written back after the last tile of each image (points 7 and 15) to block n of the arrays; eight tiles of 32768 pixels
  are the 512 × 512 pixels. So the arrays end as sum1Tab, sum2Tab and cntTab of the two inputs.
-/
import proofs.«429512_j49709951484028_2_alg».proof.Proof.KernelIdealCase
import proofs.«429512_j49709951484028_2_alg».proof.Proof.KPayload
import proofs.«429512_j49709951484028_2_alg».proof.Proof.KBlocks
import proofs.«429512_j49709951484028_2_alg».proof.Proof.SumTiles
import Idealize.ShloMosaic.Lib.Pipeline.Value

set_option maxRecDepth 16384

noncomputable section

namespace Cert.KernelIdeal.Acc

open Cert.KernelIdeal Cert.KernelIdeal.Gen Cert.KernelIdeal.Fr Cert.KernelIdeal.Cs Cert.KernelIdeal.Pay Cert.KernelIdeal.Blk Cert.Spec Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## A run of additions -/

/-- A quantity that starts a run at the run's first term and at each later position of the run adds that position's
    term to what the position before left is, at position j of the run, the sum of the terms 0 … j. -/
private theorem run_sum {β : Type*} [AddCommMonoid β] {N : ℕ} (f : (t : ℕ) → t < N → β) (b J : ℕ) (T : ℕ → β)
    (h0 : ∀ h : b + 0 < N, f (b + 0) h = T 0)
    (hs : ∀ (j : ℕ) (h : b + (j + 1) < N), j + 1 < J → f (b + (j + 1)) h = f (b + j) (Nat.lt_of_succ_lt h) + T (j + 1)) :
    ∀ (j : ℕ), j < J → ∀ h : b + j < N, f (b + j) h = ∑ s ∈ Finset.range (j + 1), T s
  | 0, _, h => by rw [Finset.sum_range_one]; exact h0 h
  | j + 1, hj, h => by
    rw [hs j h hj, run_sum f b J T h0 hs j (Nat.lt_of_succ_lt hj) (Nat.lt_of_succ_lt h), Finset.sum_range_succ _ (j + 1)]

/-- A family over the eight tiles, continued by zero past them. -/
private def tileN (T : Fin 8 → EReal) (s : ℕ) : EReal := if h : s < 8 then T ⟨s, h⟩ else 0

private theorem tileN_lt (T : Fin 8 → EReal) (s : ℕ) (h : s < 8) : tileN T s = T ⟨s, h⟩ := dif_pos h

private theorem sum_tileN (T : Fin 8 → EReal) : ∑ s ∈ Finset.range (7 + 1), tileN T s = ∑ p : Fin 8, T p := by
  rw [Finset.sum_range]
  exact Finset.sum_congr rfl fun p _ => tileN_lt T p.val p.isLt

variable (m : (ℓ : Loc nD τ sig) → Buf (Elt Ideal) ℓ)

/-! ## The three buffers after a point, from the point before -/

/-- After a first tile: each buffer holds the tile's contribution added to the zero block. -/
private theorem outs_first (c : Dev nD) (a : ℕ) (ha : a < cfg0.N) (h0 : a % 8 = 0) :
    outsAt m c a ha
      = (k0_pay10 (F := Ideal) (iblk m c 0 ⟨a, ha⟩ : Vec Ideal S1x80x32768 .f32) (iblk m c 1 ⟨a, ha⟩ : Vec Ideal S1x32x32768 .i32) (k0_pay2 (F := Ideal)),
         k0_pay1 (F := Ideal) (k0_pay9 (iblk m c 0 ⟨a, ha⟩ : Vec Ideal S1x80x32768 .f32) (iblk m c 1 ⟨a, ha⟩ : Vec Ideal S1x32x32768 .i32)) (k0_pay3 (F := Ideal)),
         k0_pay6 (F := Ideal) (iblk m c 1 ⟨a, ha⟩ : Vec Ideal S1x32x32768 .i32) (k0_pay4 (F := Ideal))) := by
  have e := outsAt_A m c ⟨a, ha⟩ h0
  rw [outA2_eq (F := Ideal) c (grid0.coords ⟨a, ha⟩) (ms0 ⟨a, ha⟩) (hs0 ⟨a, ha⟩) (ms1 ⟨a, ha⟩) (hs1 ⟨a, ha⟩) (ms2 ⟨a, ha⟩) (hs2 ⟨a, ha⟩) (ms3 ⟨a, ha⟩) (hs3 ⟨a, ha⟩) (ms4 ⟨a, ha⟩) (hs4 ⟨a, ha⟩) ((hcond0 ⟨a, ha⟩).mpr h0) (iblk m c 0 ⟨a, ha⟩) (iblk m c 1 ⟨a, ha⟩),
    outA3_eq (F := Ideal) c (grid0.coords ⟨a, ha⟩) (ms0 ⟨a, ha⟩) (hs0 ⟨a, ha⟩) (ms1 ⟨a, ha⟩) (hs1 ⟨a, ha⟩) (ms2 ⟨a, ha⟩) (hs2 ⟨a, ha⟩) (ms3 ⟨a, ha⟩) (hs3 ⟨a, ha⟩) (ms4 ⟨a, ha⟩) (hs4 ⟨a, ha⟩) ((hcond0 ⟨a, ha⟩).mpr h0) (iblk m c 0 ⟨a, ha⟩) (iblk m c 1 ⟨a, ha⟩),
    outA4_eq (F := Ideal) c (grid0.coords ⟨a, ha⟩) (ms0 ⟨a, ha⟩) (hs0 ⟨a, ha⟩) (ms1 ⟨a, ha⟩) (hs1 ⟨a, ha⟩) (ms2 ⟨a, ha⟩) (hs2 ⟨a, ha⟩) (ms3 ⟨a, ha⟩) (hs3 ⟨a, ha⟩) (ms4 ⟨a, ha⟩) (hs4 ⟨a, ha⟩) ((hcond0 ⟨a, ha⟩).mpr h0) (iblk m c 0 ⟨a, ha⟩) (iblk m c 1 ⟨a, ha⟩)] at e
  exact e

/-- After a later tile: each buffer holds the tile's contribution added to what the point before left in it. -/
private theorem outs_later (c : Dev nD) (a : ℕ) (ha : a + 1 < cfg0.N) (h0 : ¬(a + 1) % 8 = 0) :
    outsAt m c (a + 1) ha
      = (k0_pay10 (F := Ideal) (iblk m c 0 ⟨a + 1, ha⟩ : Vec Ideal S1x80x32768 .f32) (iblk m c 1 ⟨a + 1, ha⟩ : Vec Ideal S1x32x32768 .i32) (outsAt m c a (Nat.lt_of_succ_lt ha)).1,
         k0_pay1 (F := Ideal) (k0_pay9 (iblk m c 0 ⟨a + 1, ha⟩ : Vec Ideal S1x80x32768 .f32) (iblk m c 1 ⟨a + 1, ha⟩ : Vec Ideal S1x32x32768 .i32)) (outsAt m c a (Nat.lt_of_succ_lt ha)).2.1,
         k0_pay6 (F := Ideal) (iblk m c 1 ⟨a + 1, ha⟩ : Vec Ideal S1x32x32768 .i32) (outsAt m c a (Nat.lt_of_succ_lt ha)).2.2) := by
  have e : outsAt m c (a + 1) ha = _ := outsAt_B m c ⟨a + 1, ha⟩ h0
  dsimp only [Nat.add_one_sub_one] at e
  rw [outB2_eq (F := Ideal) c (grid0.coords ⟨a + 1, ha⟩) (ms0 ⟨a + 1, ha⟩) (hs0 ⟨a + 1, ha⟩) (ms1 ⟨a + 1, ha⟩) (hs1 ⟨a + 1, ha⟩) (ms2 ⟨a + 1, ha⟩) (hs2 ⟨a + 1, ha⟩) (ms3 ⟨a + 1, ha⟩) (hs3 ⟨a + 1, ha⟩) (ms4 ⟨a + 1, ha⟩) (hs4 ⟨a + 1, ha⟩) (fun h => h0 ((hcond0 ⟨a + 1, ha⟩).mp h)) (iblk m c 0 ⟨a + 1, ha⟩) (iblk m c 1 ⟨a + 1, ha⟩) (outsAt m c a (Nat.lt_of_succ_lt ha)).1 (outsAt m c a (Nat.lt_of_succ_lt ha)).2.1 (outsAt m c a (Nat.lt_of_succ_lt ha)).2.2,
    outB3_eq (F := Ideal) c (grid0.coords ⟨a + 1, ha⟩) (ms0 ⟨a + 1, ha⟩) (hs0 ⟨a + 1, ha⟩) (ms1 ⟨a + 1, ha⟩) (hs1 ⟨a + 1, ha⟩) (ms2 ⟨a + 1, ha⟩) (hs2 ⟨a + 1, ha⟩) (ms3 ⟨a + 1, ha⟩) (hs3 ⟨a + 1, ha⟩) (ms4 ⟨a + 1, ha⟩) (hs4 ⟨a + 1, ha⟩) (fun h => h0 ((hcond0 ⟨a + 1, ha⟩).mp h)) (iblk m c 0 ⟨a + 1, ha⟩) (iblk m c 1 ⟨a + 1, ha⟩) (outsAt m c a (Nat.lt_of_succ_lt ha)).1 (outsAt m c a (Nat.lt_of_succ_lt ha)).2.1 (outsAt m c a (Nat.lt_of_succ_lt ha)).2.2,
    outB4_eq (F := Ideal) c (grid0.coords ⟨a + 1, ha⟩) (ms0 ⟨a + 1, ha⟩) (hs0 ⟨a + 1, ha⟩) (ms1 ⟨a + 1, ha⟩) (hs1 ⟨a + 1, ha⟩) (ms2 ⟨a + 1, ha⟩) (hs2 ⟨a + 1, ha⟩) (ms3 ⟨a + 1, ha⟩) (hs3 ⟨a + 1, ha⟩) (ms4 ⟨a + 1, ha⟩) (hs4 ⟨a + 1, ha⟩) (fun h => h0 ((hcond0 ⟨a + 1, ha⟩).mp h)) (iblk m c 0 ⟨a + 1, ha⟩) (iblk m c 1 ⟨a + 1, ha⟩) (outsAt m c a (Nat.lt_of_succ_lt ha)).1 (outsAt m c a (Nat.lt_of_succ_lt ha)).2.1 (outsAt m c a (Nat.lt_of_succ_lt ha)).2.2] at e
  exact e

/-! ## The sum table -/

/-- Tile p's contribution to entry (n, cc, k) of the sum table: the sum over the tile's pixels of pred · mask bit. -/
private def tile1 (pred : SPred.Idx → EReal) (mask : SMask.Idx → BitVec 1) (n : Fin 2) (cc : Fin 80) (k : Fin 32) (p : Fin 8) : EReal :=
  ∑ l : Fin 32768, pred (ix4 n cc (pixRow p l) (pixCol p l)) * bit (mask (ix4 n k (pixRow p l) (pixCol p l)))

/-- What the payload adds at point t = 8·n + p, entry (cc, k), is tile p's contribution. -/
private theorem contrib1 (c : Dev nD) (t : Fin cfg0.N) (n : Fin 2) (p : Fin 8) (ht : t.val = 8 * n.val + p.val) (cc : Fin 80) (k : Fin 32)
    (x0 : Vec Ideal S1x80x32768 .f32) (x1 : Vec Ideal S1x32x32768 .i32) (e0 : x0 = iblk m c 0 t) (e1 : x1 = iblk m c 1 t) :
    ∑ l : Fin 32768, x0 (ix3 0 cc l) * wbit (x1 (ix3 0 k l))
      = tile1 (m ((c : Thread nD τ).loc main_arg0)) (m ((c : Thread nD τ).loc main_arg1)) n cc k p := by
  subst e0 e1
  exact Finset.sum_congr rfl fun l _ => by rw [iblk0_apply m c t n p ht cc l, iblk1_apply m c t n p ht k l, wbit_setWidth]

/-- After tile q of image n, entry (cc, k) of result buffer 2 is the sum of the contributions of tiles 0 … q. -/
private theorem inv1 (c : Dev nD) (n : Fin 2) (cc : Fin 80) (k : Fin 32) :
    ∀ (q : ℕ), q < 8 → ∀ h : 8 * n.val + q < cfg0.N,
      (outsAt m c (8 * n.val + q) h).1 (ix3 0 cc k)
        = ∑ s ∈ Finset.range (q + 1), tileN (tile1 (m ((c : Thread nD τ).loc main_arg0)) (m ((c : Thread nD τ).loc main_arg1)) n cc k) s := by
  refine run_sum (fun t h => (outsAt m c t h).1 (ix3 0 cc k)) (8 * n.val) 8 _ (fun h => ?_) (fun j h hj => ?_)
  · show (outsAt m c (8 * n.val + 0) h).1 (ix3 0 cc k) = _
    rw [outs_first m c (8 * n.val + 0) h (by omega)]
    show k0_pay10 (F := Ideal) _ _ _ (ix3 0 cc k) = _
    rw [pay10_apply, pay2_apply, zero_add, tileN_lt _ 0 (by omega), contrib1 m c ⟨8 * n.val + 0, h⟩ n ⟨0, by omega⟩ rfl cc k _ _ rfl rfl]
  · show (outsAt m c (8 * n.val + j + 1) h).1 (ix3 0 cc k) = (outsAt m c (8 * n.val + j) _).1 (ix3 0 cc k) + _
    rw [outs_later m c (8 * n.val + j) h (by omega)]
    show k0_pay10 (F := Ideal) _ _ _ (ix3 0 cc k) = _
    rw [pay10_apply, tileN_lt _ (j + 1) hj, contrib1 m c ⟨8 * n.val + j + 1, h⟩ n ⟨j + 1, hj⟩ rfl cc k _ _ rfl rfl]

/-- The eight tiles' contributions add up to the entry of the sum table. -/
private theorem tiles1 (pred : SPred.Idx → EReal) (mask : SMask.Idx → BitVec 1) (n : Fin 2) (cc : Fin 80) (k : Fin 32) :
    ∑ p : Fin 8, tile1 pred mask n cc k p = sum1 pred mask n cc k :=
  sum_tiles (fun h w => pred (ix4 n cc h w) * bit (mask (ix4 n k h w)))

/-! ## The written-back block, and the cover -/

/-- The same position, the same contents. -/
private theorem outsAt_congr (c : Dev nD) {a b : ℕ} (e : a = b) (ha : a < cfg0.N) (hb : b < cfg0.N) : outsAt m c a ha = outsAt m c b hb := by
  subst e; rfl

/-- The block index of the two [2, 80, 32] result windows and of the [2, 32, 1] one at point t: (t / 8, 0, 0). -/
private theorem index2 : ∀ t : Fin cfg0.N, win0_2.index t 0 = t.val / 8 ∧ win0_2.index t 1 = 0 ∧ win0_2.index t 2 = 0 :=
  (by decide +kernel : ∀ t : Fin grid0.N, win0_2.index t 0 = t.val / 8 ∧ win0_2.index t 1 = 0 ∧ win0_2.index t 2 = 0)
private theorem index3 : ∀ t : Fin cfg0.N, win0_3.index t 0 = t.val / 8 ∧ win0_3.index t 1 = 0 ∧ win0_3.index t 2 = 0 :=
  (by decide +kernel : ∀ t : Fin grid0.N, win0_3.index t 0 = t.val / 8 ∧ win0_3.index t 1 = 0 ∧ win0_3.index t 2 = 0)
private theorem index4 : ∀ t : Fin cfg0.N, win0_4.index t 0 = t.val / 8 ∧ win0_4.index t 1 = 0 ∧ win0_4.index t 2 = 0 :=
  (by decide +kernel : ∀ t : Fin grid0.N, win0_4.index t 0 = t.val / 8 ∧ win0_4.index t 1 = 0 ∧ win0_4.index t 2 = 0)

set_option maxHeartbeats 400000 in
/-- What a point t ≡ 7 (mod 8) writes back of result buffer 2 is block t / 8 of the sum table. -/
private theorem flushed2_eq (c : Dev nD) (t : Fin cfg0.N) (hf : (cfg0.win 2).flush t = true) :
    (dats m 0 c).flushed 2 t
      = ((cfg0.win 2).blk t).view.read (Elt Ideal) (sum1Tab (m ((c : Thread nD τ).loc main_arg0)) (m ((c : Thread nD τ).loc main_arg1))) := by
  have h7 : t.val % 8 = 7 := (flush0_2 t).mp hf
  have hN : t.val < 16 := lt_of_lt_of_eq t.isLt (show cfg0.N = 16 from N_0)
  obtain ⟨i0, i1, i2⟩ := index2 t
  show (cfg0.win 2).cut (grid0.coords t) ((dats m 0 c).after 2 t) = _
  rw [after2]
  refine funext fun (y : S1x80x32.Idx) => ?_
  obtain ⟨z, cc, k, rfl⟩ : ∃ (z : Fin 1) (cc : Fin 80) (k : Fin 32), y = ix3 z cc k := ⟨_, _, _, eq_ix3 y⟩
  obtain rfl : z = 0 := Subsingleton.elim _ _
  rw [View.read_apply]
  have he : ((cfg0.win 2).blk t).view.emb (ix3 0 cc k) = (ix3 (⟨t.val / 8, by omega⟩ : Fin 2) cc k : STab.Idx) := by
    funext a; apply Fin.ext
    match a with
    | ⟨0, _⟩ => show win0_2.index t 0 * 1 + 1 * 0 = t.val / 8; omega
    | ⟨1, _⟩ => show win0_2.index t 1 * 80 + 1 * cc.val = cc.val; omega
    | ⟨2, _⟩ => show win0_2.index t 2 * 32 + 1 * k.val = k.val; omega
  show (outsAt m c t.val t.isLt).1 (ix3 0 cc k) = sum1Tab _ _ (((cfg0.win 2).blk t).view.emb (ix3 0 cc k))
  have h' : 8 * (⟨t.val / 8, by omega⟩ : Fin 2).val + 7 < cfg0.N := (show 8 * (t.val / 8) + 7 < 16 by omega).trans_eq N_0.symm
  rw [he, sum1Tab_ix3, outsAt_congr m c (show t.val = 8 * (⟨t.val / 8, by omega⟩ : Fin 2).val + 7 by show t.val = 8 * (t.val / 8) + 7; omega) t.isLt h',
    inv1 m c _ cc k 7 (by omega) h', sum_tileN, tiles1]

/-- Every entry of the [2, 80, 32] array lies in the block written back after the last tile of its image. -/
private theorem cover2 (i : STab.Idx) : ∃ t : Fin cfg0.N, (cfg0.win 2).flush t = true ∧ i ∈ ((cfg0.win 2).blk t).view.set := by
  have h0 : (i 0).val < 2 := (i 0).isLt
  have h1 : (i 1).val < 80 := (i 1).isLt
  have h2 : (i 2).val < 32 := (i 2).isLt
  have ht : 8 * (i 0).val + 7 < cfg0.N := (show 8 * (i 0).val + 7 < 16 by omega).trans_eq N_0.symm
  obtain ⟨i0, i1, i2⟩ := index2 ⟨8 * (i 0).val + 7, ht⟩
  refine ⟨⟨8 * (i 0).val + 7, ht⟩, (flush0_2 _).mpr (by show (8 * (i 0).val + 7) % 8 = 7; omega), ?_⟩
  show i ∈ ((View.whole main_v3_0).slice (win0_2.rect ⟨8 * (i 0).val + 7, ht⟩)).set
  rw [View.set_slice_whole, Rect.mem_set_unit]
  intro a
  match a with
  | ⟨0, _⟩ => show win0_2.index ⟨8 * (i 0).val + 7, ht⟩ 0 * 1 ≤ (i 0).val ∧ (i 0).val < win0_2.index ⟨8 * (i 0).val + 7, ht⟩ 0 * 1 + 1
              rw [i0]; dsimp only; omega
  | ⟨1, _⟩ => show win0_2.index ⟨8 * (i 0).val + 7, ht⟩ 1 * 80 ≤ (i 1).val ∧ (i 1).val < win0_2.index ⟨8 * (i 0).val + 7, ht⟩ 1 * 80 + 80
              rw [i1]; omega
  | ⟨2, _⟩ => show win0_2.index ⟨8 * (i 0).val + 7, ht⟩ 2 * 32 ≤ (i 2).val ∧ (i 2).val < win0_2.index ⟨8 * (i 0).val + 7, ht⟩ 2 * 32 + 32
              rw [i2]; omega

theorem arr2_eq (c : Dev nD) :
    (dats m 0 c).arrAt 2 cfg0.N = sum1Tab (m ((c : Thread nD τ).loc main_arg0)) (m ((c : Thread nD τ).loc main_arg1)) :=
  (dats m 0 c).arrAt_eq_of_cover 2 (sum1Tab (m ((c : Thread nD τ).loc main_arg0)) (m ((c : Thread nD τ).loc main_arg1))) (flushed2_eq m c) cover2

/-! ## The sum-of-squares table -/

/-- Tile p's contribution to entry (n, cc, k) of the sum-of-squares table. -/
private def tile2 (pred : SPred.Idx → EReal) (mask : SMask.Idx → BitVec 1) (n : Fin 2) (cc : Fin 80) (k : Fin 32) (p : Fin 8) : EReal :=
  ∑ l : Fin 32768, pred (ix4 n cc (pixRow p l) (pixCol p l)) * pred (ix4 n cc (pixRow p l) (pixCol p l)) * bit (mask (ix4 n k (pixRow p l) (pixCol p l)))

/-- The eight tiles' contributions add up to the entry of the sum-of-squares table. -/
private theorem tiles2 (pred : SPred.Idx → EReal) (mask : SMask.Idx → BitVec 1) (n : Fin 2) (cc : Fin 80) (k : Fin 32) :
    ∑ p : Fin 8, tile2 pred mask n cc k p = sum2 pred mask n cc k :=
  sum_tiles (fun h w => pred (ix4 n cc h w) * pred (ix4 n cc h w) * bit (mask (ix4 n k h w)))

/-- What the payload adds at point t = 8·n + p, entry (cc, k), is tile p's contribution. -/
private theorem contrib2 (c : Dev nD) (t : Fin cfg0.N) (n : Fin 2) (p : Fin 8) (ht : t.val = 8 * n.val + p.val) (cc : Fin 80) (k : Fin 32)
    (x0 : Vec Ideal S1x80x32768 .f32) (x1 : Vec Ideal S1x32x32768 .i32) (e0 : x0 = iblk m c 0 t) (e1 : x1 = iblk m c 1 t) :
    ∑ l : Fin 32768, x0 (ix3 0 cc l) * x0 (ix3 0 cc l) * wbit (x1 (ix3 0 k l))
      = tile2 (m ((c : Thread nD τ).loc main_arg0)) (m ((c : Thread nD τ).loc main_arg1)) n cc k p := by
  subst e0 e1
  exact Finset.sum_congr rfl fun l _ => by rw [iblk0_apply m c t n p ht cc l, iblk1_apply m c t n p ht k l, wbit_setWidth]

/-- After tile q of image n, entry (cc, k) of result buffer 3 is the sum of the contributions of tiles 0 … q. -/
private theorem inv2 (c : Dev nD) (n : Fin 2) (cc : Fin 80) (k : Fin 32) :
    ∀ (q : ℕ), q < 8 → ∀ h : 8 * n.val + q < cfg0.N,
      (outsAt m c (8 * n.val + q) h).2.1 (ix3 0 cc k)
        = ∑ s ∈ Finset.range (q + 1), tileN (tile2 (m ((c : Thread nD τ).loc main_arg0)) (m ((c : Thread nD τ).loc main_arg1)) n cc k) s := by
  refine run_sum (fun t h => (outsAt m c t h).2.1 (ix3 0 cc k)) (8 * n.val) 8 _ (fun h => ?_) (fun j h hj => ?_)
  · show (outsAt m c (8 * n.val + 0) h).2.1 (ix3 0 cc k) = _
    rw [outs_first m c (8 * n.val + 0) h (by omega)]
    show k0_pay1 (F := Ideal) (k0_pay9 _ _) _ (ix3 0 cc k) = _
    rw [pay1_apply, pay3_apply, zero_add, tileN_lt _ 0 (by omega), contrib2 m c ⟨8 * n.val + 0, h⟩ n ⟨0, by omega⟩ rfl cc k _ _ rfl rfl]
  · show (outsAt m c (8 * n.val + j + 1) h).2.1 (ix3 0 cc k) = (outsAt m c (8 * n.val + j) _).2.1 (ix3 0 cc k) + _
    rw [outs_later m c (8 * n.val + j) h (by omega)]
    show k0_pay1 (F := Ideal) (k0_pay9 _ _) _ (ix3 0 cc k) = _
    rw [pay1_apply, tileN_lt _ (j + 1) hj, contrib2 m c ⟨8 * n.val + j + 1, h⟩ n ⟨j + 1, hj⟩ rfl cc k _ _ rfl rfl]

set_option maxHeartbeats 400000 in
/-- What a point t ≡ 7 (mod 8) writes back of result buffer 3 is block t / 8 of the sum-of-squares table. -/
private theorem flushed3_eq (c : Dev nD) (t : Fin cfg0.N) (hf : (cfg0.win 3).flush t = true) :
    (dats m 0 c).flushed 3 t
      = ((cfg0.win 3).blk t).view.read (Elt Ideal) (sum2Tab (m ((c : Thread nD τ).loc main_arg0)) (m ((c : Thread nD τ).loc main_arg1))) := by
  have h7 : t.val % 8 = 7 := (flush0_3 t).mp hf
  have hN : t.val < 16 := lt_of_lt_of_eq t.isLt (show cfg0.N = 16 from N_0)
  obtain ⟨i0, i1, i2⟩ := index3 t
  show (cfg0.win 3).cut (grid0.coords t) ((dats m 0 c).after 3 t) = _
  rw [after3]
  refine funext fun (y : S1x80x32.Idx) => ?_
  obtain ⟨z, cc, k, rfl⟩ : ∃ (z : Fin 1) (cc : Fin 80) (k : Fin 32), y = ix3 z cc k := ⟨_, _, _, eq_ix3 y⟩
  obtain rfl : z = 0 := Subsingleton.elim _ _
  rw [View.read_apply]
  have he : ((cfg0.win 3).blk t).view.emb (ix3 0 cc k) = (ix3 (⟨t.val / 8, by omega⟩ : Fin 2) cc k : STab.Idx) := by
    funext a; apply Fin.ext
    match a with
    | ⟨0, _⟩ => show win0_3.index t 0 * 1 + 1 * 0 = t.val / 8; omega
    | ⟨1, _⟩ => show win0_3.index t 1 * 80 + 1 * cc.val = cc.val; omega
    | ⟨2, _⟩ => show win0_3.index t 2 * 32 + 1 * k.val = k.val; omega
  show (outsAt m c t.val t.isLt).2.1 (ix3 0 cc k) = sum2Tab _ _ (((cfg0.win 3).blk t).view.emb (ix3 0 cc k))
  have h' : 8 * (⟨t.val / 8, by omega⟩ : Fin 2).val + 7 < cfg0.N := (show 8 * (t.val / 8) + 7 < 16 by omega).trans_eq N_0.symm
  rw [he, sum2Tab_ix3, outsAt_congr m c (show t.val = 8 * (⟨t.val / 8, by omega⟩ : Fin 2).val + 7 by show t.val = 8 * (t.val / 8) + 7; omega) t.isLt h',
    inv2 m c _ cc k 7 (by omega) h', sum_tileN, tiles2]

/-- Every entry of the second [2, 80, 32] array lies in the block written back after the last tile of its image. -/
private theorem cover3 (i : STab.Idx) : ∃ t : Fin cfg0.N, (cfg0.win 3).flush t = true ∧ i ∈ ((cfg0.win 3).blk t).view.set := by
  have h0 : (i 0).val < 2 := (i 0).isLt
  have h1 : (i 1).val < 80 := (i 1).isLt
  have h2 : (i 2).val < 32 := (i 2).isLt
  have ht : 8 * (i 0).val + 7 < cfg0.N := (show 8 * (i 0).val + 7 < 16 by omega).trans_eq N_0.symm
  obtain ⟨i0, i1, i2⟩ := index3 ⟨8 * (i 0).val + 7, ht⟩
  refine ⟨⟨8 * (i 0).val + 7, ht⟩, (flush0_3 _).mpr (by show (8 * (i 0).val + 7) % 8 = 7; omega), ?_⟩
  show i ∈ ((View.whole main_v3_1).slice (win0_3.rect ⟨8 * (i 0).val + 7, ht⟩)).set
  rw [View.set_slice_whole, Rect.mem_set_unit]
  intro a
  match a with
  | ⟨0, _⟩ => show win0_3.index ⟨8 * (i 0).val + 7, ht⟩ 0 * 1 ≤ (i 0).val ∧ (i 0).val < win0_3.index ⟨8 * (i 0).val + 7, ht⟩ 0 * 1 + 1
              rw [i0]; dsimp only; omega
  | ⟨1, _⟩ => show win0_3.index ⟨8 * (i 0).val + 7, ht⟩ 1 * 80 ≤ (i 1).val ∧ (i 1).val < win0_3.index ⟨8 * (i 0).val + 7, ht⟩ 1 * 80 + 80
              rw [i1]; omega
  | ⟨2, _⟩ => show win0_3.index ⟨8 * (i 0).val + 7, ht⟩ 2 * 32 ≤ (i 2).val ∧ (i 2).val < win0_3.index ⟨8 * (i 0).val + 7, ht⟩ 2 * 32 + 32
              rw [i2]; omega

theorem arr3_eq (c : Dev nD) :
    (dats m 0 c).arrAt 3 cfg0.N = sum2Tab (m ((c : Thread nD τ).loc main_arg0)) (m ((c : Thread nD τ).loc main_arg1)) :=
  (dats m 0 c).arrAt_eq_of_cover 3 (sum2Tab (m ((c : Thread nD τ).loc main_arg0)) (m ((c : Thread nD τ).loc main_arg1))) (flushed3_eq m c) cover3

/-! ## The count table -/

/-- Tile p's contribution to entry (n, k) of the count table: the number of the tile's pixels in instance k's mask. -/
private def tile3 (mask : SMask.Idx → BitVec 1) (n : Fin 2) (k : Fin 32) (p : Fin 8) : EReal :=
  ∑ l : Fin 32768, bit (mask (ix4 n k (pixRow p l) (pixCol p l)))

/-- The eight tiles' contributions add up to the entry of the count table. -/
private theorem tiles3 (mask : SMask.Idx → BitVec 1) (n : Fin 2) (k : Fin 32) : ∑ p : Fin 8, tile3 mask n k p = cnt mask n k :=
  sum_tiles (fun h w => bit (mask (ix4 n k h w)))

/-- What the payload adds at point t = 8·n + p, entry k, is tile p's contribution. -/
private theorem contrib3 (c : Dev nD) (t : Fin cfg0.N) (n : Fin 2) (p : Fin 8) (ht : t.val = 8 * n.val + p.val) (k : Fin 32)
    (x1 : Vec Ideal S1x32x32768 .i32) (e1 : x1 = iblk m c 1 t) :
    ∑ l : Fin 32768, wbit (x1 (ix3 0 k l)) = tile3 (m ((c : Thread nD τ).loc main_arg1)) n k p := by
  subst e1
  exact Finset.sum_congr rfl fun l _ => by rw [iblk1_apply m c t n p ht k l, wbit_setWidth]

/-- After tile q of image n, entry k of result buffer 4 is the sum of the contributions of tiles 0 … q. -/
private theorem inv3 (c : Dev nD) (n : Fin 2) (k : Fin 32) :
    ∀ (q : ℕ), q < 8 → ∀ h : 8 * n.val + q < cfg0.N,
      (outsAt m c (8 * n.val + q) h).2.2 (ix3 0 k 0)
        = ∑ s ∈ Finset.range (q + 1), tileN (tile3 (m ((c : Thread nD τ).loc main_arg1)) n k) s := by
  refine run_sum (fun t h => (outsAt m c t h).2.2 (ix3 0 k 0)) (8 * n.val) 8 _ (fun h => ?_) (fun j h hj => ?_)
  · show (outsAt m c (8 * n.val + 0) h).2.2 (ix3 0 k 0) = _
    rw [outs_first m c (8 * n.val + 0) h (by omega)]
    show k0_pay6 (F := Ideal) _ _ (ix3 0 k 0) = _
    rw [pay6_apply, pay4_apply, zero_add, tileN_lt _ 0 (by omega), contrib3 m c ⟨8 * n.val + 0, h⟩ n ⟨0, by omega⟩ rfl k _ rfl]
  · show (outsAt m c (8 * n.val + j + 1) h).2.2 (ix3 0 k 0) = (outsAt m c (8 * n.val + j) _).2.2 (ix3 0 k 0) + _
    rw [outs_later m c (8 * n.val + j) h (by omega)]
    show k0_pay6 (F := Ideal) _ _ (ix3 0 k 0) = _
    rw [pay6_apply, tileN_lt _ (j + 1) hj, contrib3 m c ⟨8 * n.val + j + 1, h⟩ n ⟨j + 1, hj⟩ rfl k _ rfl]

set_option maxHeartbeats 400000 in
/-- What a point t ≡ 7 (mod 8) writes back of result buffer 4 is block t / 8 of the count table. -/
private theorem flushed4_eq (c : Dev nD) (t : Fin cfg0.N) (hf : (cfg0.win 4).flush t = true) :
    (dats m 0 c).flushed 4 t = ((cfg0.win 4).blk t).view.read (Elt Ideal) (cntTab (m ((c : Thread nD τ).loc main_arg1))) := by
  have h7 : t.val % 8 = 7 := (flush0_4 t).mp hf
  have hN : t.val < 16 := lt_of_lt_of_eq t.isLt (show cfg0.N = 16 from N_0)
  obtain ⟨i0, i1, i2⟩ := index4 t
  show (cfg0.win 4).cut (grid0.coords t) ((dats m 0 c).after 4 t) = _
  rw [after4]
  refine funext fun (y : S1x32x1.Idx) => ?_
  obtain ⟨z, k, z', rfl⟩ : ∃ (z : Fin 1) (k : Fin 32) (z' : Fin 1), y = ix3 z k z' := ⟨_, _, _, eq_ix3 y⟩
  obtain rfl : z = 0 := Subsingleton.elim _ _
  obtain rfl : z' = 0 := Subsingleton.elim _ _
  rw [View.read_apply]
  have he : ((cfg0.win 4).blk t).view.emb (ix3 0 k 0) = (ix3 (⟨t.val / 8, by omega⟩ : Fin 2) k (0 : Fin 1) : SCnt.Idx) := by
    funext a; apply Fin.ext
    match a with
    | ⟨0, _⟩ => show win0_4.index t 0 * 1 + 1 * 0 = t.val / 8; omega
    | ⟨1, _⟩ => show win0_4.index t 1 * 32 + 1 * k.val = k.val; omega
    | ⟨2, _⟩ => show win0_4.index t 2 * 1 + 1 * 0 = 0; omega
  show (outsAt m c t.val t.isLt).2.2 (ix3 0 k 0) = cntTab _ (((cfg0.win 4).blk t).view.emb (ix3 0 k 0))
  have h' : 8 * (⟨t.val / 8, by omega⟩ : Fin 2).val + 7 < cfg0.N := (show 8 * (t.val / 8) + 7 < 16 by omega).trans_eq N_0.symm
  rw [he, cntTab_ix3, outsAt_congr m c (show t.val = 8 * (⟨t.val / 8, by omega⟩ : Fin 2).val + 7 by show t.val = 8 * (t.val / 8) + 7; omega) t.isLt h',
    inv3 m c _ k 7 (by omega) h', sum_tileN, tiles3]

/-- Every entry of the [2, 32, 1] array lies in the block written back after the last tile of its image. -/
private theorem cover4 (i : SCnt.Idx) : ∃ t : Fin cfg0.N, (cfg0.win 4).flush t = true ∧ i ∈ ((cfg0.win 4).blk t).view.set := by
  have h0 : (i 0).val < 2 := (i 0).isLt
  have h1 : (i 1).val < 32 := (i 1).isLt
  have h2 : (i 2).val < 1 := (i 2).isLt
  have ht : 8 * (i 0).val + 7 < cfg0.N := (show 8 * (i 0).val + 7 < 16 by omega).trans_eq N_0.symm
  obtain ⟨i0, i1, i2⟩ := index4 ⟨8 * (i 0).val + 7, ht⟩
  refine ⟨⟨8 * (i 0).val + 7, ht⟩, (flush0_4 _).mpr (by show (8 * (i 0).val + 7) % 8 = 7; omega), ?_⟩
  show i ∈ ((View.whole main_v3_2).slice (win0_4.rect ⟨8 * (i 0).val + 7, ht⟩)).set
  rw [View.set_slice_whole, Rect.mem_set_unit]
  intro a
  match a with
  | ⟨0, _⟩ => show win0_4.index ⟨8 * (i 0).val + 7, ht⟩ 0 * 1 ≤ (i 0).val ∧ (i 0).val < win0_4.index ⟨8 * (i 0).val + 7, ht⟩ 0 * 1 + 1
              rw [i0]; dsimp only; omega
  | ⟨1, _⟩ => show win0_4.index ⟨8 * (i 0).val + 7, ht⟩ 1 * 32 ≤ (i 1).val ∧ (i 1).val < win0_4.index ⟨8 * (i 0).val + 7, ht⟩ 1 * 32 + 32
              rw [i1]; omega
  | ⟨2, _⟩ => show win0_4.index ⟨8 * (i 0).val + 7, ht⟩ 2 * 1 ≤ (i 2).val ∧ (i 2).val < win0_4.index ⟨8 * (i 0).val + 7, ht⟩ 2 * 1 + 1
              rw [i2]; omega

theorem arr4_eq (c : Dev nD) :
    (dats m 0 c).arrAt 4 cfg0.N = cntTab (m ((c : Thread nD τ).loc main_arg1)) :=
  (dats m 0 c).arrAt_eq_of_cover 4 (cntTab (m ((c : Thread nD τ).loc main_arg1))) (flushed4_eq m c) cover4

end Cert.KernelIdeal.Acc

end
-- ==== Proof.KTake.lean ====
/-
  The two layout steps between the region's tables and the loss tail, read at an entry over the extended reals:
  the [2,32,1] counts laid out as [2,32], and jnp.take_along_axis of a [2,80,32] table along its class axis by the
  class ids. A class id in [0, 80) is not wrapped, passes the range test, and the gather reads its row; so the result
  at (n, k) is the table at (n, class of (n, k), k).
-/
import proofs.«429512_j49709951484028_2_alg».proof.Proof.KernelIdealTail
import proofs.«429512_j49709951484028_2_alg».proof.Proof.Spec
import Idealize.ShloMosaic.Lib.ValueIdx
import Idealize.ShloMosaic.Lib.Pipeline.Value
import Idealize.ShloMosaic.Lib.StableHlo.Predicate

noncomputable section

namespace Cert.KernelIdeal.Tk

open Cert.KernelIdeal Cert.KernelIdeal.Gen Cert.KernelIdeal.Tl Cert.Spec Idealize.ShloMosaic Idealize.ShloMosaic.ValueIdx

/-! ## The counts: a trailing unit axis dropped -/

/-- The [2,32,1] array laid out as [2,32] reads, at (n, k), the operand at (n, k, 0). -/
theorem countRow_at (x : SCnt.Idx → EReal) (n : Fin 2) (k : Fin 32) :
    countRow (F := Ideal) x (ix2 n k) = x (ix3 n k (0 : Fin 1)) := by
  show shapeCast S2x32 x shapeCasts_S2x32x1_S2x32 (ix2 n k) = _
  refine shapeCast_apply x _ _ _ ?_
  rw [Shape.rowMajor_val_three, Shape.rowMajor_val_two]
  show (n.val * 32 + k.val) * 1 + 0 = n.val * 32 + k.val
  omega

/-- The counts table laid out as [2,32] is the counts array. -/
theorem countRow_cntTab (mask : SMask.Idx → BitVec 1) : countRow (F := Ideal) (cntTab mask) = cntA mask := by
  funext j
  obtain ⟨n, k, rfl⟩ : ∃ (n : Fin 2) (k : Fin 32), j = ix2 n k := ⟨j 0, j 1, eq_ix2 j⟩
  exact (countRow_at _ n k).trans rfl

/-! ## Words: a class id below 80 -/

/-- A word below 80 is not negative, so the wrap by 80 leaves it. -/
private theorem wrap_small (w : BitVec 32) (hw : w.toNat < 80) :
    Scalar.select (IntOp.cmpi .slt w 0#32) (IntOp.addi w 80#32) w = w := by
  have hc : ¬ IntOp.cmpi .slt w 0#32 = 1#1 := by
    rw [StableHlo.Predicate.slt_iff_toNat (by omega) (by decide)]
    exact Nat.not_lt_zero _
  exact if_neg hc

/-- A word below 80 passes the test 0 ≤ · ≤ 79. -/
private theorem inrange_small (w : BitVec 32) (hw : w.toNat < 80) :
    IntOp.andi (IntOp.cmpi .sge w 0#32) (IntOp.cmpi .sle w 79#32) = 1#1 := by
  have h1 : IntOp.cmpi .sge w 0#32 = 1#1 :=
    (StableHlo.Predicate.sge_iff_toNat (by omega) (by decide)).2 (Nat.zero_le _)
  have h2 : IntOp.cmpi .sle w 79#32 = 1#1 :=
    (StableHlo.Predicate.sle_iff_toNat (by omega) (by decide)).2 (by show w.toNat ≤ 79; omega)
  rw [h1, h2]; rfl

/-- A word below 80 read signed and clamped into [0, 79] is its value. -/
private theorem clamp_small (w : BitVec 32) (hw : w.toNat < 80) : min w.toInt.toNat 79 = w.toNat := by
  rw [StableHlo.Predicate.toInt_eq_toNat_of_lt (by omega), Int.toNat_natCast]
  omega

/-! ## A reduce by and of an array of ones -/

/-- A reduce by `and` from 1 over an array whose every element is 1 is 1 everywhere. -/
private theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  induction (List.filter (fun i => decide (h.drop i = j)) (List.map s.rowMajor.symm (List.finRange s.numel))) with
  | nil => rfl
  | cons a l ih =>
    rw [List.foldl_cons, hx a, show IntOp.andi 1#1 1#1 = 1#1 from rfl]
    exact ih

/-! ## The gather at a result index -/

/-- The gather's dimension numbers. -/
private abbrev gd := gather_S2x80x32_S2x1x32x1_S2x1x32_n_1_02_02_1_3_111

/-- The gather at (n, 0, k) reads the table at (n, r, k), r the start index at (n, 0, k, 0) read signed and clamped. -/
private theorem gather_at (T : STab.Idx → EReal) (idx : IVec S2x1x32x1 32) (n : Fin 2) (k : Fin 32) :
    Host.gather gd T idx (ix3 n (0 : Fin 1) k)
      = T (ix3 n (⟨min (idx (ix4 n (0 : Fin 1) k (0 : Fin 1))).toInt.toNat 79, by omega⟩ : Fin 80) k) := by
  unfold Host.gather
  congr 1
  funext a
  match a with
  | ⟨0, _⟩ =>
    refine Fin.ext ?_
    show gd.start _ idx _ + gd.batchCoord _ _ + gd.offCoord _ _ = n.val
    have h1 : gd.start (ix3 n (0 : Fin 1) k) idx ⟨0, by decide⟩ = 0 := rfl
    have h2 : gd.batchCoord (ix3 n (0 : Fin 1) k) ⟨0, by decide⟩ = n.val := rfl
    have h3 : gd.offCoord (ix3 n (0 : Fin 1) k) ⟨0, by decide⟩ = 0 := rfl
    rw [h1, h2, h3, Nat.zero_add, Nat.add_zero]
  | ⟨1, _⟩ =>
    refine Fin.ext ?_
    show gd.start _ idx _ + gd.batchCoord _ _ + gd.offCoord _ _ = min (idx (ix4 n (0 : Fin 1) k (0 : Fin 1))).toInt.toNat 79
    have hsi : gd.siIdx (ix3 n (0 : Fin 1) k) ⟨0, by decide⟩ = ix4 n (0 : Fin 1) k (0 : Fin 1) := by
      funext b
      match b with
      | ⟨0, _⟩ => rfl
      | ⟨1, _⟩ => rfl
      | ⟨2, _⟩ => rfl
      | ⟨3, _⟩ => rfl
    have h1 : gd.start (ix3 n (0 : Fin 1) k) idx ⟨1, by decide⟩
        = min (idx (gd.siIdx (ix3 n (0 : Fin 1) k) ⟨0, by decide⟩)).toInt.toNat 79 := rfl
    have h2 : gd.batchCoord (ix3 n (0 : Fin 1) k) ⟨1, by decide⟩ = 0 := rfl
    have h3 : gd.offCoord (ix3 n (0 : Fin 1) k) ⟨1, by decide⟩ = 0 := rfl
    rw [h1, h2, h3, hsi]
    rfl
  | ⟨2, _⟩ =>
    refine Fin.ext ?_
    show gd.start _ idx _ + gd.batchCoord _ _ + gd.offCoord _ _ = k.val
    have h1 : gd.start (ix3 n (0 : Fin 1) k) idx ⟨2, by decide⟩ = 0 := rfl
    have h2 : gd.batchCoord (ix3 n (0 : Fin 1) k) ⟨2, by decide⟩ = k.val := rfl
    have h3 : gd.offCoord (ix3 n (0 : Fin 1) k) ⟨2, by decide⟩ = 0 := rfl
    rw [h1, h2, h3, Nat.zero_add, Nat.add_zero]

/-! ## The class ids on their way to the gather -/

/-- The class ids as a [2,1,32] array. -/
private def bcls (cls : SCls.Idx → BitVec 32) : IVec S2x1x32 32 :=
  broadcastInDim S2x1x32 ![0, 2] bcast_S2x32_S2x1x32_0_2 cls

/-- The class ids with a negative one wrapped by 80. -/
private def wrapArr (cls : SCls.Idx → BitVec 32) : IVec S2x1x32 32 :=
  select (cmpi .slt (bcls cls) (broadcastInDim S2x1x32 ![] bcast_S_S2x1x32 (constantI S_ 32 0#32)))
    (addi (bcls cls) (broadcastInDim S2x1x32 ![] bcast_S_S2x1x32 (constantI S_ 32 80#32))) (bcls cls)

/-- The wrapped class ids as the gather's [2,1,32,1] start indices. -/
private def idxArr (cls : SCls.Idx → BitVec 32) : IVec S2x1x32x1 32 :=
  shapeCast S2x1x32x1 (wrapArr cls) shapeCasts_S2x1x32_S2x1x32x1

/-- Every entry of the broadcast class ids is a class id. -/
private theorem bcls_small (cls : SCls.Idx → BitVec 32) (h : InRange cls) (i : S2x1x32.Idx) : (bcls cls i).toNat < 80 := h _

/-- At (n, 0, k) it is the class id of (n, k). -/
private theorem bcls_at (cls : SCls.Idx → BitVec 32) (n : Fin 2) (k : Fin 32) : bcls cls (ix3 n (0 : Fin 1) k) = cls (ix2 n k) :=
  broadcastInDim_apply _ _ cls _ _ fun a => match a with | ⟨0, _⟩ => rfl | ⟨1, _⟩ => rfl

/-- In-range class ids are not wrapped. -/
private theorem wrapArr_eq (cls : SCls.Idx → BitVec 32) (h : InRange cls) (i : S2x1x32.Idx) : wrapArr cls i = bcls cls i :=
  wrap_small _ (bcls_small cls h i)

/-- Every start index is below 80. -/
private theorem idxArr_small (cls : SCls.Idx → BitVec 32) (h : InRange cls) (i : S2x1x32x1.Idx) : (idxArr cls i).toNat < 80 := by
  show (wrapArr cls (Shape.reshapeEquiv _ i)).toNat < 80
  rw [wrapArr_eq cls h]
  exact bcls_small cls h _

/-- The start index at (n, 0, k, 0) is the class id of (n, k). -/
private theorem idxArr_at (cls : SCls.Idx → BitVec 32) (h : InRange cls) (n : Fin 2) (k : Fin 32) :
    idxArr cls (ix4 n (0 : Fin 1) k (0 : Fin 1)) = cls (ix2 n k) := by
  refine (shapeCast_apply (wrapArr cls) _ _ (ix3 n (0 : Fin 1) k) ?_).trans ?_
  · rw [Shape.rowMajor_val_four, Shape.rowMajor_val_three]
    show (n.val * 1 + 0) * 32 + k.val = ((n.val * 1 + 0) * 32 + k.val) * 1 + 0
    omega
  · rw [wrapArr_eq cls h, bcls_at]

/-- The range test 0 ≤ · ≤ 79 of every start index. -/
private def okArr (cls : SCls.Idx → BitVec 32) : IVec S2x1x32x1 1 :=
  andi (cmpi .sge (idxArr cls) (broadcastInDim S2x1x32x1 ![] bcast_S_S2x1x32x1 (constantI S_ 32 0#32)))
    (cmpi .sle (idxArr cls)
      (broadcastInDim S2x1x32x1 ![0, 1, 2, 3] bcast_S1x1x1x1_S2x1x32x1_0_1_2_3
        (broadcastInDim S1x1x1x1 ![3] bcast_S1_S1x1x1x1_3 (constantI S1 32 79#32))))

/-- In-range class ids pass it everywhere. -/
private theorem okArr_one (cls : SCls.Idx → BitVec 32) (h : InRange cls) (i : S2x1x32x1.Idx) : okArr cls i = 1#1 :=
  inrange_small _ (idxArr_small cls h i)

/-! ## take_along_axis at an entry -/

/-- The program's take_along_axis, written over the start indices above. -/
private theorem takeRow_eq (T : STab.Idx → EReal) (cls : SCls.Idx → BitVec 32) :
    takeRow (F := Ideal) T cls
      = shapeCast S2x32
          (select
            (Host.reduce IntOp.andi (okArr cls) (constantI S_ 1 1#1) reducesTo_S2x1x32x1_S2x1x32_d3 h_S_)
            (Host.gather gd T (idxArr cls))
            (broadcastInDim S2x1x32 ![] bcast_S_S2x1x32 (constant (F := Ideal) S_ .f32 0x7FC00000#32)))
          shapeCasts_S2x1x32_S2x32 := rfl

/-- At (n, k) the result is the table at (n, class of (n, k), k). -/
theorem takeRow_at (T : STab.Idx → EReal) (cls : SCls.Idx → BitVec 32) (h : InRange cls) (n : Fin 2) (k : Fin 32) :
    takeRow (F := Ideal) T cls (ix2 n k) = T (ix3 n (clsRow cls n k) k) := by
  rw [takeRow_eq]
  refine (shapeCast_apply _ _ (ix2 n k) (ix3 n (0 : Fin 1) k) ?_).trans ?_
  · rw [Shape.rowMajor_val_three, Shape.rowMajor_val_two]
    show (n.val * 1 + 0) * 32 + k.val = n.val * 32 + k.val
    omega
  · rw [select_apply, reduce_andi_ones (okArr cls) (constantI S_ 1 1#1) _ _ (okArr_one cls h) rfl, select_one, gather_at]
    congr 2
    refine Fin.ext ?_
    show min (idxArr cls (ix4 n (0 : Fin 1) k (0 : Fin 1))).toInt.toNat 79 = (clsRow cls n k).val
    rw [idxArr_at cls h, clamp_small _ (h _), clsRow_val cls h]

/-- take_along_axis of a table by in-range class ids reads each instance's class row. -/
theorem takeRow_atRow (T : STab.Idx → EReal) (cls : SCls.Idx → BitVec 32) (h : InRange cls) :
    takeRow (F := Ideal) T cls = atRow T cls := by
  funext j
  obtain ⟨n, k, rfl⟩ : ∃ (n : Fin 2) (k : Fin 32), j = ix2 n k := ⟨j 0, j 1, eq_ix2 j⟩
  exact (takeRow_at T cls h n k).trans rfl

end Cert.KernelIdeal.Tk

end
-- ==== Proof.RGather.lean ====
/-
  The reference's gather `pred[classes]` (batched over the image axis) read at an entry: with class ids in [0, 80)
  the wrap of negative ids does nothing and the start index is not clamped, so entry (n, k, y, x) of the gathered
  [2,32,512,512] array is pred at (n, class of (n, k), y, x).
-/
import proofs.«429512_j49709951484028_2_alg».proof.Proof.RefRead
import proofs.«429512_j49709951484028_2_alg».proof.Proof.Spec
import Idealize.ShloMosaic.Lib.ValueIdx
import Idealize.ShloMosaic.Lib.Pipeline.Value
import Idealize.ShloMosaic.Lib.StableHlo.Predicate

noncomputable section

namespace Cert.ReferenceIdeal.RG

open Cert.ReferenceIdeal Cert.ReferenceIdeal.Gen Cert.ReferenceIdeal.ReadP Cert.Spec Idealize.ShloMosaic Idealize.ShloMosaic.ValueIdx

/-- A word below 80 read as a signed number is its unsigned value. -/
private theorem toInt_of_lt (w : BitVec 32) (hw : w.toNat < 80) : w.toInt = (w.toNat : Int) := by
  unfold BitVec.toInt; rw [if_pos (by omega)]

/-- A word below 80 is not negative: the signed comparison with 0 is the bit 0. -/
private theorem cmp_slt_zero (w : BitVec 32) (hw : w.toNat < 80) : IntOp.cmpi .slt w (0#32) = 0#1 := by
  have h : w.slt (0#32) = false := by
    rw [BitVec.slt, toInt_of_lt w hw]; simp
  unfold IntOp.cmpi; simp only [h]; rfl

/-- With class ids in range the wrap of negative ids leaves every id as it is. -/
private theorem v4_apply (a2 : SCls.Idx → BitVec 32) (h : InRange a2) (i : SCls.Idx) :
    val_main_v4 (F := Ideal) a2 i = a2 i := by
  rw [val_main_v4_apply, val_main_v1_apply, val_main_v0_apply, val_main_c_apply, cmp_slt_zero _ (h i)]
  exact select_zero _ _

/-- The reference gather's dimension numbers. -/
private abbrev gd : GatherDims S2x80x512x512 S2x32x1 S2x32x512x512 :=
  gather_S2x80x512x512_S2x32x1_S2x32x512x512_23_1_0_0_1_2_11512512

theorem v6_apply (a0 : SPred.Idx → EReal) (a2 : SCls.Idx → BitVec 32) (h : InRange a2) (n : Fin 2) (k : Fin 32) (y x : Fin 512) :
    val_main_v6 (F := Ideal) a0 a2 (ix4 n k y x) = a0 (ix4 n (clsRow a2 n k) y x) := by
  unfold val_main_v6 Host.gather
  congr 1
  funext a
  refine Fin.ext ?_
  match a with
  | ⟨0, _⟩ =>
    -- the image axis is the batching axis: no start, no offset, the result's first batch coordinate n
    show gd.start _ _ (0 : Fin 4) + gd.batchCoord _ (0 : Fin 4) + gd.offCoord _ (0 : Fin 4) = n.val
    have hb : (0 : Fin 4) ∈ gd.operandBatchingDims := List.mem_singleton.mpr rfl
    rw [GatherDims.start_batching _ _ _ _ hb,
      GatherDims.offCoord_eq_zero _ _ _ (fun hk => ((GatherDims.mem_sKept _ _).mp hk).2 hb)]
    unfold GatherDims.batchCoord
    rw [dif_pos hb]
    unfold GatherDims.siCoord
    simp only [Fin.val_cast, Nat.zero_add, Nat.add_zero]
    have key : ∀ (p : Nat) (hp : p < gd.batchDims.length), p = 0 → (ix4 n k y x gd.batchDims[p]).val = n.val :=
      fun p hp e => by subst e; rfl
    exact key _ _ (by decide +revert)
  | ⟨1, _⟩ =>
    -- the class axis is collapsed and start-indexed: the start index at (n, k, 0), a word below 80, read signed is
    -- itself and min (·) 79 leaves it
    show gd.start _ _ (1 : Fin 4) + gd.batchCoord _ (1 : Fin 4) + gd.offCoord _ (1 : Fin 4) = (clsRow a2 n k).val
    have hb : (1 : Fin 4) ∉ gd.operandBatchingDims := by decide
    have hm : (1 : Fin 4) ∈ gd.startIndexMap := List.mem_singleton.mpr rfl
    have hk : (1 : Fin 4) ∉ gd.sKept := by decide
    rw [GatherDims.batchCoord_eq_zero _ _ _ hb, GatherDims.offCoord_eq_zero _ _ _ hk]
    unfold GatherDims.start
    rw [dif_pos hm]
    simp only [Nat.add_zero]
    have hsi : gd.siIdx (ix4 n k y x) ⟨List.idxOf (1 : Fin 4) gd.startIndexMap, List.idxOf_lt_length_iff.2 hm⟩
        = ix3 n k (0 : Fin 1) := by
      funext b; refine Fin.ext ?_
      match b with
      | ⟨0, _⟩ => rfl
      | ⟨1, _⟩ => rfl
      | ⟨2, _⟩ => rfl
    rw [hsi, val_main_v5_apply]
    have h5 : idx_main_v5 (ix3 n k (0 : Fin 1)) = ix2 n k := by
      funext b; match b with | ⟨0, _⟩ => rfl | ⟨1, _⟩ => rfl
    rw [h5, v4_apply a2 h, toInt_of_lt _ (h _), Int.toNat_natCast, clsRow_val a2 h]
    have hlt := h (ix2 n k)
    show min _ (80 - 1) = _
    omega
  | ⟨2, _⟩ =>
    -- a full-window axis: start 0 (not start-indexed), the result's first offset coordinate y
    show gd.start _ _ (2 : Fin 4) + gd.batchCoord _ (2 : Fin 4) + gd.offCoord _ (2 : Fin 4) = y.val
    have hb : (2 : Fin 4) ∉ gd.operandBatchingDims := by decide
    have hm : (2 : Fin 4) ∉ gd.startIndexMap := by decide
    have hk : (2 : Fin 4) ∈ gd.sKept := by decide
    rw [GatherDims.batchCoord_eq_zero _ _ _ hb]
    unfold GatherDims.start GatherDims.offCoord
    rw [dif_neg hm, dif_pos hk]
    simp only [Nat.zero_add, Nat.add_zero]
    have key : ∀ (p : Nat) (hp : p < gd.offsetDims.length), p = 0 → (ix4 n k y x gd.offsetDims[p]).val = y.val :=
      fun p hp e => by subst e; rfl
    exact key _ _ (by decide)
  | ⟨3, _⟩ =>
    -- a full-window axis: start 0, the result's second offset coordinate x
    show gd.start _ _ (3 : Fin 4) + gd.batchCoord _ (3 : Fin 4) + gd.offCoord _ (3 : Fin 4) = x.val
    have hb : (3 : Fin 4) ∉ gd.operandBatchingDims := by decide
    have hm : (3 : Fin 4) ∉ gd.startIndexMap := by decide
    have hk : (3 : Fin 4) ∈ gd.sKept := by decide
    rw [GatherDims.batchCoord_eq_zero _ _ _ hb]
    unfold GatherDims.start GatherDims.offCoord
    rw [dif_neg hm, dif_pos hk]
    simp only [Nat.zero_add, Nat.add_zero]
    have key : ∀ (p : Nat) (hp : p < gd.offsetDims.length), p = 1 → (ix4 n k y x gd.offsetDims[p]).val = x.val :=
      fun p hp e => by subst e; rfl
    exact key _ _ (by decide)

end Cert.ReferenceIdeal.RG

end
-- ==== Proof.RSums.lean ====
/-
  The reference's three sums over the 512 × 512 pixels, as the specification's arrays: the masked pixel counts, and the
  masked sums of the gathered class row and of its square. A host sum over the two pixel axes from the zero word is
  0 + the double sum over rows and columns; the mask bit converted to a float is 0 or 1.
-/
import proofs.«429512_j49709951484028_2_alg».proof.Proof.RGather
import Idealize.ShloMosaic.PureOps.Ideal.Laws

noncomputable section

namespace Cert.ReferenceIdeal.RS

open Cert.ReferenceIdeal Cert.ReferenceIdeal.Gen Cert.ReferenceIdeal.ReadP Cert.Spec Idealize.ShloMosaic Idealize.ShloMosaic.ValueIdx

/-! ## The indices a sum over the two pixel axes collects -/

/-- Dropping the two pixel axes of (n, k, y, x) leaves (n, k); -/
private theorem drop_ix4 (n : Fin 2) (k : Fin 32) (y x : Fin 512) :
    reducesTo_S2x32x512x512_S2x32_d2_3.drop (ix4 n k y x) = ix2 n k := by
  funext b
  match b with
  | ⟨0, _⟩ => rfl
  | ⟨1, _⟩ => rfl

/-- and an index that drops to (j₀, j₁) is (j₀, j₁, its row, its column); -/
private theorem eq_ix4_of_drop (i : S2x32x512x512.Idx) (j : S2x32.Idx)
    (h : reducesTo_S2x32x512x512_S2x32_d2_3.drop i = j) : i = ix4 (j 0) (j 1) (i 2) (i 3) := by
  subst h
  funext a
  match a with
  | ⟨0, _⟩ => rfl
  | ⟨1, _⟩ => rfl
  | ⟨2, _⟩ => rfl
  | ⟨3, _⟩ => rfl

/-- so the indices summed at (n, k) are the pixels (n, k, y, x), one for each pair (y, x). -/
private def pixEmb (n : Fin 2) (k : Fin 32) : Fin 512 × Fin 512 ↪ S2x32x512x512.Idx :=
  ⟨fun p => ix4 n k p.1 p.2, fun p q h => Prod.ext (congrFun h 2) (congrFun h 3)⟩

private theorem filter_drop (n : Fin 2) (k : Fin 32) :
    Finset.univ.filter (fun i : S2x32x512x512.Idx => reducesTo_S2x32x512x512_S2x32_d2_3.drop i = ix2 n k)
      = Finset.univ.map (pixEmb n k) := by
  ext i
  simp only [Finset.mem_filter, Finset.mem_univ, true_and, Finset.mem_map, pixEmb, Function.Embedding.coeFn_mk]
  exact ⟨fun h => ⟨(i 2, i 3), (eq_ix4_of_drop i (ix2 n k) h).symm⟩, fun ⟨p, hp⟩ => hp ▸ drop_ix4 n k p.1 p.2⟩

/-- The host's sum over the two pixel axes from 0, at (n, k): the double sum over rows and columns. -/
private theorem hsum_apply (x : S2x32x512x512.Idx → EReal) (n : Fin 2) (k : Fin 32) :
    Ideal.hostReduceAdd reducesTo_S2x32x512x512_S2x32_d2_3 x 0 (ix2 n k)
      = ∑ y : Fin 512, ∑ w : Fin 512, x (ix4 n k y w) := by
  unfold Ideal.hostReduceAdd
  rw [filter_drop, Finset.sum_map, zero_add, Fintype.sum_prod_type]
  rfl

/-! ## The mask bit as a float -/

/-- A one-bit word read unsigned is 0 or 1: the specification's mask bit as a number. -/
private theorem uitofp_bit (b : BitVec 1) : FloatOps.uitofp (F := Ideal) .f32 b = bit b := by
  show ((b.toNat : ℝ) : EReal) = bit b
  rcases BitVec.eq_zero_or_eq_one b with rfl | rfl
  · simp [bit]
  · simp [bit]

/-! ## The three sums -/

/-- The count at (n, k): the sum over the pixels of the mask bit. -/
private theorem v8_at (a1 : SMask.Idx → BitVec 1) (n : Fin 2) (k : Fin 32) :
    val_main_v8 (F := Ideal) a1 (ix2 n k) = cnt a1 n k := by
  show Ideal.hostReduceAdd reducesTo_S2x32x512x512_S2x32_d2_3 (val_main_v7 (F := Ideal) a1)
    (Ideal.ofBits .f32 0x00000000#32) (ix2 n k) = cnt a1 n k
  rw [Ideal.ofBits_zero_f32, hsum_apply]
  unfold cnt
  refine Finset.sum_congr rfl fun y _ => Finset.sum_congr rfl fun w _ => ?_
  rw [val_main_v7_apply]
  exact uitofp_bit _

/-- The masked sum at (n, k): the gathered entry is the class row's, so the sum is the class row's masked sum. -/
private theorem v10_at (a0 : SPred.Idx → EReal) (a1 : SMask.Idx → BitVec 1) (a2 : SCls.Idx → BitVec 32) (h : InRange a2)
    (n : Fin 2) (k : Fin 32) : val_main_v10 (F := Ideal) a0 a1 a2 (ix2 n k) = sum1 a0 a1 n (clsRow a2 n k) k := by
  show Ideal.hostReduceAdd reducesTo_S2x32x512x512_S2x32_d2_3 (val_main_v9 (F := Ideal) a0 a1 a2)
    (Ideal.ofBits .f32 0x00000000#32) (ix2 n k) = sum1 a0 a1 n (clsRow a2 n k) k
  rw [Ideal.ofBits_zero_f32, hsum_apply]
  unfold sum1
  refine Finset.sum_congr rfl fun y _ => Finset.sum_congr rfl fun w _ => ?_
  rw [val_main_v9_apply, val_main_v7_apply, RG.v6_apply a0 a2 h, uitofp_bit]
  rfl

/-- The masked sum of squares at (n, k), likewise. -/
private theorem v13_at (a0 : SPred.Idx → EReal) (a1 : SMask.Idx → BitVec 1) (a2 : SCls.Idx → BitVec 32) (h : InRange a2)
    (n : Fin 2) (k : Fin 32) : val_main_v13 (F := Ideal) a0 a1 a2 (ix2 n k) = sum2 a0 a1 n (clsRow a2 n k) k := by
  show Ideal.hostReduceAdd reducesTo_S2x32x512x512_S2x32_d2_3 (val_main_v12 (F := Ideal) a0 a1 a2)
    (Ideal.ofBits .f32 0x00000000#32) (ix2 n k) = sum2 a0 a1 n (clsRow a2 n k) k
  rw [Ideal.ofBits_zero_f32, hsum_apply]
  unfold sum2
  refine Finset.sum_congr rfl fun y _ => Finset.sum_congr rfl fun w _ => ?_
  rw [val_main_v12_apply, val_main_v11_apply, val_main_v7_apply, RG.v6_apply a0 a2 h, uitofp_bit]
  rfl

theorem v8_eq (a1 : SMask.Idx → BitVec 1) : val_main_v8 (F := Ideal) a1 = cntA a1 := by
  funext j
  rw [eq_ix2 j]
  exact v8_at a1 (j 0) (j 1)

theorem v10_eq (a0 : SPred.Idx → EReal) (a1 : SMask.Idx → BitVec 1) (a2 : SCls.Idx → BitVec 32) (h : InRange a2) :
    val_main_v10 (F := Ideal) a0 a1 a2 = sum1A a0 a1 a2 := by
  funext j
  rw [eq_ix2 j]
  exact v10_at a0 a1 a2 h (j 0) (j 1)

theorem v13_eq (a0 : SPred.Idx → EReal) (a1 : SMask.Idx → BitVec 1) (a2 : SCls.Idx → BitVec 32) (h : InRange a2) :
    val_main_v13 (F := Ideal) a0 a1 a2 = sum2A a0 a1 a2 := by
  funext j
  rw [eq_ix2 j]
  exact v13_at a0 a1 a2 h (j 0) (j 1)

end Cert.ReferenceIdeal.RS

end
-- ==== Proof.RTail.lean ====
/-
  After its three sums the reference applies, operation by operation, the same loss tail as the kernel's program: the
  only difference in text is that where the kernel's program spreads a scalar over [2,32] (or [2,32,32]) in one step,
  the reference spreads it over [32] (or [32,32]) first and then along the image axis. Both give the constant array.
-/
import proofs.«429512_j49709951484028_2_alg».proof.Proof.RefRead
import proofs.«429512_j49709951484028_2_alg».proof.Proof.KernelIdealTail
import Idealize.ShloMosaic.Lib.Pipeline.Value

noncomputable section

namespace Cert.ReferenceIdeal.RT

open Cert.ReferenceIdeal Cert.ReferenceIdeal.Gen Cert.ReferenceIdeal.ReadP Idealize.ShloMosaic

variable {F : FTy → Type} [FloatOps F]

/-- A scalar spread over a shape `m` and the result spread over a shape `t` is the scalar spread over `t` at once: every
    entry of either array is the scalar's one entry, the rank-0 index being unique. -/
private theorem bcast_scalar_twice {α : Type} {m t : Shape}
    (d0 : Fin (⟨0, ![]⟩ : Shape).rank → Fin m.rank) (h0 : (⟨0, ![]⟩ : Shape).BroadcastsInDim m d0)
    (d1 : Fin m.rank → Fin t.rank) (h1 : m.BroadcastsInDim t d1)
    (d : Fin (⟨0, ![]⟩ : Shape).rank → Fin t.rank) (h : (⟨0, ![]⟩ : Shape).BroadcastsInDim t d)
    (x : (⟨0, ![]⟩ : Shape).Idx → α) :
    broadcastInDim t d1 h1 (broadcastInDim m d0 h0 x) = broadcastInDim t d h x := by
  funext j
  unfold broadcastInDim
  exact congrArg x (funext fun a => a.elim0)

set_option maxRecDepth 16384 in
set_option maxHeartbeats 400000 in
theorem v63_eq_tail (a0 : (⟨S2x80x512x512, .f32⟩ : BufTy).Contents (Elt F)) (a1 : (⟨S2x32x512x512, .i1⟩ : BufTy).Contents (Elt F))
    (a2 : (⟨S2x32, .i32⟩ : BufTy).Contents (Elt F)) :
    val_main_v63 (F := F) a0 a1 a2
      = Cert.KernelIdeal.Tl.lossTail (F := F) (val_main_v8 (F := F) a1) (val_main_v10 (F := F) a0 a1 a2) (val_main_v13 (F := F) a0 a1 a2) a2 := by
  simp only [
    val_main_v63, val_main_cst_22, val_main_v62, val_main_cst_21, val_main_v61, val_main_cst_20,
    val_main_v60, val_main_cst_19, val_main_v59, val_main_v58, val_main_v57, val_main_cst_18,
    val_main_v56, val_main_v55, val_main_v54, val_main_cst_17, val_main_v53, val_main_v52,
    val_main_cst_16, val_main_v51, val_main_v50, val_main_cst_15, val_main_v49, val_main_cst_14,
    val_main_v48, val_main_v47, val_main_cst_13, val_main_v46, val_main_cst_12, val_main_v45,
    val_main_v44, val_main_cst_11, val_main_v43, val_main_call4_v2, val_main_call4_v1, val_main_call4_v0,
    val_main_cst_10, val_main_v42, val_main_v41, val_main_cst_9, val_main_v40, val_main_v39,
    val_main_cst_8, val_main_v38, val_main_v37, val_main_v36, val_main_v35, val_main_call3_v5,
    val_main_call3_c_0, val_main_call3_v4, val_main_call3_v3, val_main_call3_v2, val_main_call3_v1, val_main_call3_c,
    val_main_call3_v0, val_main_v34, val_main_c_7, val_main_v33, val_main_v32, val_main_v31,
    val_main_v30, val_main_v29, val_main_v28, val_main_v27, val_main_v26, val_main_v25,
    val_main_v24, val_main_v23, val_main_v22, val_main_call2_v2, val_main_call2_v1, val_main_call2_v0,
    val_main_cst_6, val_main_v21, val_main_v20, val_main_v19, val_main_v18, val_main_call1_v2,
    val_main_call1_v1, val_main_call1_v0, val_main_cst_5, val_main_v17, val_main_v16, val_main_call0_v2,
    val_main_call0_v1, val_main_call0_v0, val_main_cst_4, val_main_v15, val_main_v14, val_main_cst_3]
  unfold Cert.KernelIdeal.Tl.lossTail
  rw [bcast_scalar_twice _ bcast_S_S32 _ bcast_S32_S2x32_1 _ bcast_S_S2x32,
    bcast_scalar_twice _ bcast_S_S32x32 _ bcast_S32x32_S2x32x32_1_2 _ bcast_S_S2x32x32]
  rfl

end Cert.ReferenceIdeal.RT

end
-- ==== Proof.PreDecode.lean ====
/-
  The precondition read: it is the conjunction of "every entry of pred is finite", "every class id is ≥ 0" and "every
  class id is < 80" (signed comparisons, each reduced with `and` over the whole array). From the last two, every
  class id is below 80 as an unsigned word.
-/
import proofs.«429512_j49709951484028_2_alg».proof.Pre_finite_inputs
import proofs.«429512_j49709951484028_2_alg».proof.Proof.Gen.Pre_finite_inputs
import proofs.«429512_j49709951484028_2_alg».proof.Proof.Spec
import Idealize.ShloMosaic.Lib.ReduceAll
import Idealize.ShloMosaic.Lib.StableHlo.Predicate

noncomputable section

namespace Cert.Pre_finite_inputs.Dec

open Cert.Pre_finite_inputs Cert.Spec Idealize.ShloMosaic Idealize.ShloMosaic.ValueIdx

variable [Cert.Pre_finite_inputs.Facts]

/-- A bit-conjunction is set exactly when both bits are. -/
private theorem and1 : ∀ a b : BitVec 1, IntOp.andi a b = 1#1 ↔ a = 1#1 ∧ b = 1#1 := by decide

/-- A 32-bit word that is ≥ 0 and < 80 as a signed number is below 80 as an unsigned one. -/
private theorem toNat_lt_80 (w : BitVec 32) (h0 : IntOp.cmpi .sge w 0#32 = 1#1) (h1 : IntOp.cmpi .slt w 80#32 = 1#1) :
    w.toNat < 80 := by
  rw [IntOp.cmpi_sge] at h0
  rw [IntOp.cmpi_slt] at h1
  have e0 : (0#32 : BitVec 32).toInt = 0 := by decide
  have e80 : (80#32 : BitVec 32).toInt = 80 := by decide
  rw [e0] at h0
  rw [e80] at h1
  unfold BitVec.toInt at h0 h1
  split at h0 <;> omega

/-- The rank-0 result shape has one index. -/
private instance : Subsingleton S_.Idx := ⟨fun a b => funext fun d => d.elim0⟩

theorem inRange_of_pre {F : FTy → Type} [FloatOps F] (a0 : FVec F S2x80x512x512 .f32) (a1 : IVec S2x32x512x512 1) (a2 : IVec S2x32 32)
    (h : Cert.Pre_finite_inputs.fn (F := F) a0 a1 a2 = fun _ => 1#1) : InRange a2 := by
  have h0 := congrFun h ValueIdx.ix0
  dsimp only [Cert.Pre_finite_inputs.fn] at h0
  -- the value is (finite ∧ all ≥ 0) ∧ all < 80
  simp only [Idealize.ShloMosaic.andi, and1] at h0
  obtain ⟨⟨_, h2⟩, h3⟩ := h0
  intro j
  have g0 := Host.reduce_andi_all _ _ _ _ _ h2 j
  have g1 := Host.reduce_andi_all _ _ _ _ _ h3 j
  exact toNat_lt_80 (a2 j) g0 g1

end Cert.Pre_finite_inputs.Dec

end
-- ==== Proof.lean ====
/-
  The certificate. Both programs compute the same loss from (pred, mask, classes):

    the kernel's region accumulates, image by image and tile by tile, the tables sum1[n, c, k] = ∑ over pixels of
    pred[n, c, ·] · mask[n, k, ·] and sum2 (the same with pred²) over ALL 80 class rows c, and the counts
    cnt[n, k] = ∑ mask[n, k, ·]; the host then reads, for each instance k, its own class row c = classes[n, k];

    the reference first gathers pred[n, classes[n, k], ·] and sums only that row.

  Over the extended reals the tile-by-tile running sums are the sums over all 512 × 512 pixels (a finite sum may be
  regrouped freely; no finiteness is used), the change of float format is the identity, and for a class id in [0, 80)
  — the added precondition — reading row classes[n, k] of the kernel's table is the reference's gathered row. From
  the three [2, 32] arrays on, the two programs apply the same operations, carried here as one function (`lossTail`).

  The three frames: the kernel's two programs run their one pipelined region to the end and the host operations around
  it leave the argument arrays alone; the reference is a straight line of host operations.
-/
import proofs.«429512_j49709951484028_2_alg».proof.Defs
import proofs.«429512_j49709951484028_2_alg».proof.Proof.Gen.Kernel
import proofs.«429512_j49709951484028_2_alg».proof.Proof.Gen.KernelIdeal
import proofs.«429512_j49709951484028_2_alg».proof.Proof.Gen.ReferenceIdeal
import proofs.«429512_j49709951484028_2_alg».proof.Proof.Gen.Pre_finite_inputs
import proofs.«429512_j49709951484028_2_alg».proof.Proof.KernelFrame
import proofs.«429512_j49709951484028_2_alg».proof.Proof.KTail
import proofs.«429512_j49709951484028_2_alg».proof.Proof.KAccum
import proofs.«429512_j49709951484028_2_alg».proof.Proof.KTake
import proofs.«429512_j49709951484028_2_alg».proof.Proof.RSums
import proofs.«429512_j49709951484028_2_alg».proof.Proof.RTail
import proofs.«429512_j49709951484028_2_alg».proof.Proof.PreDecode
import Idealize.ShloMosaic.Adequacy
import Idealize.ShloMosaic.Init

noncomputable section

namespace Cert.Proof

open Idealize.ShloMosaic Idealize.ShloMosaic.TcCoe Idealize.SL.Sem Cert.Spec

/-- The loss both programs end with, from the kernel's launch memory. -/
def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v59) :=
  Cert.KernelIdeal.Tl.lossTail (F := Ideal)
    (cntA (m ((c.tc : Thread Cert.KernelIdeal.nD Cert.KernelIdeal.τ).loc Cert.KernelIdeal.main_arg1)))
    (sum1A (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
    (sum2A (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
    (m ((c.tc : Thread Cert.KernelIdeal.nD Cert.KernelIdeal.τ).loc Cert.KernelIdeal.main_arg2))

/-- What the kernel's program ends with, given valid class ids: the loss, and its arguments unchanged. -/
theorem kernel_run (m : (ℓ : Loc Cert.KernelIdeal.nD Cert.KernelIdeal.τ Cert.KernelIdeal.sig) → Buf (Elt Ideal) ℓ) (ρ : Dev Cert.KernelIdeal.nD → PrngReg)
    (hr : ∀ c : Dev Cert.KernelIdeal.nD, InRange (m ((c.tc : Thread Cert.KernelIdeal.nD Cert.KernelIdeal.τ).loc Cert.KernelIdeal.main_arg2))) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v59) = result m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run (Cert.KernelIdeal.defs (F := Ideal)) _ _).mono (fun _ h c =>
    ⟨((h c).2 Cert.KernelIdeal.main_v59 (Pipeline.mem_restRefs_of Cert.KernelIdeal.main_v59 (by decide) (by decide))).trans
        ((Cert.KernelIdeal.KT.tail_eq m c).trans (by
          rw [Cert.KernelIdeal.Acc.arr2_eq, Cert.KernelIdeal.Acc.arr3_eq, Cert.KernelIdeal.Acc.arr4_eq,
            Cert.KernelIdeal.Tk.countRow_cntTab, Cert.KernelIdeal.Tk.takeRow_atRow _ _ (hr c), Cert.KernelIdeal.Tk.takeRow_atRow _ _ (hr c)]
          rfl)),
     ((h c).2 Cert.KernelIdeal.main_arg0 (Pipeline.mem_restRefs_of Cert.KernelIdeal.main_arg0 (by decide) (by decide))).trans (Cert.KernelIdeal.Fr.W_main_arg0 m _ c),
     ((h c).2 Cert.KernelIdeal.main_arg1 (Pipeline.mem_restRefs_of Cert.KernelIdeal.main_arg1 (by decide) (by decide))).trans (Cert.KernelIdeal.Fr.W_main_arg1 m _ c),
     ((h c).2 Cert.KernelIdeal.main_arg2 (Pipeline.mem_restRefs_of Cert.KernelIdeal.main_arg2 (by decide) (by decide))).trans (Cert.KernelIdeal.Fr.W_main_arg2 m _ c)⟩)
    (Cert.KernelIdeal.Fr.run_main (F := Ideal) m ρ)

/-- The two idealized programs, from memories agreeing on the arguments, end with the same loss. -/
theorem algebraic : @Cert.algebraic_KernelIdeal_ReferenceIdeal Cert.KernelIdeal.Gen.facts Cert.ReferenceIdeal.Gen.facts Cert.Pre_finite_inputs.Gen.facts := by
  intro m ρ m' ρ' hpre hagree
  have hr : ∀ c : Dev Cert.KernelIdeal.nD, InRange (m ((c.tc : Thread Cert.KernelIdeal.nD Cert.KernelIdeal.τ).loc Cert.KernelIdeal.main_arg2)) :=
    fun c => Cert.Pre_finite_inputs.Dec.inRange_of_pre _ _ _ (hpre c)
  refine ⟨fun c => result m c, kernel_run m ρ hr, ?_⟩
  refine (θ_run (Cert.ReferenceIdeal.defs (F := Ideal)) _ _).mono (fun _ h c => ⟨?_, (h c).2⟩) (Cert.ReferenceIdeal.ValueP.run (F := Ideal) m' ρ')
  rw [(h c).1, Cert.ReferenceIdeal.ReadP.val_main_v63_eq, Cert.ReferenceIdeal.RT.v63_eq_tail, (hagree c).1, (hagree c).2.1, (hagree c).2.2,
    Cert.ReferenceIdeal.RS.v8_eq, Cert.ReferenceIdeal.RS.v10_eq _ _ _ (hr c), Cert.ReferenceIdeal.RS.v13_eq _ _ _ (hr c)]
  rfl

theorem claim : Cert.Claim := ⟨Cert.Kernel.Gen.facts, Cert.KernelIdeal.Gen.facts, Cert.ReferenceIdeal.Gen.facts, Cert.Pre_finite_inputs.Gen.facts,
  fun m ρ _ => Cert.Kernel.Fr.frame (F := Bits) m ρ,
  fun m ρ _ => Cert.KernelIdeal.Fr.frame (F := Ideal) m ρ,
  fun m ρ _ => (θ_run (Cert.ReferenceIdeal.defs (F := Ideal)) _ _).mono (fun _ h c => (h c).2) (Cert.ReferenceIdeal.ValueP.run (F := Ideal) m ρ),
  trivial,
  algebraic⟩

end Cert.Proof

end
